-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S10000x256 : Shape := ⟨2, ![10000, 256]⟩
abbrev S100000 : Shape := ⟨1, ![100000]⟩
abbrev S10000 : Shape := ⟨1, ![10000]⟩
abbrev S500000 : Shape := ⟨1, ![500000]⟩
abbrev S200000 : Shape := ⟨1, ![200000]⟩
abbrev S100000x128 : Shape := ⟨2, ![100000, 128]⟩
abbrev S10000x128 : Shape := ⟨2, ![10000, 128]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S10000x256 : S_.BroadcastsInDim S10000x256 (![] : Fin 0 → Fin S10000x256.rank)
  reducesTo_S10000x256_S_d0_1 : S10000x256.ReducesTo [0, 1] S_
  bcast_S_S100000x128 : S_.BroadcastsInDim S100000x128 (![] : Fin 0 → Fin S100000x128.rank)
  reducesTo_S100000x128_S_d0_1 : S100000x128.ReducesTo [0, 1] S_
  bcast_S_S10000x128 : S_.BroadcastsInDim S10000x128 (![] : Fin 0 → Fin S10000x128.rank)
  reducesTo_S10000x128_S_d0_1 : S10000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S100000 : S_.BroadcastsInDim S100000 (![] : Fin 0 → Fin S100000.rank)
  reducesTo_S100000_S_d0 : S100000.ReducesTo [0] S_
  bcast_S_S10000 : S_.BroadcastsInDim S10000 (![] : Fin 0 → Fin S10000.rank)
  reducesTo_S10000_S_d0 : S10000.ReducesTo [0] S_
  bcast_S_S200000 : S_.BroadcastsInDim S200000 (![] : Fin 0 → Fin S200000.rank)
  reducesTo_S200000_S_d0 : S200000.ReducesTo [0] S_

variable [Facts]

def fn_part8 {F : FTy → Type} [FloatOps F] (main_arg6 : IVec S200000 32) (main_arg7 : IVec S200000 32) (main_v132 : IVec S_ 1) (main_v134 : IVec S200000 1) (main_v135 : IVec S200000 32) : IVec S_ 1 :=
  let main_v136 : IVec S200000 1 := cmpi .sle main_arg6 main_v135
  let main_v137 : IVec S200000 1 := andi main_v134 main_v136
  let main_c_54 : IVec S_ 1 := constantI S_ 1 1#1
  let main_v138 : IVec S_ 1 := (fun x v => Host.reduce IntOp.andi x v reducesTo_S200000_S_d0 h_S_) main_v137 main_c_54
  let main_v139 : IVec S_ 1 := andi main_v132 main_v138
  let main_c_55 : IVec S_ 32 := constantI S_ 32 0#32
  let main_v140 : IVec S200000 32 := broadcastInDim S200000 ![] bcast_S_S200000 main_c_55
  let main_v141 : IVec S200000 1 := cmpi .sge main_arg7 main_v140
  let main_c_56 : IVec S_ 32 := constantI S_ 32 9999#32
  let main_v142 : IVec S200000 32 := broadcastInDim S200000 ![] bcast_S_S200000 main_c_56
  let main_v143 : IVec S200000 1 := cmpi .sle main_arg7 main_v142
  let main_v144 : IVec S200000 1 := andi main_v141 main_v143
  let main_c_57 : IVec S_ 1 := constantI S_ 1 1#1
  let main_v145 : IVec S_ 1 := (fun x v => Host.reduce IntOp.andi x v reducesTo_S200000_S_d0 h_S_) main_v144 main_c_57
  let main_v146 : IVec S_ 1 := andi main_v139 main_v145
  main_v146

def fn_part7 {F : FTy → Type} [FloatOps F] (main_arg2 : IVec S100000 32) (main_arg3 : IVec S10000 32) (main_arg6 : IVec S200000 32) (main_arg7 : IVec S200000 32) (main_v118 : IVec S_ 1) (main_c_46 : IVec S_ 32) : IVec S_ 1 :=
  let main_v119 : IVec S100000 32 := broadcastInDim S100000 ![] bcast_S_S100000 main_c_46
  let main_v120 : IVec S100000 1 := cmpi .sge main_arg2 main_v119
  let main_c_47 : IVec S_ 32 := constantI S_ 32 99999#32
  let main_v121 : IVec S100000 32 := broadcastInDim S100000 ![] bcast_S_S100000 main_c_47
  let main_v122 : IVec S100000 1 := cmpi .sle main_arg2 main_v121
  let main_v123 : IVec S100000 1 := andi main_v120 main_v122
  let main_c_48 : IVec S_ 1 := constantI S_ 1 1#1
  let main_v124 : IVec S_ 1 := (fun x v => Host.reduce IntOp.andi x v reducesTo_S100000_S_d0 h_S_) main_v123 main_c_48
  let main_v125 : IVec S_ 1 := andi main_v118 main_v124
  let main_c_49 : IVec S_ 32 := constantI S_ 32 0#32
  let main_v126 : IVec S10000 32 := broadcastInDim S10000 ![] bcast_S_S10000 main_c_49
  let main_v127 : IVec S10000 1 := cmpi .sge main_arg3 main_v126
  let main_c_50 : IVec S_ 32 := constantI S_ 32 9999#32
  let main_v128 : IVec S10000 32 := broadcastInDim S10000 ![] bcast_S_S10000 main_c_50
  let main_v129 : IVec S10000 1 := cmpi .sle main_arg3 main_v128
  let main_v130 : IVec S10000 1 := andi main_v127 main_v129
  let main_c_51 : IVec S_ 1 := constantI S_ 1 1#1
  let main_v131 : IVec S_ 1 := (fun x v => Host.reduce IntOp.andi x v reducesTo_S10000_S_d0 h_S_) main_v130 main_c_51
  let main_v132 : IVec S_ 1 := andi main_v125 main_v131
  let main_c_52 : IVec S_ 32 := constantI S_ 32 0#32
  let main_v133 : IVec S200000 32 := broadcastInDim S200000 ![] bcast_S_S200000 main_c_52
  let main_v134 : IVec S200000 1 := cmpi .sge main_arg6 main_v133
  let main_c_53 : IVec S_ 32 := constantI S_ 32 99999#32
  let main_v135 : IVec S200000 32 := broadcastInDim S200000 ![] bcast_S_S200000 main_c_53
  fn_part8 (F := F) main_arg6 main_arg7 main_v132 main_v134 main_v135

def fn_part6 {F : FTy → Type} [FloatOps F] (main_arg2 : IVec S100000 32) (main_arg3 : IVec S10000 32) (main_arg6 : IVec S200000 32) (main_arg7 : IVec S200000 32) (main_arg27 : FVec F S128 .f32) (main_arg28 : FVec F S128x1 .f32) (main_arg29 : FVec F S1 .f32) (main_v98 : IVec S_ 1) (main_v101 : IVec S256x128 1) (main_c_39 : IVec S_ 1) : IVec S_ 1 :=
  let main_v102 : IVec S_ 1 := (fun x v => Host.reduce IntOp.andi x v reducesTo_S256x128_S_d0_1 h_S_) main_v101 main_c_39
  let main_v103 : IVec S_ 1 := andi main_v98 main_v102
  let main_v104 : FVec F S128 .f32 := Host.absf main_arg27
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128x1 .f32 := Host.absf main_arg28
  let main_cst_42 : FVec F S_ .f32 := constant S_ .f32 0x7F800000#32
  let main_v110 : FVec F S128x1 .f32 := broadcastInDim S128x1 ![] bcast_S_S128x1 main_cst_42
  let main_v111 : IVec S128x1 1 := cmpf .olt main_v109 main_v110
  let main_c_43 : IVec S_ 1 := constantI S_ 1 1#1
  let main_v112 : IVec S_ 1 := (fun x v => Host.reduce IntOp.andi x v reducesTo_S128x1_S_d0_1 h_S_) main_v111 main_c_43
  let main_v113 : IVec S_ 1 := andi main_v108 main_v112
  let main_v114 : FVec F S1 .f32 := Host.absf main_arg29
  let main_cst_44 : FVec F S_ .f32 := constant S_ .f32 0x7F800000#32
  let main_v115 : FVec F S1 .f32 := broadcastInDim S1 ![] bcast_S_S1 main_cst_44
  let main_v116 : IVec S1 1 := cmpf .olt main_v114 main_v115
  let main_c_45 : IVec S_ 1 := constantI S_ 1 1#1
  let main_v117 : IVec S_ 1 := (fun x v => Host.reduce IntOp.andi x v reducesTo_S1_S_d0 h_S_) main_v116 main_c_45
  let main_v118 : IVec S_ 1 := andi main_v113 main_v117
  let main_c_46 : IVec S_ 32 := constantI S_ 32 0#32
  fn_part7 (F := F) main_arg2 main_arg3 main_arg6 main_arg7 main_v118 main_c_46

def fn_part5 {F : FTy → Type} [FloatOps F] (main_arg2 : IVec S100000 32) (main_arg3 : IVec S10000 32) (main_arg6 : IVec S200000 32) (main_arg7 : IVec S200000 32) (main_arg24 : FVec F S128 .f32) (main_arg25 : FVec F S128x128 .f32) (main_arg26 : FVec F S256x128 .f32) (main_arg27 : FVec F S128 .f32) (main_arg28 : FVec F S128x1 .f32) (main_arg29 : FVec F S1 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg24
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg25
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S256x128 .f32 := Host.absf main_arg26
  let main_cst_38 : FVec F S_ .f32 := constant S_ .f32 0x7F800000#32
  let main_v100 : FVec F S256x128 .f32 := broadcastInDim S256x128 ![] bcast_S_S256x128 main_cst_38
  let main_v101 : IVec S256x128 1 := cmpf .olt main_v99 main_v100
  let main_c_39 : IVec S_ 1 := constantI S_ 1 1#1
  fn_part6 (F := F) main_arg2 main_arg3 main_arg6 main_arg7 main_arg27 main_arg28 main_arg29 main_v98 main_v101 main_c_39

def fn_part4 {F : FTy → Type} [FloatOps F] (main_arg2 : IVec S100000 32) (main_arg3 : IVec S10000 32) (main_arg6 : IVec S200000 32) (main_arg7 : IVec S200000 32) (main_arg20 : FVec F S128x128 .f32) (main_arg21 : FVec F S128 .f32) (main_arg22 : FVec F S128x128 .f32) (main_arg23 : FVec F S128x128 .f32) (main_arg24 : FVec F S128 .f32) (main_arg25 : FVec F S128x128 .f32) (main_arg26 : FVec F S256x128 .f32) (main_arg27 : FVec F S128 .f32) (main_arg28 : FVec F S128x1 .f32) (main_arg29 : FVec F S1 .f32) (main_v63 : IVec S_ 1) (main_v67 : IVec S_ 1) : IVec S_ 1 :=
  let main_v68 : IVec S_ 1 := andi main_v63 main_v67
  let main_v69 : FVec F S128x128 .f32 := Host.absf main_arg20
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg21
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg22
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128x128 .f32 := Host.absf main_arg23
  let main_cst_32 : FVec F S_ .f32 := constant S_ .f32 0x7F800000#32
  fn_part5 (F := F) main_arg2 main_arg3 main_arg6 main_arg7 main_arg24 main_arg25 main_arg26 main_arg27 main_arg28 main_arg29 main_v83 main_v84 main_cst_32

def fn_part3 {F : FTy → Type} [FloatOps F] (main_arg2 : IVec S100000 32) (main_arg3 : IVec S10000 32) (main_arg6 : IVec S200000 32) (main_arg7 : IVec S200000 32) (main_arg17 : FVec F S128x128 .f32) (main_arg18 : FVec F S128 .f32) (main_arg19 : FVec F S128x128 .f32) (main_arg20 : FVec F S128x128 .f32) (main_arg21 : FVec F S128 .f32) (main_arg22 : FVec F S128x128 .f32) (main_arg23 : FVec F S128x128 .f32) (main_arg24 : FVec F S128 .f32) (main_arg25 : FVec F S128x128 .f32) (main_arg26 : FVec F S256x128 .f32) (main_arg27 : FVec F S128 .f32) (main_arg28 : FVec F S128x1 .f32) (main_arg29 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg17
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg18
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg19
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg2 main_arg3 main_arg6 main_arg7 main_arg20 main_arg21 main_arg22 main_arg23 main_arg24 main_arg25 main_arg26 main_arg27 main_arg28 main_arg29 main_v63 main_v67

def fn_part2 {F : FTy → Type} [FloatOps F] (main_arg2 : IVec S100000 32) (main_arg3 : IVec S10000 32) (main_arg6 : IVec S200000 32) (main_arg7 : IVec S200000 32) (main_arg13 : FVec F S128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S128x128 .f32) (main_arg21 : FVec F S128 .f32) (main_arg22 : FVec F S128x128 .f32) (main_arg23 : FVec F S128x128 .f32) (main_arg24 : FVec F S128 .f32) (main_arg25 : FVec F S128x128 .f32) (main_arg26 : FVec F S256x128 .f32) (main_arg27 : FVec F S128 .f32) (main_arg28 : FVec F S128x1 .f32) (main_arg29 : FVec F S1 .f32) (main_v33 : IVec S_ 1) : IVec S_ 1 :=
  let main_v34 : FVec F S128 .f32 := Host.absf main_arg13
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg14
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg15
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg16
  let main_cst_18 : FVec F S_ .f32 := constant S_ .f32 0x7F800000#32
  let main_v50 : FVec F S128x128 .f32 := broadcastInDim S128x128 ![] bcast_S_S128x128 main_cst_18
  fn_part3 (F := F) main_arg2 main_arg3 main_arg6 main_arg7 main_arg17 main_arg18 main_arg19 main_arg20 main_arg21 main_arg22 main_arg23 main_arg24 main_arg25 main_arg26 main_arg27 main_arg28 main_arg29 main_v48 main_v49 main_v50

def fn_part1 {F : FTy → Type} [FloatOps F] (main_arg2 : IVec S100000 32) (main_arg3 : IVec S10000 32) (main_arg6 : IVec S200000 32) (main_arg7 : IVec S200000 32) (main_arg10 : FVec F S256x128 .f32) (main_arg11 : FVec F S128 .f32) (main_arg12 : FVec F S256x128 .f32) (main_arg13 : FVec F S128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S128x128 .f32) (main_arg21 : FVec F S128 .f32) (main_arg22 : FVec F S128x128 .f32) (main_arg23 : FVec F S128x128 .f32) (main_arg24 : FVec F S128 .f32) (main_arg25 : FVec F S128x128 .f32) (main_arg26 : FVec F S256x128 .f32) (main_arg27 : FVec F S128 .f32) (main_arg28 : FVec F S128x1 .f32) (main_arg29 : FVec F S1 .f32) (main_v13 : IVec S_ 1) (main_v16 : IVec S10000x128 1) : IVec S_ 1 :=
  let main_c_5 : IVec S_ 1 := constantI S_ 1 1#1
  let main_v17 : IVec S_ 1 := (fun x v => Host.reduce IntOp.andi x v reducesTo_S10000x128_S_d0_1 h_S_) main_v16 main_c_5
  let main_v18 : IVec S_ 1 := andi main_v13 main_v17
  let main_v19 : FVec F S256x128 .f32 := Host.absf main_arg10
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg11
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg12
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg2 main_arg3 main_arg6 main_arg7 main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : FVec F S100000x256 .f32) (main_arg1 : FVec F S10000x256 .f32) (main_arg2 : IVec S100000 32) (main_arg3 : IVec S10000 32) (main_arg4 : IVec S500000 32) (main_arg5 : IVec S500000 32) (main_arg6 : IVec S200000 32) (main_arg7 : IVec S200000 32) (main_arg8 : FVec F S100000x128 .f32) (main_arg9 : FVec F S10000x128 .f32) (main_arg10 : FVec F S256x128 .f32) (main_arg11 : FVec F S128 .f32) (main_arg12 : FVec F S256x128 .f32) (main_arg13 : FVec F S128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S128x128 .f32) (main_arg21 : FVec F S128 .f32) (main_arg22 : FVec F S128x128 .f32) (main_arg23 : FVec F S128x128 .f32) (main_arg24 : FVec F S128 .f32) (main_arg25 : FVec F S128x128 .f32) (main_arg26 : FVec F S256x128 .f32) (main_arg27 : FVec F S128 .f32) (main_arg28 : FVec F S128x1 .f32) (main_arg29 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S10000x256 .f32 := Host.absf main_arg1
  let main_cst_0 : FVec F S_ .f32 := constant S_ .f32 0x7F800000#32
  let main_v5 : FVec F S10000x256 .f32 := broadcastInDim S10000x256 ![] bcast_S_S10000x256 main_cst_0
  let main_v6 : IVec S10000x256 1 := cmpf .olt main_v4 main_v5
  let main_c_1 : IVec S_ 1 := constantI S_ 1 1#1
  let main_v7 : IVec S_ 1 := (fun x v => Host.reduce IntOp.andi x v reducesTo_S10000x256_S_d0_1 h_S_) main_v6 main_c_1
  let main_v8 : IVec S_ 1 := andi main_v3 main_v7
  let main_v9 : FVec F S100000x128 .f32 := Host.absf main_arg8
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S10000x128 .f32 := Host.absf main_arg9
  let main_cst_4 : FVec F S_ .f32 := constant S_ .f32 0x7F800000#32
  let main_v15 : FVec F S10000x128 .f32 := broadcastInDim S10000x128 ![] bcast_S_S10000x128 main_cst_4
  let main_v16 : IVec S10000x128 1 := cmpf .olt main_v14 main_v15
  fn_part1 (F := F) main_arg2 main_arg3 main_arg6 main_arg7 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S100000x256 : Shape := ⟨2, ![100000, 256]⟩
abbrev S10000x256 : Shape := ⟨2, ![10000, 256]⟩
abbrev S100000 : Shape := ⟨1, ![100000]⟩
abbrev S10000 : Shape := ⟨1, ![10000]⟩
abbrev S500000 : Shape := ⟨1, ![500000]⟩
abbrev S200000 : Shape := ⟨1, ![200000]⟩
abbrev S100000x128 : Shape := ⟨2, ![100000, 128]⟩
abbrev S10000x128 : Shape := ⟨2, ![10000, 128]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩
abbrev S100000x1 : Shape := ⟨2, ![100000, 1]⟩
abbrev S1x1 : Shape := ⟨2, ![1, 1]⟩
abbrev S10000x1 : Shape := ⟨2, ![10000, 1]⟩
abbrev S5000x256 : Shape := ⟨2, ![5000, 256]⟩
abbrev S5000x128 : Shape := ⟨2, ![5000, 128]⟩
abbrev S1x128 : Shape := ⟨2, ![1, 128]⟩
abbrev S500000x1 : Shape := ⟨2, ![500000, 1]⟩
abbrev S500000x128 : Shape := ⟨2, ![500000, 128]⟩
abbrev S200000x1 : Shape := ⟨2, ![200000, 1]⟩
abbrev S200000x128 : Shape := ⟨2, ![200000, 128]⟩
abbrev S200000x256 : Shape := ⟨2, ![200000, 256]⟩
abbrev S5000x1 : Shape := ⟨2, ![5000, 1]⟩

abbrev nBuf : Space → Nat
  | .hbm => 217
  | .vmem => 60
  | .smem => 0
  | _ => 0

abbrev hbmTy0_0 (i : Nat) : BufTy := match i % 128 with
  | 0 => ⟨S100000x256, .f32⟩
  | 1 => ⟨S10000x256, .f32⟩
  | 2 => ⟨S100000, .i32⟩
  | 3 => ⟨S10000, .i32⟩
  | 4 => ⟨S500000, .i32⟩
  | 5 => ⟨S500000, .i32⟩
  | 6 => ⟨S200000, .i32⟩
  | 7 => ⟨S200000, .i32⟩
  | 8 => ⟨S100000x128, .f32⟩
  | 9 => ⟨S10000x128, .f32⟩
  | 10 => ⟨S256x128, .f32⟩
  | 11 => ⟨S128, .f32⟩
  | 12 => ⟨S256x128, .f32⟩
  | 13 => ⟨S128, .f32⟩
  | 14 => ⟨S128x128, .f32⟩
  | 15 => ⟨S128, .f32⟩
  | 16 => ⟨S128x128, .f32⟩
  | 17 => ⟨S128x128, .f32⟩
  | 18 => ⟨S128, .f32⟩
  | 19 => ⟨S128x128, .f32⟩
  | 20 => ⟨S128x128, .f32⟩
  | 21 => ⟨S128, .f32⟩
  | 22 => ⟨S128x128, .f32⟩
  | 23 => ⟨S128x128, .f32⟩
  | 24 => ⟨S128, .f32⟩
  | 25 => ⟨S128x128, .f32⟩
  | 26 => ⟨S256x128, .f32⟩
  | 27 => ⟨S128, .f32⟩
  | 28 => ⟨S128x1, .f32⟩
  | 29 => ⟨S1, .f32⟩
  | 30 => ⟨S_, .i32⟩
  | 31 => ⟨S100000, .i32⟩
  | 32 => ⟨S100000, .i1⟩
  | 33 => ⟨S_, .i32⟩
  | 34 => ⟨S100000, .i32⟩
  | 35 => ⟨S100000, .i32⟩
  | 36 => ⟨S100000, .i32⟩
  | 37 => ⟨S100000x1, .i32⟩
  | 38 => ⟨S1, .i32⟩
  | 39 => ⟨S_, .i32⟩
  | 40 => ⟨S100000x1, .i32⟩
  | 41 => ⟨S100000x1, .i1⟩
  | 42 => ⟨S1x1, .i32⟩
  | 43 => ⟨S100000x1, .i32⟩
  | 44 => ⟨S100000x1, .i1⟩
  | 45 => ⟨S100000x1, .i1⟩
  | 46 => ⟨S_, .i1⟩
  | 47 => ⟨S100000, .i1⟩
  | 48 => ⟨S100000x128, .f32⟩
  | 49 => ⟨S100000x128, .i1⟩
  | 50 => ⟨S_, .f32⟩
  | 51 => ⟨S100000x128, .f32⟩
  | 52 => ⟨S100000x128, .f32⟩
  | 53 => ⟨S_, .i32⟩
  | 54 => ⟨S10000, .i32⟩
  | 55 => ⟨S10000, .i1⟩
  | 56 => ⟨S_, .i32⟩
  | 57 => ⟨S10000, .i32⟩
  | 58 => ⟨S10000, .i32⟩
  | 59 => ⟨S10000, .i32⟩
  | 60 => ⟨S10000x1, .i32⟩
  | 61 => ⟨S1, .i32⟩
  | 62 => ⟨S_, .i32⟩
  | 63 => ⟨S10000x1, .i32⟩
  | 64 => ⟨S10000x1, .i1⟩
  | 65 => ⟨S1x1, .i32⟩
  | 66 => ⟨S10000x1, .i32⟩
  | 67 => ⟨S10000x1, .i1⟩
  | 68 => ⟨S10000x1, .i1⟩
  | 69 => ⟨S_, .i1⟩
  | 70 => ⟨S10000, .i1⟩
  | 71 => ⟨S10000x128, .f32⟩
  | 72 => ⟨S10000x128, .i1⟩
  | 73 => ⟨S_, .f32⟩
  | 74 => ⟨S10000x128, .f32⟩
  | 75 => ⟨S10000x128, .f32⟩
  | 76 => ⟨S100000x128, .f32⟩
  | 77 => ⟨S10000x128, .f32⟩
  | 78 => ⟨S_, .f32⟩
  | 79 => ⟨S500000, .f32⟩
  | 80 => ⟨S_, .f32⟩
  | 81 => ⟨S10000, .f32⟩
  | 82 => ⟨S500000x1, .i32⟩
  | 83 => ⟨S10000, .f32⟩
  | 84 => ⟨S_, .f32⟩
  | 85 => ⟨S100000, .f32⟩
  | 86 => ⟨S500000x1, .i32⟩
  | 87 => ⟨S100000, .f32⟩
  | 88 => ⟨S_, .i32⟩
  | 89 => ⟨S500000, .i32⟩
  | 90 => ⟨S500000, .i1⟩
  | 91 => ⟨S_, .i32⟩
  | 92 => ⟨S500000, .i32⟩
  | 93 => ⟨S500000, .i32⟩
  | 94 => ⟨S500000, .i32⟩
  | 95 => ⟨S500000x1, .i32⟩
  | 96 => ⟨S500000x128, .f32⟩
  | 97 => ⟨S_, .f32⟩
  | 98 => ⟨S10000x128, .f32⟩
  | 99 => ⟨S500000x1, .i32⟩
  | 100 => ⟨S10000x128, .f32⟩
  | 101 => ⟨S_, .f32⟩
  | 102 => ⟨S10000, .f32⟩
  | 103 => ⟨S10000, .f32⟩
  | 104 => ⟨S10000x1, .f32⟩
  | 105 => ⟨S10000x128, .f32⟩
  | 106 => ⟨S10000x128, .f32⟩
  | 107 => ⟨S_, .i32⟩
  | 108 => ⟨S500000, .i32⟩
  | 109 => ⟨S500000, .i1⟩
  | 110 => ⟨S_, .i32⟩
  | 111 => ⟨S500000, .i32⟩
  | 112 => ⟨S500000, .i32⟩
  | 113 => ⟨S500000, .i32⟩
  | 114 => ⟨S500000x1, .i32⟩
  | 115 => ⟨S500000x128, .f32⟩
  | 116 => ⟨S_, .f32⟩
  | 117 => ⟨S100000x128, .f32⟩
  | 118 => ⟨S500000x1, .i32⟩
  | 119 => ⟨S100000x128, .f32⟩
  | 120 => ⟨S_, .f32⟩
  | 121 => ⟨S100000, .f32⟩
  | 122 => ⟨S100000, .f32⟩
  | 123 => ⟨S100000x1, .f32⟩
  | 124 => ⟨S100000x128, .f32⟩
  | 125 => ⟨S100000x128, .f32⟩
  | 126 => ⟨S10000x128, .f32⟩
  | 127 => ⟨S100000x128, .f32⟩
  | _ => ⟨S100000x256, .f32⟩

abbrev hbmTy0_1 (i : Nat) : BufTy := match i % 128 with
  | 0 => ⟨S_, .i32⟩
  | 1 => ⟨S500000, .i32⟩
  | 2 => ⟨S500000, .i1⟩
  | 3 => ⟨S_, .i32⟩
  | 4 => ⟨S500000, .i32⟩
  | 5 => ⟨S500000, .i32⟩
  | 6 => ⟨S500000, .i32⟩
  | 7 => ⟨S500000x1, .i32⟩
  | 8 => ⟨S500000x128, .f32⟩
  | 9 => ⟨S_, .f32⟩
  | 10 => ⟨S10000x128, .f32⟩
  | 11 => ⟨S500000x1, .i32⟩
  | 12 => ⟨S10000x128, .f32⟩
  | 13 => ⟨S_, .f32⟩
  | 14 => ⟨S10000, .f32⟩
  | 15 => ⟨S10000, .f32⟩
  | 16 => ⟨S10000x1, .f32⟩
  | 17 => ⟨S10000x128, .f32⟩
  | 18 => ⟨S10000x128, .f32⟩
  | 19 => ⟨S_, .i32⟩
  | 20 => ⟨S500000, .i32⟩
  | 21 => ⟨S500000, .i1⟩
  | 22 => ⟨S_, .i32⟩
  | 23 => ⟨S500000, .i32⟩
  | 24 => ⟨S500000, .i32⟩
  | 25 => ⟨S500000, .i32⟩
  | 26 => ⟨S500000x1, .i32⟩
  | 27 => ⟨S500000x128, .f32⟩
  | 28 => ⟨S_, .f32⟩
  | 29 => ⟨S100000x128, .f32⟩
  | 30 => ⟨S500000x1, .i32⟩
  | 31 => ⟨S100000x128, .f32⟩
  | 32 => ⟨S_, .f32⟩
  | 33 => ⟨S100000, .f32⟩
  | 34 => ⟨S100000, .f32⟩
  | 35 => ⟨S100000x1, .f32⟩
  | 36 => ⟨S100000x128, .f32⟩
  | 37 => ⟨S100000x128, .f32⟩
  | 38 => ⟨S10000x128, .f32⟩
  | 39 => ⟨S100000x128, .f32⟩
  | 40 => ⟨S_, .i32⟩
  | 41 => ⟨S200000, .i32⟩
  | 42 => ⟨S200000, .i1⟩
  | 43 => ⟨S_, .i32⟩
  | 44 => ⟨S200000, .i32⟩
  | 45 => ⟨S200000, .i32⟩
  | 46 => ⟨S200000, .i32⟩
  | 47 => ⟨S200000x1, .i32⟩
  | 48 => ⟨S1, .i32⟩
  | 49 => ⟨S_, .i32⟩
  | 50 => ⟨S200000x1, .i32⟩
  | 51 => ⟨S200000x1, .i1⟩
  | 52 => ⟨S1x1, .i32⟩
  | 53 => ⟨S200000x1, .i32⟩
  | 54 => ⟨S200000x1, .i1⟩
  | 55 => ⟨S200000x1, .i1⟩
  | 56 => ⟨S_, .i1⟩
  | 57 => ⟨S200000, .i1⟩
  | 58 => ⟨S200000x128, .f32⟩
  | 59 => ⟨S200000x128, .i1⟩
  | 60 => ⟨S_, .f32⟩
  | 61 => ⟨S200000x128, .f32⟩
  | 62 => ⟨S200000x128, .f32⟩
  | 63 => ⟨S_, .i32⟩
  | 64 => ⟨S200000, .i32⟩
  | 65 => ⟨S200000, .i1⟩
  | 66 => ⟨S_, .i32⟩
  | 67 => ⟨S200000, .i32⟩
  | 68 => ⟨S200000, .i32⟩
  | 69 => ⟨S200000, .i32⟩
  | 70 => ⟨S200000x1, .i32⟩
  | 71 => ⟨S1, .i32⟩
  | 72 => ⟨S_, .i32⟩
  | 73 => ⟨S200000x1, .i32⟩
  | 74 => ⟨S200000x1, .i1⟩
  | 75 => ⟨S1x1, .i32⟩
  | 76 => ⟨S200000x1, .i32⟩
  | 77 => ⟨S200000x1, .i1⟩
  | 78 => ⟨S200000x1, .i1⟩
  | 79 => ⟨S_, .i1⟩
  | 80 => ⟨S200000, .i1⟩
  | 81 => ⟨S200000x128, .f32⟩
  | 82 => ⟨S200000x128, .i1⟩
  | 83 => ⟨S_, .f32⟩
  | 84 => ⟨S200000x128, .f32⟩
  | 85 => ⟨S200000x128, .f32⟩
  | 86 => ⟨S200000x256, .f32⟩
  | 87 => ⟨S200000x1, .f32⟩
  | 88 => ⟨S200000, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S5000x128, .f32⟩
  | .local _ .vmem, ⟨3, _⟩ => ⟨S5000x128, .f32⟩
  | .local _ .vmem, ⟨4, _⟩ => ⟨S256x128, .f32⟩
  | .local _ .vmem, ⟨5, _⟩ => ⟨S128, .f32⟩
  | .local _ .vmem, ⟨6, _⟩ => ⟨S5000x128, .f32⟩
  | .local _ .vmem, ⟨7, _⟩ => ⟨S5000x128, .f32⟩
  | .local _ .vmem, ⟨8, _⟩ => ⟨S5000x256, .f32⟩
  | .local _ .vmem, ⟨9, _⟩ => ⟨S5000x256, .f32⟩
  | .local _ .vmem, ⟨10, _⟩ => ⟨S5000x128, .f32⟩
  | .local _ .vmem, ⟨11, _⟩ => ⟨S5000x128, .f32⟩
  | .local _ .vmem, ⟨12, _⟩ => ⟨S256x128, .f32⟩
  | .local _ .vmem, ⟨13, _⟩ => ⟨S128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S128x128, .f32⟩
  | .local _ .vmem, ⟨30, _⟩ => ⟨S128, .f32⟩
  | .local _ .vmem, ⟨31, _⟩ => ⟨S128x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x128, .f32⟩
  | .local _ .vmem, ⟨39, _⟩ => ⟨S128, .f32⟩
  | .local _ .vmem, ⟨40, _⟩ => ⟨S128x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S128x128, .f32⟩
  | .local _ .vmem, ⟨48, _⟩ => ⟨S128, .f32⟩
  | .local _ .vmem, ⟨49, _⟩ => ⟨S128x128, .f32⟩
  | .local _ .vmem, ⟨50, _⟩ => ⟨S5000x128, .f32⟩
  | .local _ .vmem, ⟨51, _⟩ => ⟨S5000x128, .f32⟩
  | .local _ .vmem, ⟨52, _⟩ => ⟨S5000x256, .f32⟩
  | .local _ .vmem, ⟨53, _⟩ => ⟨S5000x256, .f32⟩
  | .local _ .vmem, ⟨54, _⟩ => ⟨S256x128, .f32⟩
  | .local _ .vmem, ⟨55, _⟩ => ⟨S128, .f32⟩
  | .local _ .vmem, ⟨56, _⟩ => ⟨S128x1, .f32⟩
  | .local _ .vmem, ⟨57, _⟩ => ⟨S1, .f32⟩
  | .local _ .vmem, ⟨58, _⟩ => ⟨S5000x1, .f32⟩
  | .local _ .vmem, ⟨59, _⟩ => ⟨S5000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_call0_c : Ref sig .tc := ⟨.hbm, 30, rfl⟩
abbrev main_call0_v0 : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c_1 : Ref sig .tc := ⟨.hbm, 38, rfl⟩
abbrev main_call0_c_2 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_3 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_call0_cst : Ref sig .tc := ⟨.hbm, 50, rfl⟩
abbrev main_call0_v15 : Ref sig .tc := ⟨.hbm, 51, rfl⟩
abbrev main_v0 : Ref sig .tc := ⟨.hbm, 52, rfl⟩
abbrev main_call1_c : Ref sig .tc := ⟨.hbm, 53, rfl⟩
abbrev main_call1_v0 : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_c_1 : Ref sig .tc := ⟨.hbm, 61, rfl⟩
abbrev main_call1_c_2 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_3 : Ref sig .tc := ⟨.hbm, 69, rfl⟩
abbrev main_call1_v12 : Ref sig .tc := ⟨.hbm, 70, rfl⟩
abbrev main_call1_v13 : Ref sig .tc := ⟨.hbm, 71, rfl⟩
abbrev main_call1_v14 : Ref sig .tc := ⟨.hbm, 72, rfl⟩
abbrev main_call1_cst : Ref sig .tc := ⟨.hbm, 73, rfl⟩
abbrev main_call1_v15 : Ref sig .tc := ⟨.hbm, 74, rfl⟩
abbrev main_v1 : Ref sig .tc := ⟨.hbm, 75, rfl⟩
abbrev main_v2 : Ref sig .tc := ⟨.hbm, 76, rfl⟩
abbrev main_v3 : Ref sig .tc := ⟨.hbm, 77, rfl⟩
abbrev main_cst : Ref sig .tc := ⟨.hbm, 78, rfl⟩
abbrev main_v4 : Ref sig .tc := ⟨.hbm, 79, rfl⟩
abbrev main_cst_0 : Ref sig .tc := ⟨.hbm, 80, rfl⟩
abbrev main_v5 : Ref sig .tc := ⟨.hbm, 81, rfl⟩
abbrev main_v6 : Ref sig .tc := ⟨.hbm, 82, rfl⟩
abbrev main_v7 : Ref sig .tc := ⟨.hbm, 83, rfl⟩
abbrev main_cst_1 : Ref sig .tc := ⟨.hbm, 84, rfl⟩
abbrev main_v8 : Ref sig .tc := ⟨.hbm, 85, rfl⟩
abbrev main_v9 : Ref sig .tc := ⟨.hbm, 86, rfl⟩
abbrev main_v10 : Ref sig .tc := ⟨.hbm, 87, rfl⟩
abbrev main_c : Ref sig .tc := ⟨.hbm, 88, rfl⟩
abbrev main_v11 : Ref sig .tc := ⟨.hbm, 89, rfl⟩
abbrev main_v12 : Ref sig .tc := ⟨.hbm, 90, rfl⟩
abbrev main_c_2 : Ref sig .tc := ⟨.hbm, 91, rfl⟩
abbrev main_v13 : Ref sig .tc := ⟨.hbm, 92, rfl⟩
abbrev main_v14 : Ref sig .tc := ⟨.hbm, 93, rfl⟩
abbrev main_v15 : Ref sig .tc := ⟨.hbm, 94, rfl⟩
abbrev main_v16 : Ref sig .tc := ⟨.hbm, 95, rfl⟩
abbrev main_v17 : Ref sig .tc := ⟨.hbm, 96, rfl⟩
abbrev main_cst_3 : Ref sig .tc := ⟨.hbm, 97, rfl⟩
abbrev main_v18 : Ref sig .tc := ⟨.hbm, 98, rfl⟩
abbrev main_v19 : Ref sig .tc := ⟨.hbm, 99, rfl⟩
abbrev main_v20 : Ref sig .tc := ⟨.hbm, 100, rfl⟩
abbrev main_cst_4 : Ref sig .tc := ⟨.hbm, 101, rfl⟩
abbrev main_v21 : Ref sig .tc := ⟨.hbm, 102, rfl⟩
abbrev main_v22 : Ref sig .tc := ⟨.hbm, 103, rfl⟩
abbrev main_v23 : Ref sig .tc := ⟨.hbm, 104, rfl⟩
abbrev main_v24 : Ref sig .tc := ⟨.hbm, 105, rfl⟩
abbrev main_v25 : Ref sig .tc := ⟨.hbm, 106, rfl⟩
abbrev main_c_5 : Ref sig .tc := ⟨.hbm, 107, rfl⟩
abbrev main_v26 : Ref sig .tc := ⟨.hbm, 108, rfl⟩
abbrev main_v27 : Ref sig .tc := ⟨.hbm, 109, rfl⟩
abbrev main_c_6 : Ref sig .tc := ⟨.hbm, 110, rfl⟩
abbrev main_v28 : Ref sig .tc := ⟨.hbm, 111, rfl⟩
abbrev main_v29 : Ref sig .tc := ⟨.hbm, 112, rfl⟩
abbrev main_v30 : Ref sig .tc := ⟨.hbm, 113, rfl⟩
abbrev main_v31 : Ref sig .tc := ⟨.hbm, 114, rfl⟩
abbrev main_v32 : Ref sig .tc := ⟨.hbm, 115, rfl⟩
abbrev main_cst_7 : Ref sig .tc := ⟨.hbm, 116, rfl⟩
abbrev main_v33 : Ref sig .tc := ⟨.hbm, 117, rfl⟩
abbrev main_v34 : Ref sig .tc := ⟨.hbm, 118, rfl⟩
abbrev main_v35 : Ref sig .tc := ⟨.hbm, 119, rfl⟩
abbrev main_cst_8 : Ref sig .tc := ⟨.hbm, 120, rfl⟩
abbrev main_v36 : Ref sig .tc := ⟨.hbm, 121, rfl⟩
abbrev main_v37 : Ref sig .tc := ⟨.hbm, 122, rfl⟩
abbrev main_v38 : Ref sig .tc := ⟨.hbm, 123, rfl⟩
abbrev main_v39 : Ref sig .tc := ⟨.hbm, 124, rfl⟩
abbrev main_v40 : Ref sig .tc := ⟨.hbm, 125, rfl⟩
abbrev main_v41 : Ref sig .tc := ⟨.hbm, 126, rfl⟩
abbrev main_v42 : Ref sig .tc := ⟨.hbm, 127, rfl⟩
abbrev main_c_9 : Ref sig .tc := ⟨.hbm, 128, rfl⟩
abbrev main_v43 : Ref sig .tc := ⟨.hbm, 129, rfl⟩
abbrev main_v44 : Ref sig .tc := ⟨.hbm, 130, rfl⟩
abbrev main_c_10 : Ref sig .tc := ⟨.hbm, 131, rfl⟩
abbrev main_v45 : Ref sig .tc := ⟨.hbm, 132, rfl⟩
abbrev main_v46 : Ref sig .tc := ⟨.hbm, 133, rfl⟩
abbrev main_v47 : Ref sig .tc := ⟨.hbm, 134, rfl⟩
abbrev main_v48 : Ref sig .tc := ⟨.hbm, 135, rfl⟩
abbrev main_v49 : Ref sig .tc := ⟨.hbm, 136, rfl⟩
abbrev main_cst_11 : Ref sig .tc := ⟨.hbm, 137, rfl⟩
abbrev main_v50 : Ref sig .tc := ⟨.hbm, 138, rfl⟩
abbrev main_v51 : Ref sig .tc := ⟨.hbm, 139, rfl⟩
abbrev main_v52 : Ref sig .tc := ⟨.hbm, 140, rfl⟩
abbrev main_cst_12 : Ref sig .tc := ⟨.hbm, 141, rfl⟩
abbrev main_v53 : Ref sig .tc := ⟨.hbm, 142, rfl⟩
abbrev main_v54 : Ref sig .tc := ⟨.hbm, 143, rfl⟩
abbrev main_v55 : Ref sig .tc := ⟨.hbm, 144, rfl⟩
abbrev main_v56 : Ref sig .tc := ⟨.hbm, 145, rfl⟩
abbrev main_v57 : Ref sig .tc := ⟨.hbm, 146, rfl⟩
abbrev main_c_13 : Ref sig .tc := ⟨.hbm, 147, rfl⟩
abbrev main_v58 : Ref sig .tc := ⟨.hbm, 148, rfl⟩
abbrev main_v59 : Ref sig .tc := ⟨.hbm, 149, rfl⟩
abbrev main_c_14 : Ref sig .tc := ⟨.hbm, 150, rfl⟩
abbrev main_v60 : Ref sig .tc := ⟨.hbm, 151, rfl⟩
abbrev main_v61 : Ref sig .tc := ⟨.hbm, 152, rfl⟩
abbrev main_v62 : Ref sig .tc := ⟨.hbm, 153, rfl⟩
abbrev main_v63 : Ref sig .tc := ⟨.hbm, 154, rfl⟩
abbrev main_v64 : Ref sig .tc := ⟨.hbm, 155, rfl⟩
abbrev main_cst_15 : Ref sig .tc := ⟨.hbm, 156, rfl⟩
abbrev main_v65 : Ref sig .tc := ⟨.hbm, 157, rfl⟩
abbrev main_v66 : Ref sig .tc := ⟨.hbm, 158, rfl⟩
abbrev main_v67 : Ref sig .tc := ⟨.hbm, 159, rfl⟩
abbrev main_cst_16 : Ref sig .tc := ⟨.hbm, 160, rfl⟩
abbrev main_v68 : Ref sig .tc := ⟨.hbm, 161, rfl⟩
abbrev main_v69 : Ref sig .tc := ⟨.hbm, 162, rfl⟩
abbrev main_v70 : Ref sig .tc := ⟨.hbm, 163, rfl⟩
abbrev main_v71 : Ref sig .tc := ⟨.hbm, 164, rfl⟩
abbrev main_v72 : Ref sig .tc := ⟨.hbm, 165, rfl⟩
abbrev main_v73 : Ref sig .tc := ⟨.hbm, 166, rfl⟩
abbrev main_v74 : Ref sig .tc := ⟨.hbm, 167, rfl⟩
abbrev main_call2_c : Ref sig .tc := ⟨.hbm, 168, rfl⟩
abbrev main_call2_v0 : Ref sig .tc := ⟨.hbm, 169, rfl⟩
abbrev main_call2_v1 : Ref sig .tc := ⟨.hbm, 170, rfl⟩
abbrev main_call2_c_0 : Ref sig .tc := ⟨.hbm, 171, rfl⟩
abbrev main_call2_v2 : Ref sig .tc := ⟨.hbm, 172, rfl⟩
abbrev main_call2_v3 : Ref sig .tc := ⟨.hbm, 173, rfl⟩
abbrev main_call2_v4 : Ref sig .tc := ⟨.hbm, 174, rfl⟩
abbrev main_call2_v5 : Ref sig .tc := ⟨.hbm, 175, rfl⟩
abbrev main_call2_c_1 : Ref sig .tc := ⟨.hbm, 176, rfl⟩
abbrev main_call2_c_2 : Ref sig .tc := ⟨.hbm, 177, rfl⟩
abbrev main_call2_v6 : Ref sig .tc := ⟨.hbm, 178, rfl⟩
abbrev main_call2_v7 : Ref sig .tc := ⟨.hbm, 179, rfl⟩
abbrev main_call2_v8 : Ref sig .tc := ⟨.hbm, 180, rfl⟩
abbrev main_call2_v9 : Ref sig .tc := ⟨.hbm, 181, rfl⟩
abbrev main_call2_v10 : Ref sig .tc := ⟨.hbm, 182, rfl⟩
abbrev main_call2_v11 : Ref sig .tc := ⟨.hbm, 183, rfl⟩
abbrev main_call2_c_3 : Ref sig .tc := ⟨.hbm, 184, rfl⟩
abbrev main_call2_v12 : Ref sig .tc := ⟨.hbm, 185, rfl⟩
abbrev main_call2_v13 : Ref sig .tc := ⟨.hbm, 186, rfl⟩
abbrev main_call2_v14 : Ref sig .tc := ⟨.hbm, 187, rfl⟩
abbrev main_call2_cst : Ref sig .tc := ⟨.hbm, 188, rfl⟩
abbrev main_call2_v15 : Ref sig .tc := ⟨.hbm, 189, rfl⟩
abbrev main_v75 : Ref sig .tc := ⟨.hbm, 190, rfl⟩
abbrev main_call3_c : Ref sig .tc := ⟨.hbm, 191, rfl⟩
abbrev main_call3_v0 : Ref sig .tc := ⟨.hbm, 192, rfl⟩
abbrev main_call3_v1 : Ref sig .tc := ⟨.hbm, 193, rfl⟩
abbrev main_call3_c_0 : Ref sig .tc := ⟨.hbm, 194, rfl⟩
abbrev main_call3_v2 : Ref sig .tc := ⟨.hbm, 195, rfl⟩
abbrev main_call3_v3 : Ref sig .tc := ⟨.hbm, 196, rfl⟩
abbrev main_call3_v4 : Ref sig .tc := ⟨.hbm, 197, rfl⟩
abbrev main_call3_v5 : Ref sig .tc := ⟨.hbm, 198, rfl⟩
abbrev main_call3_c_1 : Ref sig .tc := ⟨.hbm, 199, rfl⟩
abbrev main_call3_c_2 : Ref sig .tc := ⟨.hbm, 200, rfl⟩
abbrev main_call3_v6 : Ref sig .tc := ⟨.hbm, 201, rfl⟩
abbrev main_call3_v7 : Ref sig .tc := ⟨.hbm, 202, rfl⟩
abbrev main_call3_v8 : Ref sig .tc := ⟨.hbm, 203, rfl⟩
abbrev main_call3_v9 : Ref sig .tc := ⟨.hbm, 204, rfl⟩
abbrev main_call3_v10 : Ref sig .tc := ⟨.hbm, 205, rfl⟩
abbrev main_call3_v11 : Ref sig .tc := ⟨.hbm, 206, rfl⟩
abbrev main_call3_c_3 : Ref sig .tc := ⟨.hbm, 207, rfl⟩
abbrev main_call3_v12 : Ref sig .tc := ⟨.hbm, 208, rfl⟩
abbrev main_call3_v13 : Ref sig .tc := ⟨.hbm, 209, rfl⟩
abbrev main_call3_v14 : Ref sig .tc := ⟨.hbm, 210, rfl⟩
abbrev main_call3_cst : Ref sig .tc := ⟨.hbm, 211, rfl⟩
abbrev main_call3_v15 : Ref sig .tc := ⟨.hbm, 212, rfl⟩
abbrev main_v76 : Ref sig .tc := ⟨.hbm, 213, rfl⟩
abbrev main_v77 : Ref sig .tc := ⟨.hbm, 214, rfl⟩
abbrev main_v78 : Ref sig .tc := ⟨.hbm, 215, rfl⟩
abbrev main_v79 : Ref sig .tc := ⟨.hbm, 216, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg5_1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg1_1 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg5_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg2_0 : Ref sig .tc := ⟨.vmem, 55, rfl⟩
abbrev cc6_stg3_0 : Ref sig .tc := ⟨.vmem, 56, rfl⟩
abbrev cc6_stg4_0 : Ref sig .tc := ⟨.vmem, 57, rfl⟩
abbrev cc6_stg5_0 : Ref sig .tc := ⟨.vmem, 58, rfl⟩
abbrev cc6_stg5_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem4_0 : DmaSem sig := 40
abbrev cc4_sem5_0 : DmaSem sig := 41
abbrev cc4_sem5_1 : DmaSem sig := 42
abbrev cc5_sem0_0 : DmaSem sig := 43
abbrev cc5_sem0_1 : DmaSem sig := 44
abbrev cc5_sem1_0 : DmaSem sig := 45
abbrev cc5_sem1_1 : DmaSem sig := 46
abbrev cc5_sem2_0 : DmaSem sig := 47
abbrev cc5_sem3_0 : DmaSem sig := 48
abbrev cc5_sem4_0 : DmaSem sig := 49
abbrev cc5_sem5_0 : DmaSem sig := 50
abbrev cc5_sem5_1 : DmaSem sig := 51
abbrev cc6_sem0_0 : DmaSem sig := 52
abbrev cc6_sem0_1 : DmaSem sig := 53
abbrev cc6_sem1_0 : DmaSem sig := 54
abbrev cc6_sem2_0 : DmaSem sig := 55
abbrev cc6_sem3_0 : DmaSem sig := 56
abbrev cc6_sem4_0 : DmaSem sig := 57
abbrev cc6_sem5_0 : DmaSem sig := 58
abbrev cc6_sem5_1 : DmaSem sig := 59

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![2], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![40], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x1 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x128_0 : S100000.BroadcastsInDim S100000x128 (![0] : Fin 1 → Fin S100000x128.rank)
  bcast_S_S100000x128 : S_.BroadcastsInDim S100000x128 (![] : Fin 0 → Fin S100000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S1x1_S10000x1_0_1 : S1x1.BroadcastsInDim S10000x1 (![0, 1] : Fin 2 → Fin S10000x1.rank)
  reducesTo_S10000x1_S10000_d1 : S10000x1.ReducesTo [1] S10000
  bcast_S10000_S10000x128_0 : S10000.BroadcastsInDim S10000x128 (![0] : Fin 1 → Fin S10000x128.rank)
  bcast_S_S10000x128 : S_.BroadcastsInDim S10000x128 (![] : Fin 0 → Fin S10000x128.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bcast_S_S500000 : S_.BroadcastsInDim S500000 (![] : Fin 0 → Fin S500000.rank)
  bcast_S500000_S500000x1_0 : S500000.BroadcastsInDim S500000x1 (![0] : Fin 1 → Fin S500000x1.rank)
  bcast_S10000x1_S10000x128_0_1 : S10000x1.BroadcastsInDim S10000x128 (![0, 1] : Fin 2 → Fin S10000x128.rank)
  bcast_S100000x1_S100000x128_0_1 : S100000x1.BroadcastsInDim S100000x128 (![0, 1] : Fin 2 → Fin S100000x128.rank)
  inb_S128x128_S128x128_0_0 : ∀ a, (![0, 0] : Fin 2 → Nat) a + S128x128.size a ≤ S128x128.size a
  h_S128x128 : 0 < S128x128.numel
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S1x1_S200000x1_0_1 : S1x1.BroadcastsInDim S200000x1 (![0, 1] : Fin 2 → Fin S200000x1.rank)
  reducesTo_S200000x1_S200000_d1 : S200000x1.ReducesTo [1] S200000
  bcast_S200000_S200000x128_0 : S200000.BroadcastsInDim S200000x128 (![0] : Fin 1 → Fin S200000x128.rank)
  bcast_S_S200000x128 : S_.BroadcastsInDim S200000x128 (![] : Fin 0 → Fin S200000x128.rank)
  concatenates_S200000x128_S200000x128_S200000x256_d1 : Shape.Concatenates [S200000x128, S200000x128] S200000x256 1
  shapeCasts_S5000x256_S5000x256 : S5000x256.ShapeCasts S5000x256
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S200000x1_S200000 : S200000x1.ShapeCasts S200000
  gather_S100000x128_S100000x1_S100000x128_1_0_n_n_0_1_1128_wf : GatherDims.WF S100000x128 S100000x1 S100000x128 [1] [0] [] [0] [] 1 ![1, 128]
  gather_S10000x128_S10000x1_S10000x128_1_0_n_n_0_1_1128_wf : GatherDims.WF S10000x128 S10000x1 S10000x128 [1] [0] [] [0] [] 1 ![1, 128]
  dot_S5000x256_S256x128_S5000x128_1_0_0_1_n_n_wf : DotDims.WF S5000x256 S256x128 S5000x128 [1] [0] [0] [1] [] []
  scatter_S10000_S500000x1_S500000_n_0_0_1_wf : ScatterDims.WF S10000 S500000x1 S500000 [] [0] [0] 1
  scatter_S100000_S500000x1_S500000_n_0_0_1_wf : ScatterDims.WF S100000 S500000x1 S500000 [] [0] [0] 1
  gather_S100000x128_S500000x1_S500000x128_1_0_n_n_0_1_1128_wf : GatherDims.WF S100000x128 S500000x1 S500000x128 [1] [0] [] [0] [] 1 ![1, 128]
  scatter_S10000x128_S500000x1_S500000x128_1_0_0_1_wf : ScatterDims.WF S10000x128 S500000x1 S500000x128 [1] [0] [0] 1
  gather_S10000x128_S500000x1_S500000x128_1_0_n_n_0_1_1128_wf : GatherDims.WF S10000x128 S500000x1 S500000x128 [1] [0] [] [0] [] 1 ![1, 128]
  scatter_S100000x128_S500000x1_S500000x128_1_0_0_1_wf : ScatterDims.WF S100000x128 S500000x1 S500000x128 [1] [0] [0] 1
  dot_S5000x128_S128x128_S5000x128_1_0_0_1_n_n_wf : DotDims.WF S5000x128 S128x128 S5000x128 [1] [0] [0] [1] [] []
  gather_S100000x128_S200000x1_S200000x128_1_0_n_n_0_1_1128_wf : GatherDims.WF S100000x128 S200000x1 S200000x128 [1] [0] [] [0] [] 1 ![1, 128]
  gather_S10000x128_S200000x1_S200000x128_1_0_n_n_0_1_1128_wf : GatherDims.WF S10000x128 S200000x1 S200000x128 [1] [0] [] [0] [] 1 ![1, 128]
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S10000x256.size a
  hwx1_0 : ∀ i : grid1.Coords, EltTy.bits .f32 = 32 ∨ (Rect.block (s := S10000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S10000x128.size a
  hwx1_1 : ∀ i : grid1.Coords, EltTy.bits .f32 = 32 ∨ (Rect.block (s := S10000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S10000x128.size a
  hwx1_4 : ∀ i : grid1.Coords, EltTy.bits .f32 = 32 ∨ (Rect.block (s := S10000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S10000x128.size a
  hwx2_0 : ∀ i : grid2.Coords, EltTy.bits .f32 = 32 ∨ (Rect.block (s := S10000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S10000x128.size a
  hwx2_1 : ∀ i : grid2.Coords, EltTy.bits .f32 = 32 ∨ (Rect.block (s := S10000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S10000x128.size a
  hwx2_5 : ∀ i : grid2.Coords, EltTy.bits .f32 = 32 ∨ (Rect.block (s := S10000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S10000x128.size a
  hwx4_0 : ∀ i : grid4.Coords, EltTy.bits .f32 = 32 ∨ (Rect.block (s := S10000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S10000x128.size a
  hwx4_1 : ∀ i : grid4.Coords, EltTy.bits .f32 = 32 ∨ (Rect.block (s := S10000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S10000x128.size a
  hwx4_5 : ∀ i : grid4.Coords, EltTy.bits .f32 = 32 ∨ (Rect.block (s := S10000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x256.size a ≤ S200000x256.size a
  hwx6_0 : ∀ i : grid6.Coords, EltTy.bits .f32 = 32 ∨ (Rect.block (s := S200000x256) S5000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x128.size a ≤ S256x128.size a
  hwx6_1 : ∀ i : grid6.Coords, EltTy.bits .f32 = 32 ∨ (Rect.block (s := S256x128) S256x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128.size a ≤ S128.size a
  hwx6_2 : ∀ i : grid6.Coords, EltTy.bits .f32 = 32 ∨ (Rect.block (s := S128) S128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x1.size a ≤ S128x1.size a
  hwx6_3 : ∀ i : grid6.Coords, EltTy.bits .f32 = 32 ∨ (Rect.block (s := S128x1) S128x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1.size a ≤ S1.size a
  hwx6_4 : ∀ i : grid6.Coords, EltTy.bits .f32 = 32 ∨ (Rect.block (s := S1) S1.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x1.size a ≤ S200000x1.size a
  hwx6_5 : ∀ i : grid6.Coords, EltTy.bits .f32 = 32 ∨ (Rect.block (s := S200000x1) S5000x1.size (cc6_transform_5 i) (hinb6_5 i)).WholeWords (EltTy.packing .f32)

variable [Facts₀]

def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def gather_S10000x128_S10000x1_S10000x128_1_0_n_n_0_1_1128 : GatherDims S10000x128 S10000x1 S10000x128 where
  offsetDims := [1]
  collapsedSliceDims := [0]
  operandBatchingDims := []
  startIndicesBatchingDims := []
  startIndexMap := [0]
  indexVectorDim := 1
  sliceSizes := ![1, 128]
  wf := gather_S10000x128_S10000x1_S10000x128_1_0_n_n_0_1_1128_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def scatter_S10000_S500000x1_S500000_n_0_0_1 : ScatterDims S10000 S500000x1 S500000 where
  updateWindowDims := []
  insertedWindowDims := [0]
  scatterDimsToOperandDims := [0]
  indexVectorDim := 1
  wf := scatter_S10000_S500000x1_S500000_n_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S10000x128_S500000x1_S500000x128_1_0_0_1 : ScatterDims S10000x128 S500000x1 S500000x128 where
  updateWindowDims := [1]
  insertedWindowDims := [0]
  scatterDimsToOperandDims := [0]
  indexVectorDim := 1
  wf := scatter_S10000x128_S500000x1_S500000x128_1_0_0_1_wf
def gather_S10000x128_S500000x1_S500000x128_1_0_n_n_0_1_1128 : GatherDims S10000x128 S500000x1 S500000x128 where
  offsetDims := [1]
  collapsedSliceDims := [0]
  operandBatchingDims := []
  startIndicesBatchingDims := []
  startIndexMap := [0]
  indexVectorDim := 1
  sliceSizes := ![1, 128]
  wf := gather_S10000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def gather_S10000x128_S200000x1_S200000x128_1_0_n_n_0_1_1128 : GatherDims S10000x128 S200000x1 S200000x128 where
  offsetDims := [1]
  collapsedSliceDims := [0]
  operandBatchingDims := []
  startIndicesBatchingDims := []
  startIndexMap := [0]
  indexVectorDim := 1
  sliceSizes := ![1, 128]
  wf := gather_S10000x128_S200000x1_S200000x128_1_0_n_n_0_1_1128_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg10) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg11) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg13) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v25) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg14) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg15) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg16) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v40) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg17) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg18) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg19) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v42) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v57) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v41) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg20) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg21) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg22) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v73) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v72) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v42) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg23) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg24) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg25) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v74) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v77) S5000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg26) S256x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg27) S128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg28) S128x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg29) S1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v78) S5000x1.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x256 : Shape := ⟨2, ![100000, 256]⟩
abbrev S10000x256 : Shape := ⟨2, ![10000, 256]⟩
abbrev S100000 : Shape := ⟨1, ![100000]⟩
abbrev S10000 : Shape := ⟨1, ![10000]⟩
abbrev S500000 : Shape := ⟨1, ![500000]⟩
abbrev S200000 : Shape := ⟨1, ![200000]⟩
abbrev S100000x128 : Shape := ⟨2, ![100000, 128]⟩
abbrev S10000x128 : Shape := ⟨2, ![10000, 128]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x128 : Shape := ⟨2, ![1, 128]⟩
abbrev S_ : Shape := ⟨0, ![]⟩
abbrev S100000x1 : Shape := ⟨2, ![100000, 1]⟩
abbrev S10000x1 : Shape := ⟨2, ![10000, 1]⟩
abbrev S500000x1 : Shape := ⟨2, ![500000, 1]⟩
abbrev S500000x128 : Shape := ⟨2, ![500000, 128]⟩
abbrev S200000x1 : Shape := ⟨2, ![200000, 1]⟩
abbrev S200000x128 : Shape := ⟨2, ![200000, 128]⟩
abbrev S200000x256 : Shape := ⟨2, ![200000, 256]⟩
abbrev S1x1 : Shape := ⟨2, ![1, 1]⟩

abbrev nBuf : Space → Nat
  | .hbm => 219
  | .vmem => 0
  | .smem => 0
  | _ => 0

abbrev hbmTy0_0 (i : Nat) : BufTy := match i % 128 with
  | 0 => ⟨S100000x256, .f32⟩
  | 1 => ⟨S10000x256, .f32⟩
  | 2 => ⟨S100000, .i32⟩
  | 3 => ⟨S10000, .i32⟩
  | 4 => ⟨S500000, .i32⟩
  | 5 => ⟨S500000, .i32⟩
  | 6 => ⟨S200000, .i32⟩
  | 7 => ⟨S200000, .i32⟩
  | 8 => ⟨S100000x128, .f32⟩
  | 9 => ⟨S10000x128, .f32⟩
  | 10 => ⟨S256x128, .f32⟩
  | 11 => ⟨S128, .f32⟩
  | 12 => ⟨S256x128, .f32⟩
  | 13 => ⟨S128, .f32⟩
  | 14 => ⟨S128x128, .f32⟩
  | 15 => ⟨S128, .f32⟩
  | 16 => ⟨S128x128, .f32⟩
  | 17 => ⟨S128x128, .f32⟩
  | 18 => ⟨S128, .f32⟩
  | 19 => ⟨S128x128, .f32⟩
  | 20 => ⟨S128x128, .f32⟩
  | 21 => ⟨S128, .f32⟩
  | 22 => ⟨S128x128, .f32⟩
  | 23 => ⟨S128x128, .f32⟩
  | 24 => ⟨S128, .f32⟩
  | 25 => ⟨S128x128, .f32⟩
  | 26 => ⟨S256x128, .f32⟩
  | 27 => ⟨S128, .f32⟩
  | 28 => ⟨S128x1, .f32⟩
  | 29 => ⟨S1, .f32⟩
  | 30 => ⟨S100000x128, .f32⟩
  | 31 => ⟨S1x128, .f32⟩
  | 32 => ⟨S100000x128, .f32⟩
  | 33 => ⟨S100000x128, .f32⟩
  | 34 => ⟨S_, .i32⟩
  | 35 => ⟨S100000, .i32⟩
  | 36 => ⟨S100000, .i1⟩
  | 37 => ⟨S_, .i32⟩
  | 38 => ⟨S100000, .i32⟩
  | 39 => ⟨S100000, .i32⟩
  | 40 => ⟨S100000, .i32⟩
  | 41 => ⟨S100000x1, .i32⟩
  | 42 => ⟨S100000x128, .f32⟩
  | 43 => ⟨S100000x128, .f32⟩
  | 44 => ⟨S10000x128, .f32⟩
  | 45 => ⟨S1x128, .f32⟩
  | 46 => ⟨S10000x128, .f32⟩
  | 47 => ⟨S10000x128, .f32⟩
  | 48 => ⟨S_, .i32⟩
  | 49 => ⟨S10000, .i32⟩
  | 50 => ⟨S10000, .i1⟩
  | 51 => ⟨S_, .i32⟩
  | 52 => ⟨S10000, .i32⟩
  | 53 => ⟨S10000, .i32⟩
  | 54 => ⟨S10000, .i32⟩
  | 55 => ⟨S10000x1, .i32⟩
  | 56 => ⟨S10000x128, .f32⟩
  | 57 => ⟨S10000x128, .f32⟩
  | 58 => ⟨S_, .i32⟩
  | 59 => ⟨S500000, .i32⟩
  | 60 => ⟨S500000, .i1⟩
  | 61 => ⟨S_, .i32⟩
  | 62 => ⟨S500000, .i32⟩
  | 63 => ⟨S500000, .i32⟩
  | 64 => ⟨S500000, .i32⟩
  | 65 => ⟨S500000x1, .i32⟩
  | 66 => ⟨S500000x128, .f32⟩
  | 67 => ⟨S_, .f32⟩
  | 68 => ⟨S10000x128, .f32⟩
  | 69 => ⟨S500000x1, .i32⟩
  | 70 => ⟨S10000x128, .f32⟩
  | 71 => ⟨S_, .f32⟩
  | 72 => ⟨S500000, .f32⟩
  | 73 => ⟨S_, .f32⟩
  | 74 => ⟨S10000, .f32⟩
  | 75 => ⟨S500000x1, .i32⟩
  | 76 => ⟨S10000, .f32⟩
  | 77 => ⟨S_, .f32⟩
  | 78 => ⟨S10000, .f32⟩
  | 79 => ⟨S10000, .f32⟩
  | 80 => ⟨S10000x1, .f32⟩
  | 81 => ⟨S10000x128, .f32⟩
  | 82 => ⟨S10000x128, .f32⟩
  | 83 => ⟨S10000x128, .f32⟩
  | 84 => ⟨S1x128, .f32⟩
  | 85 => ⟨S10000x128, .f32⟩
  | 86 => ⟨S10000x128, .f32⟩
  | 87 => ⟨S10000x128, .f32⟩
  | 88 => ⟨S10000x128, .f32⟩
  | 89 => ⟨S_, .f32⟩
  | 90 => ⟨S10000x128, .f32⟩
  | 91 => ⟨S10000x128, .f32⟩
  | 92 => ⟨S_, .i32⟩
  | 93 => ⟨S500000, .i32⟩
  | 94 => ⟨S500000, .i1⟩
  | 95 => ⟨S_, .i32⟩
  | 96 => ⟨S500000, .i32⟩
  | 97 => ⟨S500000, .i32⟩
  | 98 => ⟨S500000, .i32⟩
  | 99 => ⟨S500000x1, .i32⟩
  | 100 => ⟨S500000x128, .f32⟩
  | 101 => ⟨S_, .f32⟩
  | 102 => ⟨S100000x128, .f32⟩
  | 103 => ⟨S500000x1, .i32⟩
  | 104 => ⟨S100000x128, .f32⟩
  | 105 => ⟨S_, .f32⟩
  | 106 => ⟨S500000, .f32⟩
  | 107 => ⟨S_, .f32⟩
  | 108 => ⟨S100000, .f32⟩
  | 109 => ⟨S500000x1, .i32⟩
  | 110 => ⟨S100000, .f32⟩
  | 111 => ⟨S_, .f32⟩
  | 112 => ⟨S100000, .f32⟩
  | 113 => ⟨S100000, .f32⟩
  | 114 => ⟨S100000x1, .f32⟩
  | 115 => ⟨S100000x128, .f32⟩
  | 116 => ⟨S100000x128, .f32⟩
  | 117 => ⟨S100000x128, .f32⟩
  | 118 => ⟨S1x128, .f32⟩
  | 119 => ⟨S100000x128, .f32⟩
  | 120 => ⟨S100000x128, .f32⟩
  | 121 => ⟨S100000x128, .f32⟩
  | 122 => ⟨S100000x128, .f32⟩
  | 123 => ⟨S_, .f32⟩
  | 124 => ⟨S100000x128, .f32⟩
  | 125 => ⟨S100000x128, .f32⟩
  | 126 => ⟨S_, .i32⟩
  | 127 => ⟨S500000, .i32⟩
  | _ => ⟨S100000x256, .f32⟩

abbrev hbmTy0_1 (i : Nat) : BufTy := match i % 128 with
  | 0 => ⟨S500000, .i1⟩
  | 1 => ⟨S_, .i32⟩
  | 2 => ⟨S500000, .i32⟩
  | 3 => ⟨S500000, .i32⟩
  | 4 => ⟨S500000, .i32⟩
  | 5 => ⟨S500000x1, .i32⟩
  | 6 => ⟨S500000x128, .f32⟩
  | 7 => ⟨S_, .f32⟩
  | 8 => ⟨S10000x128, .f32⟩
  | 9 => ⟨S500000x1, .i32⟩
  | 10 => ⟨S10000x128, .f32⟩
  | 11 => ⟨S_, .f32⟩
  | 12 => ⟨S500000, .f32⟩
  | 13 => ⟨S_, .f32⟩
  | 14 => ⟨S10000, .f32⟩
  | 15 => ⟨S500000x1, .i32⟩
  | 16 => ⟨S10000, .f32⟩
  | 17 => ⟨S_, .f32⟩
  | 18 => ⟨S10000, .f32⟩
  | 19 => ⟨S10000, .f32⟩
  | 20 => ⟨S10000x1, .f32⟩
  | 21 => ⟨S10000x128, .f32⟩
  | 22 => ⟨S10000x128, .f32⟩
  | 23 => ⟨S10000x128, .f32⟩
  | 24 => ⟨S1x128, .f32⟩
  | 25 => ⟨S10000x128, .f32⟩
  | 26 => ⟨S10000x128, .f32⟩
  | 27 => ⟨S10000x128, .f32⟩
  | 28 => ⟨S10000x128, .f32⟩
  | 29 => ⟨S_, .i32⟩
  | 30 => ⟨S500000, .i32⟩
  | 31 => ⟨S500000, .i1⟩
  | 32 => ⟨S_, .i32⟩
  | 33 => ⟨S500000, .i32⟩
  | 34 => ⟨S500000, .i32⟩
  | 35 => ⟨S500000, .i32⟩
  | 36 => ⟨S500000x1, .i32⟩
  | 37 => ⟨S500000x128, .f32⟩
  | 38 => ⟨S_, .f32⟩
  | 39 => ⟨S100000x128, .f32⟩
  | 40 => ⟨S500000x1, .i32⟩
  | 41 => ⟨S100000x128, .f32⟩
  | 42 => ⟨S_, .f32⟩
  | 43 => ⟨S500000, .f32⟩
  | 44 => ⟨S_, .f32⟩
  | 45 => ⟨S100000, .f32⟩
  | 46 => ⟨S500000x1, .i32⟩
  | 47 => ⟨S100000, .f32⟩
  | 48 => ⟨S_, .f32⟩
  | 49 => ⟨S100000, .f32⟩
  | 50 => ⟨S100000, .f32⟩
  | 51 => ⟨S100000x1, .f32⟩
  | 52 => ⟨S100000x128, .f32⟩
  | 53 => ⟨S100000x128, .f32⟩
  | 54 => ⟨S100000x128, .f32⟩
  | 55 => ⟨S1x128, .f32⟩
  | 56 => ⟨S100000x128, .f32⟩
  | 57 => ⟨S100000x128, .f32⟩
  | 58 => ⟨S100000x128, .f32⟩
  | 59 => ⟨S100000x128, .f32⟩
  | 60 => ⟨S_, .i32⟩
  | 61 => ⟨S200000, .i32⟩
  | 62 => ⟨S200000, .i1⟩
  | 63 => ⟨S_, .i32⟩
  | 64 => ⟨S200000, .i32⟩
  | 65 => ⟨S200000, .i32⟩
  | 66 => ⟨S200000, .i32⟩
  | 67 => ⟨S200000x1, .i32⟩
  | 68 => ⟨S200000x128, .f32⟩
  | 69 => ⟨S_, .i32⟩
  | 70 => ⟨S200000, .i32⟩
  | 71 => ⟨S200000, .i1⟩
  | 72 => ⟨S_, .i32⟩
  | 73 => ⟨S200000, .i32⟩
  | 74 => ⟨S200000, .i32⟩
  | 75 => ⟨S200000, .i32⟩
  | 76 => ⟨S200000x1, .i32⟩
  | 77 => ⟨S200000x128, .f32⟩
  | 78 => ⟨S200000x256, .f32⟩
  | 79 => ⟨S200000x128, .f32⟩
  | 80 => ⟨S1x128, .f32⟩
  | 81 => ⟨S200000x128, .f32⟩
  | 82 => ⟨S200000x128, .f32⟩
  | 83 => ⟨S_, .f32⟩
  | 84 => ⟨S200000x128, .f32⟩
  | 85 => ⟨S200000x128, .f32⟩
  | 86 => ⟨S200000x1, .f32⟩
  | 87 => ⟨S1x1, .f32⟩
  | 88 => ⟨S200000x1, .f32⟩
  | 89 => ⟨S200000x1, .f32⟩
  | 90 => ⟨S200000, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_c : Ref sig .tc := ⟨.hbm, 34, rfl⟩
abbrev main_v4 : Ref sig .tc := ⟨.hbm, 35, rfl⟩
abbrev main_v5 : Ref sig .tc := ⟨.hbm, 36, rfl⟩
abbrev main_c_0 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_c_1 : Ref sig .tc := ⟨.hbm, 48, rfl⟩
abbrev main_v16 : Ref sig .tc := ⟨.hbm, 49, rfl⟩
abbrev main_v17 : Ref sig .tc := ⟨.hbm, 50, rfl⟩
abbrev main_c_2 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_c_3 : Ref sig .tc := ⟨.hbm, 58, rfl⟩
abbrev main_v24 : Ref sig .tc := ⟨.hbm, 59, rfl⟩
abbrev main_v25 : Ref sig .tc := ⟨.hbm, 60, rfl⟩
abbrev main_c_4 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_cst : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_cst_5 : Ref sig .tc := ⟨.hbm, 71, rfl⟩
abbrev main_v34 : Ref sig .tc := ⟨.hbm, 72, rfl⟩
abbrev main_cst_6 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_cst_7 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_call0_cst : Ref sig .tc := ⟨.hbm, 89, rfl⟩
abbrev main_call0_v0 : Ref sig .tc := ⟨.hbm, 90, rfl⟩
abbrev main_v49 : Ref sig .tc := ⟨.hbm, 91, rfl⟩
abbrev main_c_8 : Ref sig .tc := ⟨.hbm, 92, rfl⟩
abbrev main_v50 : Ref sig .tc := ⟨.hbm, 93, rfl⟩
abbrev main_v51 : Ref sig .tc := ⟨.hbm, 94, rfl⟩
abbrev main_c_9 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_cst_10 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_cst_11 : Ref sig .tc := ⟨.hbm, 105, rfl⟩
abbrev main_v60 : Ref sig .tc := ⟨.hbm, 106, rfl⟩
abbrev main_cst_12 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_cst_13 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_call1_cst : Ref sig .tc := ⟨.hbm, 123, rfl⟩
abbrev main_call1_v0 : Ref sig .tc := ⟨.hbm, 124, rfl⟩
abbrev main_v75 : Ref sig .tc := ⟨.hbm, 125, rfl⟩
abbrev main_c_14 : Ref sig .tc := ⟨.hbm, 126, rfl⟩
abbrev main_v76 : Ref sig .tc := ⟨.hbm, 127, rfl⟩
abbrev main_v77 : Ref sig .tc := ⟨.hbm, 128, rfl⟩
abbrev main_c_15 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_cst_16 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_cst_17 : Ref sig .tc := ⟨.hbm, 139, rfl⟩
abbrev main_v86 : Ref sig .tc := ⟨.hbm, 140, rfl⟩
abbrev main_cst_18 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_cst_19 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_c_20 : Ref sig .tc := ⟨.hbm, 157, rfl⟩
abbrev main_v101 : Ref sig .tc := ⟨.hbm, 158, rfl⟩
abbrev main_v102 : Ref sig .tc := ⟨.hbm, 159, rfl⟩
abbrev main_c_21 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_cst_22 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_cst_23 : Ref sig .tc := ⟨.hbm, 170, rfl⟩
abbrev main_v111 : Ref sig .tc := ⟨.hbm, 171, rfl⟩
abbrev main_cst_24 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_cst_25 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_c_26 : Ref sig .tc := ⟨.hbm, 188, rfl⟩
abbrev main_v126 : Ref sig .tc := ⟨.hbm, 189, rfl⟩
abbrev main_v127 : Ref sig .tc := ⟨.hbm, 190, rfl⟩
abbrev main_c_27 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_c_28 : Ref sig .tc := ⟨.hbm, 197, rfl⟩
abbrev main_v133 : Ref sig .tc := ⟨.hbm, 198, rfl⟩
abbrev main_v134 : Ref sig .tc := ⟨.hbm, 199, rfl⟩
abbrev main_c_29 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_call2_cst : Ref sig .tc := ⟨.hbm, 211, rfl⟩
abbrev main_call2_v0 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S1x128_S10000x128_0_1 : S1x128.BroadcastsInDim S10000x128 (![0, 1] : Fin 2 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S10000x128 : S_.BroadcastsInDim S10000x128 (![] : Fin 0 → Fin S10000x128.rank)
  bcast_S10000x1_S10000x128_0_1 : S10000x1.BroadcastsInDim S10000x128 (![0, 1] : Fin 2 → Fin S10000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x128_S200000x256_d1 : Shape.Concatenates [S200000x128, S200000x128] S200000x256 1
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  shapeCasts_S200000x1_S200000 : S200000x1.ShapeCasts S200000
  dot_S100000x256_S256x128_S100000x128_1_0_0_1_n_n_wf : DotDims.WF S100000x256 S256x128 S100000x128 [1] [0] [0] [1] [] []
  gather_S100000x128_S100000x1_S100000x128_1_0_n_n_0_1_1128_wf : GatherDims.WF S100000x128 S100000x1 S100000x128 [1] [0] [] [0] [] 1 ![1, 128]
  dot_S10000x256_S256x128_S10000x128_1_0_0_1_n_n_wf : DotDims.WF S10000x256 S256x128 S10000x128 [1] [0] [0] [1] [] []
  gather_S10000x128_S10000x1_S10000x128_1_0_n_n_0_1_1128_wf : GatherDims.WF S10000x128 S10000x1 S10000x128 [1] [0] [] [0] [] 1 ![1, 128]
  gather_S100000x128_S500000x1_S500000x128_1_0_n_n_0_1_1128_wf : GatherDims.WF S100000x128 S500000x1 S500000x128 [1] [0] [] [0] [] 1 ![1, 128]
  scatter_S10000x128_S500000x1_S500000x128_1_0_0_1_wf : ScatterDims.WF S10000x128 S500000x1 S500000x128 [1] [0] [0] 1
  scatter_S10000_S500000x1_S500000_n_0_0_1_wf : ScatterDims.WF S10000 S500000x1 S500000 [] [0] [0] 1
  dot_S10000x128_S128x128_S10000x128_1_0_0_1_n_n_wf : DotDims.WF S10000x128 S128x128 S10000x128 [1] [0] [0] [1] [] []
  gather_S10000x128_S500000x1_S500000x128_1_0_n_n_0_1_1128_wf : GatherDims.WF S10000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  dot_S100000x128_S128x128_S100000x128_1_0_0_1_n_n_wf : DotDims.WF S100000x128 S128x128 S100000x128 [1] [0] [0] [1] [] []
  gather_S100000x128_S200000x1_S200000x128_1_0_n_n_0_1_1128_wf : GatherDims.WF S100000x128 S200000x1 S200000x128 [1] [0] [] [0] [] 1 ![1, 128]
  gather_S10000x128_S200000x1_S200000x128_1_0_n_n_0_1_1128_wf : GatherDims.WF S10000x128 S200000x1 S200000x128 [1] [0] [] [0] [] 1 ![1, 128]
  dot_S200000x256_S256x128_S200000x128_1_0_0_1_n_n_wf : DotDims.WF S200000x256 S256x128 S200000x128 [1] [0] [0] [1] [] []
  dot_S200000x128_S128x1_S200000x1_1_0_0_1_n_n_wf : DotDims.WF S200000x128 S128x1 S200000x1 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S10000x128_S10000x1_S10000x128_1_0_n_n_0_1_1128 : GatherDims S10000x128 S10000x1 S10000x128 where
  offsetDims := [1]
  collapsedSliceDims := [0]
  operandBatchingDims := []
  startIndicesBatchingDims := []
  startIndexMap := [0]
  indexVectorDim := 1
  sliceSizes := ![1, 128]
  wf := gather_S10000x128_S10000x1_S10000x128_1_0_n_n_0_1_1128_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S10000x128_S500000x1_S500000x128_1_0_0_1 : ScatterDims S10000x128 S500000x1 S500000x128 where
  updateWindowDims := [1]
  insertedWindowDims := [0]
  scatterDimsToOperandDims := [0]
  indexVectorDim := 1
  wf := scatter_S10000x128_S500000x1_S500000x128_1_0_0_1_wf
def scatter_S10000_S500000x1_S500000_n_0_0_1 : ScatterDims S10000 S500000x1 S500000 where
  updateWindowDims := []
  insertedWindowDims := [0]
  scatterDimsToOperandDims := [0]
  indexVectorDim := 1
  wf := scatter_S10000_S500000x1_S500000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S500000x1_S500000x128_1_0_n_n_0_1_1128 : GatherDims S10000x128 S500000x1 S500000x128 where
  offsetDims := [1]
  collapsedSliceDims := [0]
  operandBatchingDims := []
  startIndicesBatchingDims := []
  startIndexMap := [0]
  indexVectorDim := 1
  sliceSizes := ![1, 128]
  wf := gather_S10000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def gather_S10000x128_S200000x1_S200000x128_1_0_n_n_0_1_1128 : GatherDims S10000x128 S200000x1 S200000x128 where
  offsetDims := [1]
  collapsedSliceDims := [0]
  operandBatchingDims := []
  startIndicesBatchingDims := []
  startIndexMap := [0]
  indexVectorDim := 1
  sliceSizes := ![1, 128]
  wf := gather_S10000x128_S200000x1_S200000x128_1_0_n_n_0_1_1128_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf
def dot_S200000x128_S128x1_S200000x1_1_0_0_1_n_n : DotDims S200000x128 S128x1 S200000x1 where
  lhsContracting := [1]
  rhsContracting := [0]
  lhsNonContracting := [0]
  rhsNonContracting := [1]
  lhsBatch := []
  rhsBatch := []
  wf := dot_S200000x128_S128x1_S200000x1_1_0_0_1_n_n_wf

class Facts : Prop extends Facts₀ where

variable [Facts]
-- ==== Proof.Spec.lean ====
/-
  The three dense layers of the two-type graph network, each as ONE function of whole arrays over the extended
  reals, index by index. Rows are nodes (or labelled pairs), columns features.

  * `embedLin x e W b`      : row r, feature j ↦ (Σ_k x[r,k]·W[k,j] + b[j]) + e[r,j]
                                 (the input projection with the identity embedding row added)
  * `sageLin a d Wl bl Wr`  : row r, feature j ↦ (Σ_k a[r,k]·Wl[k,j] + bl[j]) + Σ_k d[r,k]·Wr[k,j]
                                 (the mean-aggregated neighbours through Wl, the node itself through Wr)
  * `sageRelu`              : the same, clamped below at 0
  * `classify z W1 b1 W2 b2`: row r ↦ Σ_j max(Σ_k z[r,k]·W1[k,j] + b1[j], 0)·W2[j,0] + b2[0]
                                 (a hidden layer of 128 rectified units, then one output unit)

  Sums over an axis are finite sums in the extended reals; they are what a matrix product is there whatever
  the order or the blocking of its additions.
-/
import Idealize.ShloMosaic.PureOps.Ideal
import Idealize.ShloMosaic.Lib.ValueIdx

noncomputable section

namespace Cert.Spec

open Idealize.ShloMosaic Idealize.ShloMosaic.ValueIdx

/-- A matrix of `n` rows and `k` columns of extended reals. -/
abbrev Mat (n k : Nat) : Type := FVec Ideal (⟨2, ![n, k]⟩ : Shape) .f32
/-- A vector of `k` extended reals. -/
abbrev Row (k : Nat) : Type := FVec Ideal (⟨1, ![k]⟩ : Shape) .f32

/-- Entry (r, j) of the product x·W: the sum over the shared axis. -/
def dotAt {n k h : Nat} (x : Mat n k) (W : Mat k h) (r : Fin n) (j : Fin h) : EReal :=
  ∑ kk : Fin k, x (ix2 r kk) * W (ix2 kk j)

/-- The input projection with the embedding row added: (x·W + b) + e. -/
def embedLin {n : Nat} (x : Mat n 256) (e : Mat n 128) (W : Mat 256 128) (b : Row 128) : Mat n 128 :=
  fun i => (dotAt x W (i 0) (i 1) + b (ix1 (i 1))) + e i

/-- One message-passing layer before its activation: (a·Wl + bl) + d·Wr. -/
def sageLin {n : Nat} (a d : Mat n 128) (Wl : Mat 128 128) (bl : Row 128) (Wr : Mat 128 128) : Mat n 128 :=
  fun i => (dotAt a Wl (i 0) (i 1) + bl (ix1 (i 1))) + dotAt d Wr (i 0) (i 1)

/-- The layer with its rectifier: max(·, 0) entry by entry. -/
def sageRelu {n : Nat} (a d : Mat n 128) (Wl : Mat 128 128) (bl : Row 128) (Wr : Mat 128 128) : Mat n 128 :=
  fun i => max (sageLin a d Wl bl Wr i) 0

/-- The hidden unit j of the classifier on row r: max(Σ_k z[r,k]·W1[k,j] + b1[j], 0). -/
def hiddenAt {n : Nat} (z : Mat n 256) (W1 : Mat 256 128) (b1 : Row 128) (r : Fin n) (j : Fin 128) : EReal :=
  max (dotAt z W1 r j + b1 (ix1 j)) 0

/-- The classifier: the hidden layer through W2, plus b2; one column. -/
def classify {n : Nat} (z : Mat n 256) (W1 : Mat 256 128) (b1 : Row 128) (W2 : Mat 128 1) (b2 : Row 1) : Mat n 1 :=
  fun i => (∑ j : Fin 128, hiddenAt z W1 b1 (i 0) j * W2 (ix2 j (i 1))) + b2 (ix1 (i 1))

end Cert.Spec

end
-- ==== Proof.PayEmbed.lean ====
import proofs.«401606_j16690242913042_1_alg».proof.Proof.Gen.KernelIdeal.Skeleton
import proofs.«401606_j16690242913042_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open Idealize.ShloMosaic Idealize.ShloMosaic.TcCoe Idealize.ShloMosaic.ValueIdx
open Idealize.ShloMosaic.Pipeline (Dat Cfg Window)

namespace Cert.KernelIdeal.Pay

open Cert.KernelIdeal Cert.KernelIdeal.Gen

/-! ## The product's operand indices, axis by axis

The product contracts axis 1 of the left operand with axis 0 of the right one: at the output index `i` and the
contraction index `q` the left operand is read at (i 0, q) and the right one at (q, i 1). -/

theorem lhs_dot_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_dot_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs_dot_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs_dot_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The block's product into the zero accumulator, read at (p, q): the sum over the shared axis of
    x[p,k]·W[k,q]. -/
theorem matmul_at {φ₁ φ₂ : FTy} (x : FVec Ideal S5000x256 φ₁) (W : FVec Ideal S256x128 φ₂) (p : Fin 5000) (q : Fin 128) :
    matmul dot_S5000x256_S256x128_S5000x128_1_0_0_1_n_n none x W (constant (F := Ideal) S5000x128 .f32 0x00000000#32) (ix2 p q)
      = ∑ k : Fin 256, x (ix2 p k) * W (ix2 k q) := by
  show FloatOps.matmul dot_S5000x256_S256x128_S5000x128_1_0_0_1_n_n none x W (constant (F := Ideal) S5000x128 .f32 0x00000000#32) (ix2 p q) = _
  rw [Ideal.matmul_constant_zero_apply, ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx (ix2 p q) ((ValueIdx.contrEquiv1 dot_S5000x256_S256x128_S5000x128_1_0_0_1_n_n 256 rfl rfl).symm k) = ix2 p k := funext fun a => Fin.ext (by
    match a with
    | ⟨0, _⟩ => exact lhs_dot_0 _ _
    | ⟨1, _⟩ => exact (lhs_dot_1 _ _).trans hk)
  have er : dot_S5000x256_S256x128_S5000x128_1_0_0_1_n_n.rhsIdx (ix2 p q) ((ValueIdx.contrEquiv1 dot_S5000x256_S256x128_S5000x128_1_0_0_1_n_n 256 rfl rfl).symm k) = ix2 k q := funext fun a => Fin.ext (by
    match a with
    | ⟨0, _⟩ => exact (rhs_dot_0 _ _).trans hk
    | ⟨1, _⟩ => exact rhs_dot_1 _ _)
  rw [el, er]

/-- The bias row, given a leading unit axis and repeated down the 5000 rows, read at (p, q): the bias at q. -/
theorem bias_at (b : Vec Ideal S128 .f32) (p : Fin 5000) (q : Fin 128) :
    broadcastTo S5000x128 (shapeCast S1x128 b shapeCasts_S128_S1x128) broadcasts_S1x128_S5000x128 (ix2 p q) = b (ix1 q) := by
  rw [broadcastTo_apply (k := ix2 (0 : Fin 1) q) (hk := by
    intro a
    match a with
    | ⟨0, _⟩ => rfl
    | ⟨1, _⟩ => rfl)]
  rw [shapeCast_addUnit_apply]
  refine congrArg b (funext fun a => ?_)
  match a with
  | ⟨0, _⟩ => rfl

/-- One row block of the input projection: the block's product with the weights (the casts to the narrow format are the
    identity on extended reals, the product into a zero accumulator is the plain sum), the bias row and the
    embedding block added — the whole-array layer read at 5000 rows. -/
theorem embed0 (x : Vec Ideal S5000x256 .f32) (W : Vec Ideal S256x128 .f32) (b : Vec Ideal S128 .f32) (e : Vec Ideal S5000x128 .f32) :
    k0_pay1 (F := Ideal) x W b e = Cert.Spec.embedLin (n := 5000) x e W b := by
  funext j
  obtain ⟨p, q, rfl⟩ : ∃ (p : Fin 5000) (q : Fin 128), j = ix2 p q := ⟨j 0, j 1, eq_ix2 j⟩
  unfold k0_pay1
  unfold Cert.Spec.embedLin Cert.Spec.dotAt
  rw [addf_apply, addf_apply, shapeCast_self, matmul_at, bias_at]
  rfl

theorem embed1 (x : Vec Ideal S5000x256 .f32) (W : Vec Ideal S256x128 .f32) (b : Vec Ideal S128 .f32) (e : Vec Ideal S5000x128 .f32) :
    k1_pay1 (F := Ideal) x W b e = Cert.Spec.embedLin (n := 5000) x e W b := by
  funext j
  obtain ⟨p, q, rfl⟩ : ∃ (p : Fin 5000) (q : Fin 128), j = ix2 p q := ⟨j 0, j 1, eq_ix2 j⟩
  unfold k1_pay1
  unfold Cert.Spec.embedLin Cert.Spec.dotAt
  rw [addf_apply, addf_apply, shapeCast_self, matmul_at, bias_at]
  rfl

end Cert.KernelIdeal.Pay

end
-- ==== Proof.Region0.lean ====
import proofs.«401606_j16690242913042_1_alg».proof.Proof.Gen.KernelIdeal.Frame
import proofs.«401606_j16690242913042_1_alg».proof.Proof.PayEmbed

set_option maxRecDepth 16384

noncomputable section

open Idealize.ShloMosaic Idealize.ShloMosaic.TcCoe Idealize.ShloMosaic.ValueIdx
open Idealize.ShloMosaic.Pipeline (Dat Cfg Window)

namespace Cert.KernelIdeal.Region0

open Cert.KernelIdeal Cert.KernelIdeal.Gen

variable (V : (c : Dev nD) → (b : Ref sig .tc) → Buf (Elt Ideal) ((c : Thread nD τ).loc b))

/-! ## From the row blocks to the array

The region runs the input projection on 20 row blocks of 5000 rows: point `t` reads rows 5000·t … 5000·t + 4999 of x and
of the embedding, the whole weights and the whole bias, and writes the same rows of the output. The layer is row-local, so
what point `t` writes is block `t` of the layer of the whole arrays; the blocks tile the 100000 rows, so the output array
ends as that layer. -/

/-- The layer is ROW-LOCAL: entry (r, q) uses row r of x and of the embedding only. So when a block's rows are rows of
    the whole arrays (row `j 0` of the block is row `i 0` of the array, the columns agree, the weights and the bias are
    whole), the layer of the blocks at `j` is the layer of the arrays at `i`. -/
theorem embedLin_rows {N M : Nat} (X : Cert.Spec.Mat N 256) (E : Cert.Spec.Mat N 128) (W : Cert.Spec.Mat 256 128) (b : Cert.Spec.Row 128)
    (x : Cert.Spec.Mat M 256) (e : Cert.Spec.Mat M 128) (W' : Cert.Spec.Mat 256 128) (b' : Cert.Spec.Row 128)
    (j : (⟨2, ![M, 128]⟩ : Shape).Idx) (i : (⟨2, ![N, 128]⟩ : Shape).Idx)
    (hx : ∀ k : Fin 256, x (ix2 (j 0) k) = X (ix2 (i 0) k)) (he : e j = E i) (hW : W' = W) (hb : b' = b)
    (h1 : j 1 = i 1) :
    Cert.Spec.embedLin x e W' b' j = Cert.Spec.embedLin X E W b i := by
  subst hW hb
  unfold Cert.Spec.embedLin Cert.Spec.dotAt
  rw [he, h1]
  exact congrArg (fun s => s + b' (ix1 (i 1)) + E i) (Finset.sum_congr rfl fun k _ => by rw [hx k])

theorem hz2 : (![0, 0] : Fin 2 → Nat) = fun _ => 0 := funext fun a => by fin_cases a <;> rfl
theorem hz1 : (![0] : Fin 1 → Nat) = fun _ => 0 := funext fun a => by fin_cases a <;> rfl

/-- The index maps, decided over the grid: x, the embedding and the output move together down the rows, one block per
    point; the weights and the bias stay at block 0. -/
theorem idx_facts : ∀ t : Fin cfg0.N,
    win0_0.index t (0 : Fin 2) = win0_4.index t (0 : Fin 2)
    ∧ win0_0.index t (1 : Fin 2) = 0
    ∧ win0_1.index t (0 : Fin 2) = win0_4.index t (0 : Fin 2)
    ∧ win0_1.index t (1 : Fin 2) = 0
    ∧ win0_2.index t (0 : Fin 2) = 0
    ∧ win0_2.index t (1 : Fin 2) = 0
    ∧ win0_3.index t (0 : Fin 1) = 0
    ∧ win0_4.index t (0 : Fin 2) = t.val
    ∧ win0_4.index t (1 : Fin 2) = 0 :=
  (by decide +kernel : ∀ t : Fin grid0.N, _)

/-- What point `t` writes back is block `t` of the layer of the whole arrays as the region finds them. -/
theorem flushed_eq (c : Dev nD) (t : Fin cfg0.N) :
    (dat0 (F := Ideal) V c).flushed 4 t = ((cfg0.win 4).blk t).view.read (Elt Ideal)
      (Cert.Spec.embedLin (n := 100000) (V c main_arg0) (V c main_v0) (V c main_arg10) (V c main_arg11)) := by
  show (cfg0.win 4).cut (grid0.coords t) ((dat0 V c).after 4 t) = _
  rw [after0_4]
  unfold out0_4
  rw [View.canon_unit_zero hz2]
  simp only [View.ld_unit_zero (S := S5000x256) hz2, View.ld_unit_zero (S := S5000x128) hz2, View.ld_unit_zero (S := S256x128) hz2, View.ld_unit_zero (S := S128) hz1]
  rw [Pay.embed0]
  obtain ⟨e0, e1, e2, e3, e4, e5, e6, e7, e8⟩ := idx_facts t
  funext j
  show Cert.Spec.embedLin (n := 5000) (iblk0 V c 0 t) (iblk0 V c 1 t) (iblk0 V c 2 t) (iblk0 V c 3 t) j
    = Cert.Spec.embedLin (n := 100000) (V c main_arg0) (V c main_v0) (V c main_arg10) (V c main_arg11) (((cfg0.win 4).blk t).view.emb j)
  refine embedLin_rows _ _ _ _ _ _ _ _ j _ (fun k => ?_) ?_ ?_ ?_ ?_
  · -- row `j 0` of the x block is row 5000·t + `j 0` of x
    show V c main_arg0 (((cfg0.win 0).blk t).view.emb (ix2 (j 0) k)) = _
    refine congrArg (V c main_arg0) (funext fun a => Fin.ext ?_)
    match a with
    | ⟨0, _⟩ => show win0_0.index t (0 : Fin 2) * 5000 + 1 * (j 0).val = win0_4.index t (0 : Fin 2) * 5000 + 1 * (j 0).val; omega
    | ⟨1, _⟩ => show win0_0.index t (1 : Fin 2) * 256 + 1 * k.val = k.val; omega
  · -- the embedding block's element is the embedding's at the output's index
    show V c main_v0 (((cfg0.win 1).blk t).view.emb j) = V c main_v0 (((cfg0.win 4).blk t).view.emb j)
    refine congrArg (V c main_v0) (funext fun a => Fin.ext ?_)
    match a with
    | ⟨0, _⟩ => show win0_1.index t (0 : Fin 2) * 5000 + 1 * (j 0).val = win0_4.index t (0 : Fin 2) * 5000 + 1 * (j 0).val; omega
    | ⟨1, _⟩ => show win0_1.index t (1 : Fin 2) * 128 + 1 * (j 1).val = win0_4.index t (1 : Fin 2) * 128 + 1 * (j 1).val; omega
  · -- the weights' one block is the weights
    funext y
    show V c main_arg10 (((cfg0.win 2).blk t).view.emb y) = V c main_arg10 y
    refine congrArg (V c main_arg10) (funext fun a => Fin.ext ?_)
    match a with
    | ⟨0, _⟩ => show win0_2.index t (0 : Fin 2) * 256 + 1 * (y 0).val = (y 0).val; omega
    | ⟨1, _⟩ => show win0_2.index t (1 : Fin 2) * 128 + 1 * (y 1).val = (y 1).val; omega
  · -- the bias's one block is the bias
    funext y
    show V c main_arg11 (((cfg0.win 3).blk t).view.emb y) = V c main_arg11 y
    refine congrArg (V c main_arg11) (funext fun a => Fin.ext ?_)
    match a with
    | ⟨0, _⟩ => show win0_3.index t (0 : Fin 1) * 128 + 1 * (y 0).val = (y 0).val; omega
  · -- the columns agree
    apply Fin.ext
    show (j 1).val = win0_4.index t (1 : Fin 2) * 128 + 1 * (j 1).val
    omega

/-- An index of the output array is in point `t`'s block iff each coordinate is in the block's range on its axis. -/
theorem mem_blk (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v2).slice (win0_4.rect t)).set ↔ _
  rw [View.set_slice_whole, Rect.mem_set_unit]
  exact Iff.rfl

/-- The 20 row blocks of 5000 tile the 100000 rows: row `r` is in the block of point `r / 5000`. -/
theorem cover (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, (by have h : (i 0).val / 5000 < 20 := by omega
                            exact h)⟩, rfl⟩
  obtain ⟨-, -, -, -, -, -, -, e7, e8⟩ := idx_facts t
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

theorem final (c : Dev nD) :
    (dat0 (F := Ideal) V c).arrAt 4 cfg0.N
      = Cert.Spec.embedLin (n := 100000) (V c main_arg0) (V c main_v0) (V c main_arg10) (V c main_arg11) :=
  (dat0 V c).arrAt_eq_of_cover 4 _ (fun t _ => flushed_eq V c t) cover

end Cert.KernelIdeal.Region0

end
-- ==== Proof.Region1.lean ====
import proofs.«401606_j16690242913042_1_alg».proof.Proof.Gen.KernelIdeal.Frame
import proofs.«401606_j16690242913042_1_alg».proof.Proof.PayEmbed

set_option maxRecDepth 16384

noncomputable section

open Idealize.ShloMosaic Idealize.ShloMosaic.TcCoe Idealize.ShloMosaic.ValueIdx
open Idealize.ShloMosaic.Pipeline (Dat Cfg Window)

namespace Cert.KernelIdeal.Region1

open Cert.KernelIdeal Cert.KernelIdeal.Gen

variable (V : (c : Dev nD) → (b : Ref sig .tc) → Buf (Elt Ideal) ((c : Thread nD τ).loc b))

/-! ## From the row blocks to the array

The region runs the input projection on 2 row blocks of 5000 rows: point `t` reads rows 5000·t … 5000·t + 4999 of x and
of the embedding, the whole weights and the whole bias, and writes the same rows of the output. The layer is row-local, so
what point `t` writes is block `t` of the layer of the whole arrays; the blocks tile the 10000 rows, so the output array
ends as that layer. -/

/-- The layer is ROW-LOCAL: entry (r, q) uses row r of x and of the embedding only. So when a block's rows are rows of
    the whole arrays (row `j 0` of the block is row `i 0` of the array, the columns agree, the weights and the bias are
    whole), the layer of the blocks at `j` is the layer of the arrays at `i`. -/
theorem embedLin_rows {N M : Nat} (X : Cert.Spec.Mat N 256) (E : Cert.Spec.Mat N 128) (W : Cert.Spec.Mat 256 128) (b : Cert.Spec.Row 128)
    (x : Cert.Spec.Mat M 256) (e : Cert.Spec.Mat M 128) (W' : Cert.Spec.Mat 256 128) (b' : Cert.Spec.Row 128)
    (j : (⟨2, ![M, 128]⟩ : Shape).Idx) (i : (⟨2, ![N, 128]⟩ : Shape).Idx)
    (hx : ∀ k : Fin 256, x (ix2 (j 0) k) = X (ix2 (i 0) k)) (he : e j = E i) (hW : W' = W) (hb : b' = b)
    (h1 : j 1 = i 1) :
    Cert.Spec.embedLin x e W' b' j = Cert.Spec.embedLin X E W b i := by
  subst hW hb
  unfold Cert.Spec.embedLin Cert.Spec.dotAt
  rw [he, h1]
  exact congrArg (fun s => s + b' (ix1 (i 1)) + E i) (Finset.sum_congr rfl fun k _ => by rw [hx k])

theorem hz2 : (![0, 0] : Fin 2 → Nat) = fun _ => 0 := funext fun a => by fin_cases a <;> rfl
theorem hz1 : (![0] : Fin 1 → Nat) = fun _ => 0 := funext fun a => by fin_cases a <;> rfl

/-- The index maps, decided over the grid: x, the embedding and the output move together down the rows, one block per
    point; the weights and the bias stay at block 0. -/
theorem idx_facts : ∀ t : Fin cfg1.N,
    win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = 0
    ∧ win1_2.index t (1 : Fin 2) = 0
    ∧ win1_3.index t (0 : Fin 1) = 0
    ∧ win1_4.index t (0 : Fin 2) = t.val
    ∧ win1_4.index t (1 : Fin 2) = 0 :=
  (by decide +kernel : ∀ t : Fin grid1.N, _)

/-- What point `t` writes back is block `t` of the layer of the whole arrays as the region finds them. -/
theorem flushed_eq (c : Dev nD) (t : Fin cfg1.N) :
    (dat1 (F := Ideal) V c).flushed 4 t = ((cfg1.win 4).blk t).view.read (Elt Ideal)
      (Cert.Spec.embedLin (n := 10000) (V c main_arg1) (V c main_v1) (V c main_arg12) (V c main_arg13)) := by
  show (cfg1.win 4).cut (grid1.coords t) ((dat1 V c).after 4 t) = _
  rw [after1_4]
  unfold out1_4
  rw [View.canon_unit_zero hz2]
  simp only [View.ld_unit_zero (S := S5000x256) hz2, View.ld_unit_zero (S := S5000x128) hz2, View.ld_unit_zero (S := S256x128) hz2, View.ld_unit_zero (S := S128) hz1]
  rw [Pay.embed1]
  obtain ⟨e0, e1, e2, e3, e4, e5, e6, e7, e8⟩ := idx_facts t
  funext j
  show Cert.Spec.embedLin (n := 5000) (iblk1 V c 0 t) (iblk1 V c 1 t) (iblk1 V c 2 t) (iblk1 V c 3 t) j
    = Cert.Spec.embedLin (n := 10000) (V c main_arg1) (V c main_v1) (V c main_arg12) (V c main_arg13) (((cfg1.win 4).blk t).view.emb j)
  refine embedLin_rows _ _ _ _ _ _ _ _ j _ (fun k => ?_) ?_ ?_ ?_ ?_
  · -- row `j 0` of the x block is row 5000·t + `j 0` of x
    show V c main_arg1 (((cfg1.win 0).blk t).view.emb (ix2 (j 0) k)) = _
    refine congrArg (V c main_arg1) (funext fun a => Fin.ext ?_)
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 256 + 1 * k.val = k.val; omega
  · -- the embedding block's element is the embedding's at the output's index
    show V c main_v1 (((cfg1.win 1).blk t).view.emb j) = V c main_v1 (((cfg1.win 4).blk t).view.emb j)
    refine congrArg (V c main_v1) (funext fun a => Fin.ext ?_)
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 128 + 1 * (j 1).val = win1_4.index t (1 : Fin 2) * 128 + 1 * (j 1).val; omega
  · -- the weights' one block is the weights
    funext y
    show V c main_arg12 (((cfg1.win 2).blk t).view.emb y) = V c main_arg12 y
    refine congrArg (V c main_arg12) (funext fun a => Fin.ext ?_)
    match a with
    | ⟨0, _⟩ => show win1_2.index t (0 : Fin 2) * 256 + 1 * (y 0).val = (y 0).val; omega
    | ⟨1, _⟩ => show win1_2.index t (1 : Fin 2) * 128 + 1 * (y 1).val = (y 1).val; omega
  · -- the bias's one block is the bias
    funext y
    show V c main_arg13 (((cfg1.win 3).blk t).view.emb y) = V c main_arg13 y
    refine congrArg (V c main_arg13) (funext fun a => Fin.ext ?_)
    match a with
    | ⟨0, _⟩ => show win1_3.index t (0 : Fin 1) * 128 + 1 * (y 0).val = (y 0).val; omega
  · -- the columns agree
    apply Fin.ext
    show (j 1).val = win1_4.index t (1 : Fin 2) * 128 + 1 * (j 1).val
    omega

/-- An index of the output array is in point `t`'s block iff each coordinate is in the block's range on its axis. -/
theorem mem_blk (t : Fin cfg1.N) (i : S10000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v3).slice (win1_4.rect t)).set ↔ _
  rw [View.set_slice_whole, Rect.mem_set_unit]
  exact Iff.rfl

/-- The 2 row blocks of 5000 tile the 10000 rows: row `r` is in the block of point `r / 5000`. -/
theorem cover (i : S10000x128.Idx) : ∃ t : Fin cfg1.N, (cfg1.win 4).flush t = true ∧ i ∈ ((cfg1.win 4).blk t).view.set := by
  have hi0 : (i 0).val < 10000 := (i 0).isLt
  have hi1 : (i 1).val < 128 := (i 1).isLt
  obtain ⟨t, ht⟩ : ∃ t : Fin cfg1.N, t.val = (i 0).val / 5000 :=
    ⟨⟨(i 0).val / 5000, (by have h : (i 0).val / 5000 < 2 := by omega
                            exact h)⟩, rfl⟩
  obtain ⟨-, -, -, -, -, -, -, e7, e8⟩ := idx_facts t
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

theorem final (c : Dev nD) :
    (dat1 (F := Ideal) V c).arrAt 4 cfg1.N
      = Cert.Spec.embedLin (n := 10000) (V c main_arg1) (V c main_v1) (V c main_arg12) (V c main_arg13) :=
  (dat1 V c).arrAt_eq_of_cover 4 _ (fun t _ => flushed_eq V c t) cover

end Cert.KernelIdeal.Region1

end
-- ==== Proof.PaySage.lean ====
import proofs.«401606_j16690242913042_1_alg».proof.Proof.Gen.KernelIdeal.Skeleton
import proofs.«401606_j16690242913042_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open Idealize.ShloMosaic Idealize.ShloMosaic.TcCoe Idealize.ShloMosaic.ValueIdx
open Idealize.ShloMosaic.Pipeline (Dat Cfg Window)

namespace Cert.KernelIdeal.Pay

open Cert.KernelIdeal Cert.KernelIdeal.Gen

/-! ## The 5000×128 by 128×128 product at an index

The dimension numbers contract the left operand's axis 1 with the right operand's axis 0; the result's row comes from
the left operand and its column from the right. -/

theorem dot_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem dot_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem dot_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem dot_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The product into a zero accumulator, read at row `p` and column `q`: the sum over the shared axis. -/
theorem matmul128_at {φ₁ φ₂ : FTy} (x : FVec Ideal S5000x128 φ₁) (W : FVec Ideal S128x128 φ₂) (p : Fin 5000) (q : Fin 128) :
    matmul dot_S5000x128_S128x128_S5000x128_1_0_0_1_n_n none x W (constant (F := Ideal) S5000x128 .f32 0x00000000#32) (ix2 p q)
      = ∑ k : Fin 128, x (ix2 p k) * W (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact dot_lhs_0 _ _
      | ⟨1, _⟩ => exact (dot_lhs_1 _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (dot_rhs_0 _ _).trans hk
      | ⟨1, _⟩ => exact dot_rhs_1 _ _)
  rw [el, er]

/-! ## The bias row broadcast over the rows -/

/-- The bias vector viewed as one row and repeated down the rows reads, at row `p` and column `q`, entry `q`. -/
theorem bias128_at (bl : Vec Ideal S128 .f32) (p : Fin 5000) (q : Fin 128) :
    broadcastTo S5000x128 (shapeCast S1x128 bl shapeCasts_S128_S1x128) broadcasts_S1x128_S5000x128 (ix2 p q) = bl (ix1 q) := by
  rw [broadcastTo_apply _ broadcasts_S1x128_S5000x128 (ix2 p q) (ix2 (0 : Fin 1) q) (fun a => by
    match a with
    | ⟨0, _⟩ => show (0 : ℕ) = if (1 : ℕ) = 1 then 0 else _; rw [if_pos rfl]
    | ⟨1, _⟩ => show q.val = if (128 : ℕ) = 1 then 0 else q.val; rw [if_neg (by decide)])]
  rw [shapeCast_addUnit_apply ![128] bl shapeCasts_S128_S1x128 (ix2 (0 : Fin 1) q)]
  exact congrArg bl (funext fun a => match a with | ⟨0, _⟩ => rfl)

/-! ## The layer before its rectifier -/

/-- The printed tree of operations all four bodies share: both operands' products into zero accumulators, the bias row
    added to the first, the second added to that. -/
def linTree (a d : Vec Ideal S5000x128 .f32) (Wl Wr : Vec Ideal S128x128 .f32) (bl : Vec Ideal S128 .f32) :
    FVec Ideal S5000x128 .f32 :=
  addf
    (addf
      (matmul dot_S5000x128_S128x128_S5000x128_1_0_0_1_n_n none
        (truncf .bf16 (shapeCast S5000x128 a shapeCasts_S5000x128_S5000x128) bitsLt_bf16_f32)
        (truncf .bf16 Wl bitsLt_bf16_f32) (constant (F := Ideal) S5000x128 .f32 0x00000000#32))
      (broadcastTo S5000x128 (shapeCast S1x128 bl shapeCasts_S128_S1x128) broadcasts_S1x128_S5000x128))
    (matmul dot_S5000x128_S128x128_S5000x128_1_0_0_1_n_n none
      (truncf .bf16 (shapeCast S5000x128 d shapeCasts_S5000x128_S5000x128) bitsLt_bf16_f32)
      (truncf .bf16 Wr bitsLt_bf16_f32) (constant (F := Ideal) S5000x128 .f32 0x00000000#32))

/-- At row `p`, column `q` the tree is the layer's entry: the narrowing format changes are the identity on extended
    reals, each product is the sum over the shared axis, the bias row reads its column. -/
theorem linTree_at (a d : Vec Ideal S5000x128 .f32) (Wl Wr : Vec Ideal S128x128 .f32) (bl : Vec Ideal S128 .f32)
    (p : Fin 5000) (q : Fin 128) :
    linTree a d Wl Wr bl (ix2 p q) = Cert.Spec.sageLin (n := 5000) a d Wl bl Wr (ix2 p q) := by
  unfold linTree
  rw [addf_apply, addf_apply, matmul128_at, matmul128_at, bias128_at, shapeCast_self, shapeCast_self]
  rfl

theorem sage2 (a d : Vec Ideal S5000x128 .f32) (Wl Wr : Vec Ideal S128x128 .f32) (bl : Vec Ideal S128 .f32) :
    k2_pay1 (F := Ideal) a d Wl Wr bl = Cert.Spec.sageRelu (n := 5000) a d Wl bl Wr := by
  funext j
  obtain ⟨p, q, rfl⟩ : ∃ (p : Fin 5000) (q : Fin 128), j = ix2 p q := ⟨j 0, j 1, eq_ix2 j⟩
  show max (linTree a d Wl Wr bl (ix2 p q)) (Ideal.ofBits .f32 0x00000000#32) = max (Cert.Spec.sageLin (n := 5000) a d Wl bl Wr (ix2 p q)) 0
  rw [linTree_at, Ideal.ofBits_zero_f32]

theorem sage3 (a d : Vec Ideal S5000x128 .f32) (Wl Wr : Vec Ideal S128x128 .f32) (bl : Vec Ideal S128 .f32) :
    k3_pay1 (F := Ideal) a d Wl Wr bl = Cert.Spec.sageRelu (n := 5000) a d Wl bl Wr := by
  funext j
  obtain ⟨p, q, rfl⟩ : ∃ (p : Fin 5000) (q : Fin 128), j = ix2 p q := ⟨j 0, j 1, eq_ix2 j⟩
  show max (linTree a d Wl Wr bl (ix2 p q)) (Ideal.ofBits .f32 0x00000000#32) = max (Cert.Spec.sageLin (n := 5000) a d Wl bl Wr (ix2 p q)) 0
  rw [linTree_at, Ideal.ofBits_zero_f32]

theorem sage4 (a d : Vec Ideal S5000x128 .f32) (Wl Wr : Vec Ideal S128x128 .f32) (bl : Vec Ideal S128 .f32) :
    k4_pay1 (F := Ideal) a d Wl Wr bl = Cert.Spec.sageLin (n := 5000) a d Wl bl Wr := by
  funext j
  obtain ⟨p, q, rfl⟩ : ∃ (p : Fin 5000) (q : Fin 128), j = ix2 p q := ⟨j 0, j 1, eq_ix2 j⟩
  exact linTree_at a d Wl Wr bl p q

theorem sage5 (a d : Vec Ideal S5000x128 .f32) (Wl Wr : Vec Ideal S128x128 .f32) (bl : Vec Ideal S128 .f32) :
    k5_pay1 (F := Ideal) a d Wl Wr bl = Cert.Spec.sageLin (n := 5000) a d Wl bl Wr := by
  funext j
  obtain ⟨p, q, rfl⟩ : ∃ (p : Fin 5000) (q : Fin 128), j = ix2 p q := ⟨j 0, j 1, eq_ix2 j⟩
  exact linTree_at a d Wl Wr bl p q

end Cert.KernelIdeal.Pay

end
-- ==== Proof.Region2.lean ====
import proofs.«401606_j16690242913042_1_alg».proof.Proof.Gen.KernelIdeal.Frame
import proofs.«401606_j16690242913042_1_alg».proof.Proof.PaySage

set_option maxRecDepth 16384

noncomputable section

open Idealize.ShloMosaic Idealize.ShloMosaic.TcCoe Idealize.ShloMosaic.ValueIdx
open Idealize.ShloMosaic.Pipeline (Dat Cfg Window)

namespace Cert.KernelIdeal.Region2

open Cert.KernelIdeal Cert.KernelIdeal.Gen

variable (V : (c : Dev nD) → (b : Ref sig .tc) → Buf (Elt Ideal) ((c : Thread nD τ).loc b))

/-! ## The layer is row-local

Entry (r, q) of the layer reads row r of the two node arrays and column q of the weights and the bias: two pairs of
node arrays that agree on one row each give the same entry there. -/

theorem relu_rows {n N : Nat} (a d : Cert.Spec.Mat n 128) (A D : Cert.Spec.Mat N 128)
    (Wl Wr Wl' Wr' : Cert.Spec.Mat 128 128) (bl bl' : Cert.Spec.Row 128)
    (y : (⟨2, ![n, 128]⟩ : Shape).Idx) (i : (⟨2, ![N, 128]⟩ : Shape).Idx)
    (h1 : (y 1).val = (i 1).val)
    (ha : ∀ k : Fin 128, a (ix2 (y 0) k) = A (ix2 (i 0) k))
    (hd : ∀ k : Fin 128, d (ix2 (y 0) k) = D (ix2 (i 0) k))
    (hWl : Wl = Wl') (hWr : Wr = Wr') (hbl : bl = bl') :
    Cert.Spec.sageRelu a d Wl bl Wr y = Cert.Spec.sageRelu A D Wl' bl' Wr' i := by
  subst hWl hWr hbl
  obtain ⟨p, q, rfl⟩ : ∃ (p : Fin n) (q : Fin 128), y = ix2 p q := ⟨y 0, y 1, eq_ix2 y⟩
  obtain ⟨P, Q, rfl⟩ : ∃ (P : Fin N) (Q : Fin 128), i = ix2 P Q := ⟨i 0, i 1, eq_ix2 i⟩
  have hq : q = Q := Fin.ext h1
  subst hq
  have ha' : ∀ k : Fin 128, a (ix2 p k) = A (ix2 P k) := ha
  have hd' : ∀ k : Fin 128, d (ix2 p k) = D (ix2 P k) := hd
  show max ((∑ kk : Fin 128, a (ix2 p kk) * Wl (ix2 kk q) + bl (ix1 q)) + ∑ kk : Fin 128, d (ix2 p kk) * Wr (ix2 kk q)) 0
    = max ((∑ kk : Fin 128, A (ix2 P kk) * Wl (ix2 kk q) + bl (ix1 q)) + ∑ kk : Fin 128, D (ix2 P kk) * Wr (ix2 kk q)) 0
  simp only [ha', hd']

/-! ## The windows' block indices over the grid -/

theorem hz2 : (![0, 0] : Fin 2 → Nat) = fun _ => 0 := funext fun a => by fin_cases a <;> rfl
theorem hz1 : (![0] : Fin 1 → Nat) = fun _ => 0 := funext fun a => by fin_cases a; rfl

/-- The two node windows move with the output's row block; the weights and the bias stay at block 0; the output's row
    block at point `t` is block `t`. -/
theorem idx_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point `t` writes back is block `t` of the layer of the five arrays as the region finds them. -/
theorem flushed_eq (c : Dev nD) (t : Fin cfg2.N) :
    (dat2 (F := Ideal) V c).flushed 5 t = ((cfg2.win 5).blk t).view.read (Elt Ideal)
      (Cert.Spec.sageRelu (n := 10000) (V c main_v25) (V c main_v3) (V c main_arg14) (V c main_arg15) (V c main_arg16)) := by
  show (cfg2.win 5).cut (grid2.coords t) ((dat2 V c).after 5 t) = _
  rw [after2_5]
  unfold out2_5
  rw [View.canon_unit_zero hz2]
  simp only [View.ld_unit_zero (S := S5000x128) hz2, View.ld_unit_zero (S := S128x128) hz2, View.ld_unit_zero (S := S128) hz1]
  rw [Pay.sage2]
  obtain ⟨e00, e01, e10, e11, e20, e21, e30, e40, e41, e50, e51⟩ := idx_facts t
  funext y
  show Cert.Spec.sageRelu (n := 5000) (iblk2 V c 0 t) (iblk2 V c 1 t) (iblk2 V c 2 t) (iblk2 V c 3 t) (iblk2 V c 4 t) y
    = Cert.Spec.sageRelu (n := 10000) (V c main_v25) (V c main_v3) (V c main_arg14) (V c main_arg15) (V c main_arg16)
        (((cfg2.win 5).blk t).view.emb y)
  refine relu_rows _ _ _ _ _ _ _ _ _ _ y (((cfg2.win 5).blk t).view.emb y) ?_ ?_ ?_ ?_ ?_ ?_
  · show (y 1).val = win2_5.index t (1 : Fin 2) * 128 + 1 * (y 1).val
    rw [e51]; omega
  · intro k
    show V c main_v25 (((cfg2.win 0).blk t).view.emb (ix2 (y 0) k)) = _
    refine congrArg _ (funext fun a => Fin.ext ?_)
    match a with
    | ⟨0, _⟩ => show win2_0.index t (0 : Fin 2) * 5000 + 1 * (y 0).val = win2_5.index t (0 : Fin 2) * 5000 + 1 * (y 0).val; rw [e00]
    | ⟨1, _⟩ => show win2_0.index t (1 : Fin 2) * 128 + 1 * k.val = k.val; rw [e01]; omega
  · intro k
    show V c main_v3 (((cfg2.win 1).blk t).view.emb (ix2 (y 0) k)) = _
    refine congrArg _ (funext fun a => Fin.ext ?_)
    match a with
    | ⟨0, _⟩ => show win2_1.index t (0 : Fin 2) * 5000 + 1 * (y 0).val = win2_5.index t (0 : Fin 2) * 5000 + 1 * (y 0).val; rw [e10]
    | ⟨1, _⟩ => show win2_1.index t (1 : Fin 2) * 128 + 1 * k.val = k.val; rw [e11]; omega
  · funext z
    show V c main_arg14 (((cfg2.win 2).blk t).view.emb z) = V c main_arg14 z
    refine congrArg _ (funext fun a => Fin.ext ?_)
    match a with
    | ⟨0, _⟩ => show win2_2.index t (0 : Fin 2) * 128 + 1 * (z 0).val = (z 0).val; rw [e20]; omega
    | ⟨1, _⟩ => show win2_2.index t (1 : Fin 2) * 128 + 1 * (z 1).val = (z 1).val; rw [e21]; omega
  · funext z
    show V c main_arg16 (((cfg2.win 4).blk t).view.emb z) = V c main_arg16 z
    refine congrArg _ (funext fun a => Fin.ext ?_)
    match a with
    | ⟨0, _⟩ => show win2_4.index t (0 : Fin 2) * 128 + 1 * (z 0).val = (z 0).val; rw [e40]; omega
    | ⟨1, _⟩ => show win2_4.index t (1 : Fin 2) * 128 + 1 * (z 1).val = (z 1).val; rw [e41]; omega
  · funext z
    show V c main_arg15 (((cfg2.win 3).blk t).view.emb z) = V c main_arg15 z
    refine congrArg _ (funext fun a => Fin.ext ?_)
    match a with
    | ⟨0, _⟩ => show win2_3.index t (0 : Fin 1) * 128 + 1 * (z 0).val = (z 0).val; rw [e30]; omega

/-- An index of the output array is in point `t`'s block iff each coordinate is in the block's range on its axis. -/
theorem mem_blk (t : Fin cfg2.N) (i : S10000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v41).slice (win2_5.rect t)).set ↔ _
  rw [View.set_slice_whole, Rect.mem_set_unit]
  exact Iff.rfl

/-- The row blocks tile the array: row `r` is in the block of point `r / 5000`. -/
theorem cover (i : S10000x128.Idx) :
    ∃ t : Fin cfg2.N, (cfg2.win 5).flush t = true ∧ i ∈ ((cfg2.win 5).blk t).view.set := by
  have hi0 : (i 0).val < 10000 := (i 0).isLt
  have hi1 : (i 1).val < 128 := (i 1).isLt
  have hN : cfg2.N = 2 := N_2
  let t : Fin cfg2.N := ⟨(i 0).val / 5000, by rw [hN]; omega⟩
  obtain ⟨-, -, -, -, -, -, -, -, -, e50, e51⟩ := idx_facts t
  have ht : t.val = (i 0).val / 5000 := rfl
  refine ⟨t, flush2_5 t, ?_⟩
  rw [mem_blk]
  intro a
  match a with
  | ⟨0, _⟩ =>
    show win2_5.index t (0 : Fin 2) * 5000 ≤ (i 0).val ∧ (i 0).val < win2_5.index t (0 : Fin 2) * 5000 + 5000
    rw [e50, ht]; omega
  | ⟨1, _⟩ =>
    show win2_5.index t (1 : Fin 2) * 128 ≤ (i 1).val ∧ (i 1).val < win2_5.index t (1 : Fin 2) * 128 + 128
    rw [e51]; omega

/-- The output array after the region is the layer of the five input arrays as the region finds them. -/
theorem final (c : Dev nD) :
    (dat2 (F := Ideal) V c).arrAt 5 cfg2.N
      = Cert.Spec.sageRelu (n := 10000) (V c main_v25) (V c main_v3) (V c main_arg14) (V c main_arg15) (V c main_arg16) :=
  (dat2 V c).arrAt_eq_of_cover 5 _ (fun t _ => flushed_eq V c t) cover

end Cert.KernelIdeal.Region2

end
-- ==== Proof.Region3.lean ====
import proofs.«401606_j16690242913042_1_alg».proof.Proof.Gen.KernelIdeal.Frame
import proofs.«401606_j16690242913042_1_alg».proof.Proof.PaySage

set_option maxRecDepth 16384

noncomputable section

open Idealize.ShloMosaic Idealize.ShloMosaic.TcCoe Idealize.ShloMosaic.ValueIdx
open Idealize.ShloMosaic.Pipeline (Dat Cfg Window)

namespace Cert.KernelIdeal.Region3

open Cert.KernelIdeal Cert.KernelIdeal.Gen

variable (V : (c : Dev nD) → (b : Ref sig .tc) → Buf (Elt Ideal) ((c : Thread nD τ).loc b))

/-! ## The layer is row-local

Entry (r, q) of the layer reads row r of the two node arrays and column q of the weights and the bias: two pairs of
node arrays that agree on one row each give the same entry there. -/

theorem relu_rows {n N : Nat} (a d : Cert.Spec.Mat n 128) (A D : Cert.Spec.Mat N 128)
    (Wl Wr Wl' Wr' : Cert.Spec.Mat 128 128) (bl bl' : Cert.Spec.Row 128)
    (y : (⟨2, ![n, 128]⟩ : Shape).Idx) (i : (⟨2, ![N, 128]⟩ : Shape).Idx)
    (h1 : (y 1).val = (i 1).val)
    (ha : ∀ k : Fin 128, a (ix2 (y 0) k) = A (ix2 (i 0) k))
    (hd : ∀ k : Fin 128, d (ix2 (y 0) k) = D (ix2 (i 0) k))
    (hWl : Wl = Wl') (hWr : Wr = Wr') (hbl : bl = bl') :
    Cert.Spec.sageRelu a d Wl bl Wr y = Cert.Spec.sageRelu A D Wl' bl' Wr' i := by
  subst hWl hWr hbl
  obtain ⟨p, q, rfl⟩ : ∃ (p : Fin n) (q : Fin 128), y = ix2 p q := ⟨y 0, y 1, eq_ix2 y⟩
  obtain ⟨P, Q, rfl⟩ : ∃ (P : Fin N) (Q : Fin 128), i = ix2 P Q := ⟨i 0, i 1, eq_ix2 i⟩
  have hq : q = Q := Fin.ext h1
  subst hq
  have ha' : ∀ k : Fin 128, a (ix2 p k) = A (ix2 P k) := ha
  have hd' : ∀ k : Fin 128, d (ix2 p k) = D (ix2 P k) := hd
  show max ((∑ kk : Fin 128, a (ix2 p kk) * Wl (ix2 kk q) + bl (ix1 q)) + ∑ kk : Fin 128, d (ix2 p kk) * Wr (ix2 kk q)) 0
    = max ((∑ kk : Fin 128, A (ix2 P kk) * Wl (ix2 kk q) + bl (ix1 q)) + ∑ kk : Fin 128, D (ix2 P kk) * Wr (ix2 kk q)) 0
  simp only [ha', hd']

/-! ## The windows' block indices over the grid -/

theorem hz2 : (![0, 0] : Fin 2 → Nat) = fun _ => 0 := funext fun a => by fin_cases a <;> rfl
theorem hz1 : (![0] : Fin 1 → Nat) = fun _ => 0 := funext fun a => by fin_cases a; rfl

/-- The two node windows move with the output's row block; the weights and the bias stay at block 0; the output's row
    block at point `t` is block `t`. -/
theorem idx_facts : ∀ t : Fin cfg3.N,
    win3_0.index t (0 : Fin 2) = win3_5.index t (0 : Fin 2) ∧ win3_0.index t (1 : Fin 2) = 0
    ∧ win3_1.index t (0 : Fin 2) = win3_5.index t (0 : Fin 2) ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- What point `t` writes back is block `t` of the layer of the five arrays as the region finds them. -/
theorem flushed_eq (c : Dev nD) (t : Fin cfg3.N) :
    (dat3 (F := Ideal) V c).flushed 5 t = ((cfg3.win 5).blk t).view.read (Elt Ideal)
      (Cert.Spec.sageRelu (n := 100000) (V c main_v40) (V c main_v2) (V c main_arg17) (V c main_arg18) (V c main_arg19)) := by
  show (cfg3.win 5).cut (grid3.coords t) ((dat3 V c).after 5 t) = _
  rw [after3_5]
  unfold out3_5
  rw [View.canon_unit_zero hz2]
  simp only [View.ld_unit_zero (S := S5000x128) hz2, View.ld_unit_zero (S := S128x128) hz2, View.ld_unit_zero (S := S128) hz1]
  rw [Pay.sage3]
  obtain ⟨e00, e01, e10, e11, e20, e21, e30, e40, e41, e50, e51⟩ := idx_facts t
  funext y
  show Cert.Spec.sageRelu (n := 5000) (iblk3 V c 0 t) (iblk3 V c 1 t) (iblk3 V c 2 t) (iblk3 V c 3 t) (iblk3 V c 4 t) y
    = Cert.Spec.sageRelu (n := 100000) (V c main_v40) (V c main_v2) (V c main_arg17) (V c main_arg18) (V c main_arg19)
        (((cfg3.win 5).blk t).view.emb y)
  refine relu_rows _ _ _ _ _ _ _ _ _ _ y (((cfg3.win 5).blk t).view.emb y) ?_ ?_ ?_ ?_ ?_ ?_
  · show (y 1).val = win3_5.index t (1 : Fin 2) * 128 + 1 * (y 1).val
    rw [e51]; omega
  · intro k
    show V c main_v40 (((cfg3.win 0).blk t).view.emb (ix2 (y 0) k)) = _
    refine congrArg _ (funext fun a => Fin.ext ?_)
    match a with
    | ⟨0, _⟩ => show win3_0.index t (0 : Fin 2) * 5000 + 1 * (y 0).val = win3_5.index t (0 : Fin 2) * 5000 + 1 * (y 0).val; rw [e00]
    | ⟨1, _⟩ => show win3_0.index t (1 : Fin 2) * 128 + 1 * k.val = k.val; rw [e01]; omega
  · intro k
    show V c main_v2 (((cfg3.win 1).blk t).view.emb (ix2 (y 0) k)) = _
    refine congrArg _ (funext fun a => Fin.ext ?_)
    match a with
    | ⟨0, _⟩ => show win3_1.index t (0 : Fin 2) * 5000 + 1 * (y 0).val = win3_5.index t (0 : Fin 2) * 5000 + 1 * (y 0).val; rw [e10]
    | ⟨1, _⟩ => show win3_1.index t (1 : Fin 2) * 128 + 1 * k.val = k.val; rw [e11]; omega
  · funext z
    show V c main_arg17 (((cfg3.win 2).blk t).view.emb z) = V c main_arg17 z
    refine congrArg _ (funext fun a => Fin.ext ?_)
    match a with
    | ⟨0, _⟩ => show win3_2.index t (0 : Fin 2) * 128 + 1 * (z 0).val = (z 0).val; rw [e20]; omega
    | ⟨1, _⟩ => show win3_2.index t (1 : Fin 2) * 128 + 1 * (z 1).val = (z 1).val; rw [e21]; omega
  · funext z
    show V c main_arg19 (((cfg3.win 4).blk t).view.emb z) = V c main_arg19 z
    refine congrArg _ (funext fun a => Fin.ext ?_)
    match a with
    | ⟨0, _⟩ => show win3_4.index t (0 : Fin 2) * 128 + 1 * (z 0).val = (z 0).val; rw [e40]; omega
    | ⟨1, _⟩ => show win3_4.index t (1 : Fin 2) * 128 + 1 * (z 1).val = (z 1).val; rw [e41]; omega
  · funext z
    show V c main_arg18 (((cfg3.win 3).blk t).view.emb z) = V c main_arg18 z
    refine congrArg _ (funext fun a => Fin.ext ?_)
    match a with
    | ⟨0, _⟩ => show win3_3.index t (0 : Fin 1) * 128 + 1 * (z 0).val = (z 0).val; rw [e30]; omega

/-- An index of the output array is in point `t`'s block iff each coordinate is in the block's range on its axis. -/
theorem mem_blk (t : Fin cfg3.N) (i : S100000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v42).slice (win3_5.rect t)).set ↔ _
  rw [View.set_slice_whole, Rect.mem_set_unit]
  exact Iff.rfl

/-- The row blocks tile the array: row `r` is in the block of point `r / 5000`. -/
theorem cover (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have hN : cfg3.N = 20 := N_3
  let t : Fin cfg3.N := ⟨(i 0).val / 5000, by rw [hN]; omega⟩
  obtain ⟨-, -, -, -, -, -, -, -, -, e50, e51⟩ := idx_facts t
  have ht : t.val = (i 0).val / 5000 := rfl
  refine ⟨t, flush3_5 t, ?_⟩
  rw [mem_blk]
  intro a
  match a with
  | ⟨0, _⟩ =>
    show win3_5.index t (0 : Fin 2) * 5000 ≤ (i 0).val ∧ (i 0).val < win3_5.index t (0 : Fin 2) * 5000 + 5000
    rw [e50, ht]; omega
  | ⟨1, _⟩ =>
    show win3_5.index t (1 : Fin 2) * 128 ≤ (i 1).val ∧ (i 1).val < win3_5.index t (1 : Fin 2) * 128 + 128
    rw [e51]; omega

/-- The output array after the region is the layer of the five input arrays as the region finds them. -/
theorem final (c : Dev nD) :
    (dat3 (F := Ideal) V c).arrAt 5 cfg3.N
      = Cert.Spec.sageRelu (n := 100000) (V c main_v40) (V c main_v2) (V c main_arg17) (V c main_arg18) (V c main_arg19) :=
  (dat3 V c).arrAt_eq_of_cover 5 _ (fun t _ => flushed_eq V c t) cover

end Cert.KernelIdeal.Region3

end
-- ==== Proof.Region4.lean ====
import proofs.«401606_j16690242913042_1_alg».proof.Proof.Gen.KernelIdeal.Frame
import proofs.«401606_j16690242913042_1_alg».proof.Proof.PaySage

set_option maxRecDepth 16384

noncomputable section

open Idealize.ShloMosaic Idealize.ShloMosaic.TcCoe Idealize.ShloMosaic.ValueIdx
open Idealize.ShloMosaic.Pipeline (Dat Cfg Window)

namespace Cert.KernelIdeal.Region4

open Cert.KernelIdeal Cert.KernelIdeal.Gen

variable (V : (c : Dev nD) → (b : Ref sig .tc) → Buf (Elt Ideal) ((c : Thread nD τ).loc b))

/-! ## The layer is row-local

Entry (r, q) of the layer reads row r of the two node arrays and column q of the weights and the bias: two pairs of
node arrays that agree on one row each give the same entry there. -/

theorem lin_rows {n N : Nat} (a d : Cert.Spec.Mat n 128) (A D : Cert.Spec.Mat N 128)
    (Wl Wr Wl' Wr' : Cert.Spec.Mat 128 128) (bl bl' : Cert.Spec.Row 128)
    (y : (⟨2, ![n, 128]⟩ : Shape).Idx) (i : (⟨2, ![N, 128]⟩ : Shape).Idx)
    (h1 : (y 1).val = (i 1).val)
    (ha : ∀ k : Fin 128, a (ix2 (y 0) k) = A (ix2 (i 0) k))
    (hd : ∀ k : Fin 128, d (ix2 (y 0) k) = D (ix2 (i 0) k))
    (hWl : Wl = Wl') (hWr : Wr = Wr') (hbl : bl = bl') :
    Cert.Spec.sageLin a d Wl bl Wr y = Cert.Spec.sageLin A D Wl' bl' Wr' i := by
  subst hWl hWr hbl
  obtain ⟨p, q, rfl⟩ : ∃ (p : Fin n) (q : Fin 128), y = ix2 p q := ⟨y 0, y 1, eq_ix2 y⟩
  obtain ⟨P, Q, rfl⟩ : ∃ (P : Fin N) (Q : Fin 128), i = ix2 P Q := ⟨i 0, i 1, eq_ix2 i⟩
  have hq : q = Q := Fin.ext h1
  subst hq
  have ha' : ∀ k : Fin 128, a (ix2 p k) = A (ix2 P k) := ha
  have hd' : ∀ k : Fin 128, d (ix2 p k) = D (ix2 P k) := hd
  show (∑ kk : Fin 128, a (ix2 p kk) * Wl (ix2 kk q) + bl (ix1 q)) + ∑ kk : Fin 128, d (ix2 p kk) * Wr (ix2 kk q)
    = (∑ kk : Fin 128, A (ix2 P kk) * Wl (ix2 kk q) + bl (ix1 q)) + ∑ kk : Fin 128, D (ix2 P kk) * Wr (ix2 kk q)
  simp only [ha', hd']

/-! ## The windows' block indices over the grid -/

theorem hz2 : (![0, 0] : Fin 2 → Nat) = fun _ => 0 := funext fun a => by fin_cases a <;> rfl
theorem hz1 : (![0] : Fin 1 → Nat) = fun _ => 0 := funext fun a => by fin_cases a; rfl

/-- The two node windows move with the output's row block; the weights and the bias stay at block 0; the output's row
    block at point `t` is block `t`. -/
theorem idx_facts : ∀ t : Fin cfg4.N,
    win4_0.index t (0 : Fin 2) = win4_5.index t (0 : Fin 2) ∧ win4_0.index t (1 : Fin 2) = 0
    ∧ win4_1.index t (0 : Fin 2) = win4_5.index t (0 : Fin 2) ∧ win4_1.index t (1 : Fin 2) = 0
    ∧ win4_2.index t (0 : Fin 2) = 0 ∧ win4_2.index t (1 : Fin 2) = 0
    ∧ win4_3.index t (0 : Fin 1) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- What point `t` writes back is block `t` of the layer of the five arrays as the region finds them. -/
theorem flushed_eq (c : Dev nD) (t : Fin cfg4.N) :
    (dat4 (F := Ideal) V c).flushed 5 t = ((cfg4.win 5).blk t).view.read (Elt Ideal)
      (Cert.Spec.sageLin (n := 10000) (V c main_v57) (V c main_v41) (V c main_arg20) (V c main_arg21) (V c main_arg22)) := by
  show (cfg4.win 5).cut (grid4.coords t) ((dat4 V c).after 5 t) = _
  rw [after4_5]
  unfold out4_5
  rw [View.canon_unit_zero hz2]
  simp only [View.ld_unit_zero (S := S5000x128) hz2, View.ld_unit_zero (S := S128x128) hz2, View.ld_unit_zero (S := S128) hz1]
  rw [Pay.sage4]
  obtain ⟨e00, e01, e10, e11, e20, e21, e30, e40, e41, e50, e51⟩ := idx_facts t
  funext y
  show Cert.Spec.sageLin (n := 5000) (iblk4 V c 0 t) (iblk4 V c 1 t) (iblk4 V c 2 t) (iblk4 V c 3 t) (iblk4 V c 4 t) y
    = Cert.Spec.sageLin (n := 10000) (V c main_v57) (V c main_v41) (V c main_arg20) (V c main_arg21) (V c main_arg22)
        (((cfg4.win 5).blk t).view.emb y)
  refine lin_rows _ _ _ _ _ _ _ _ _ _ y (((cfg4.win 5).blk t).view.emb y) ?_ ?_ ?_ ?_ ?_ ?_
  · show (y 1).val = win4_5.index t (1 : Fin 2) * 128 + 1 * (y 1).val
    rw [e51]; omega
  · intro k
    show V c main_v57 (((cfg4.win 0).blk t).view.emb (ix2 (y 0) k)) = _
    refine congrArg _ (funext fun a => Fin.ext ?_)
    match a with
    | ⟨0, _⟩ => show win4_0.index t (0 : Fin 2) * 5000 + 1 * (y 0).val = win4_5.index t (0 : Fin 2) * 5000 + 1 * (y 0).val; rw [e00]
    | ⟨1, _⟩ => show win4_0.index t (1 : Fin 2) * 128 + 1 * k.val = k.val; rw [e01]; omega
  · intro k
    show V c main_v41 (((cfg4.win 1).blk t).view.emb (ix2 (y 0) k)) = _
    refine congrArg _ (funext fun a => Fin.ext ?_)
    match a with
    | ⟨0, _⟩ => show win4_1.index t (0 : Fin 2) * 5000 + 1 * (y 0).val = win4_5.index t (0 : Fin 2) * 5000 + 1 * (y 0).val; rw [e10]
    | ⟨1, _⟩ => show win4_1.index t (1 : Fin 2) * 128 + 1 * k.val = k.val; rw [e11]; omega
  · funext z
    show V c main_arg20 (((cfg4.win 2).blk t).view.emb z) = V c main_arg20 z
    refine congrArg _ (funext fun a => Fin.ext ?_)
    match a with
    | ⟨0, _⟩ => show win4_2.index t (0 : Fin 2) * 128 + 1 * (z 0).val = (z 0).val; rw [e20]; omega
    | ⟨1, _⟩ => show win4_2.index t (1 : Fin 2) * 128 + 1 * (z 1).val = (z 1).val; rw [e21]; omega
  · funext z
    show V c main_arg22 (((cfg4.win 4).blk t).view.emb z) = V c main_arg22 z
    refine congrArg _ (funext fun a => Fin.ext ?_)
    match a with
    | ⟨0, _⟩ => show win4_4.index t (0 : Fin 2) * 128 + 1 * (z 0).val = (z 0).val; rw [e40]; omega
    | ⟨1, _⟩ => show win4_4.index t (1 : Fin 2) * 128 + 1 * (z 1).val = (z 1).val; rw [e41]; omega
  · funext z
    show V c main_arg21 (((cfg4.win 3).blk t).view.emb z) = V c main_arg21 z
    refine congrArg _ (funext fun a => Fin.ext ?_)
    match a with
    | ⟨0, _⟩ => show win4_3.index t (0 : Fin 1) * 128 + 1 * (z 0).val = (z 0).val; rw [e30]; omega

/-- An index of the output array is in point `t`'s block iff each coordinate is in the block's range on its axis. -/
theorem mem_blk (t : Fin cfg4.N) (i : S10000x128.Idx) :
    i ∈ ((cfg4.win 5).blk t).view.set ↔ ∀ a : Fin 2, win4_5.index t a * S5000x128.size a ≤ (i a).val
      ∧ (i a).val < win4_5.index t a * S5000x128.size a + S5000x128.size a := by
  show i ∈ ((View.whole main_v73).slice (win4_5.rect t)).set ↔ _
  rw [View.set_slice_whole, Rect.mem_set_unit]
  exact Iff.rfl

/-- The row blocks tile the array: row `r` is in the block of point `r / 5000`. -/
theorem cover (i : S10000x128.Idx) :
    ∃ t : Fin cfg4.N, (cfg4.win 5).flush t = true ∧ i ∈ ((cfg4.win 5).blk t).view.set := by
  have hi0 : (i 0).val < 10000 := (i 0).isLt
  have hi1 : (i 1).val < 128 := (i 1).isLt
  have hN : cfg4.N = 2 := N_4
  let t : Fin cfg4.N := ⟨(i 0).val / 5000, by rw [hN]; omega⟩
  obtain ⟨-, -, -, -, -, -, -, -, -, e50, e51⟩ := idx_facts t
  have ht : t.val = (i 0).val / 5000 := rfl
  refine ⟨t, flush4_5 t, ?_⟩
  rw [mem_blk]
  intro a
  match a with
  | ⟨0, _⟩ =>
    show win4_5.index t (0 : Fin 2) * 5000 ≤ (i 0).val ∧ (i 0).val < win4_5.index t (0 : Fin 2) * 5000 + 5000
    rw [e50, ht]; omega
  | ⟨1, _⟩ =>
    show win4_5.index t (1 : Fin 2) * 128 ≤ (i 1).val ∧ (i 1).val < win4_5.index t (1 : Fin 2) * 128 + 128
    rw [e51]; omega

/-- The output array after the region is the layer of the five input arrays as the region finds them. -/
theorem final (c : Dev nD) :
    (dat4 (F := Ideal) V c).arrAt 5 cfg4.N
      = Cert.Spec.sageLin (n := 10000) (V c main_v57) (V c main_v41) (V c main_arg20) (V c main_arg21) (V c main_arg22) :=
  (dat4 V c).arrAt_eq_of_cover 5 _ (fun t _ => flushed_eq V c t) cover

end Cert.KernelIdeal.Region4

end
-- ==== Proof.Region5.lean ====
import proofs.«401606_j16690242913042_1_alg».proof.Proof.Gen.KernelIdeal.Frame
import proofs.«401606_j16690242913042_1_alg».proof.Proof.PaySage

set_option maxRecDepth 16384

noncomputable section

open Idealize.ShloMosaic Idealize.ShloMosaic.TcCoe Idealize.ShloMosaic.ValueIdx
open Idealize.ShloMosaic.Pipeline (Dat Cfg Window)

namespace Cert.KernelIdeal.Region5

open Cert.KernelIdeal Cert.KernelIdeal.Gen

variable (V : (c : Dev nD) → (b : Ref sig .tc) → Buf (Elt Ideal) ((c : Thread nD τ).loc b))

/-! ## The layer is row-local

Entry (r, q) of the layer reads row r of the two node arrays and column q of the weights and the bias: two pairs of
node arrays that agree on one row each give the same entry there. -/

theorem lin_rows {n N : Nat} (a d : Cert.Spec.Mat n 128) (A D : Cert.Spec.Mat N 128)
    (Wl Wr Wl' Wr' : Cert.Spec.Mat 128 128) (bl bl' : Cert.Spec.Row 128)
    (y : (⟨2, ![n, 128]⟩ : Shape).Idx) (i : (⟨2, ![N, 128]⟩ : Shape).Idx)
    (h1 : (y 1).val = (i 1).val)
    (ha : ∀ k : Fin 128, a (ix2 (y 0) k) = A (ix2 (i 0) k))
    (hd : ∀ k : Fin 128, d (ix2 (y 0) k) = D (ix2 (i 0) k))
    (hWl : Wl = Wl') (hWr : Wr = Wr') (hbl : bl = bl') :
    Cert.Spec.sageLin a d Wl bl Wr y = Cert.Spec.sageLin A D Wl' bl' Wr' i := by
  subst hWl hWr hbl
  obtain ⟨p, q, rfl⟩ : ∃ (p : Fin n) (q : Fin 128), y = ix2 p q := ⟨y 0, y 1, eq_ix2 y⟩
  obtain ⟨P, Q, rfl⟩ : ∃ (P : Fin N) (Q : Fin 128), i = ix2 P Q := ⟨i 0, i 1, eq_ix2 i⟩
  have hq : q = Q := Fin.ext h1
  subst hq
  have ha' : ∀ k : Fin 128, a (ix2 p k) = A (ix2 P k) := ha
  have hd' : ∀ k : Fin 128, d (ix2 p k) = D (ix2 P k) := hd
  show (∑ kk : Fin 128, a (ix2 p kk) * Wl (ix2 kk q) + bl (ix1 q)) + ∑ kk : Fin 128, d (ix2 p kk) * Wr (ix2 kk q)
    = (∑ kk : Fin 128, A (ix2 P kk) * Wl (ix2 kk q) + bl (ix1 q)) + ∑ kk : Fin 128, D (ix2 P kk) * Wr (ix2 kk q)
  simp only [ha', hd']

/-! ## The windows' block indices over the grid -/

theorem hz2 : (![0, 0] : Fin 2 → Nat) = fun _ => 0 := funext fun a => by fin_cases a <;> rfl
theorem hz1 : (![0] : Fin 1 → Nat) = fun _ => 0 := funext fun a => by fin_cases a; rfl

/-- The two node windows move with the output's row block; the weights and the bias stay at block 0; the output's row
    block at point `t` is block `t`. -/
theorem idx_facts : ∀ t : Fin cfg5.N,
    win5_0.index t (0 : Fin 2) = win5_5.index t (0 : Fin 2) ∧ win5_0.index t (1 : Fin 2) = 0
    ∧ win5_1.index t (0 : Fin 2) = win5_5.index t (0 : Fin 2) ∧ win5_1.index t (1 : Fin 2) = 0
    ∧ win5_2.index t (0 : Fin 2) = 0 ∧ win5_2.index t (1 : Fin 2) = 0
    ∧ win5_3.index t (0 : Fin 1) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- What point `t` writes back is block `t` of the layer of the five arrays as the region finds them. -/
theorem flushed_eq (c : Dev nD) (t : Fin cfg5.N) :
    (dat5 (F := Ideal) V c).flushed 5 t = ((cfg5.win 5).blk t).view.read (Elt Ideal)
      (Cert.Spec.sageLin (n := 100000) (V c main_v72) (V c main_v42) (V c main_arg23) (V c main_arg24) (V c main_arg25)) := by
  show (cfg5.win 5).cut (grid5.coords t) ((dat5 V c).after 5 t) = _
  rw [after5_5]
  unfold out5_5
  rw [View.canon_unit_zero hz2]
  simp only [View.ld_unit_zero (S := S5000x128) hz2, View.ld_unit_zero (S := S128x128) hz2, View.ld_unit_zero (S := S128) hz1]
  rw [Pay.sage5]
  obtain ⟨e00, e01, e10, e11, e20, e21, e30, e40, e41, e50, e51⟩ := idx_facts t
  funext y
  show Cert.Spec.sageLin (n := 5000) (iblk5 V c 0 t) (iblk5 V c 1 t) (iblk5 V c 2 t) (iblk5 V c 3 t) (iblk5 V c 4 t) y
    = Cert.Spec.sageLin (n := 100000) (V c main_v72) (V c main_v42) (V c main_arg23) (V c main_arg24) (V c main_arg25)
        (((cfg5.win 5).blk t).view.emb y)
  refine lin_rows _ _ _ _ _ _ _ _ _ _ y (((cfg5.win 5).blk t).view.emb y) ?_ ?_ ?_ ?_ ?_ ?_
  · show (y 1).val = win5_5.index t (1 : Fin 2) * 128 + 1 * (y 1).val
    rw [e51]; omega
  · intro k
    show V c main_v72 (((cfg5.win 0).blk t).view.emb (ix2 (y 0) k)) = _
    refine congrArg _ (funext fun a => Fin.ext ?_)
    match a with
    | ⟨0, _⟩ => show win5_0.index t (0 : Fin 2) * 5000 + 1 * (y 0).val = win5_5.index t (0 : Fin 2) * 5000 + 1 * (y 0).val; rw [e00]
    | ⟨1, _⟩ => show win5_0.index t (1 : Fin 2) * 128 + 1 * k.val = k.val; rw [e01]; omega
  · intro k
    show V c main_v42 (((cfg5.win 1).blk t).view.emb (ix2 (y 0) k)) = _
    refine congrArg _ (funext fun a => Fin.ext ?_)
    match a with
    | ⟨0, _⟩ => show win5_1.index t (0 : Fin 2) * 5000 + 1 * (y 0).val = win5_5.index t (0 : Fin 2) * 5000 + 1 * (y 0).val; rw [e10]
    | ⟨1, _⟩ => show win5_1.index t (1 : Fin 2) * 128 + 1 * k.val = k.val; rw [e11]; omega
  · funext z
    show V c main_arg23 (((cfg5.win 2).blk t).view.emb z) = V c main_arg23 z
    refine congrArg _ (funext fun a => Fin.ext ?_)
    match a with
    | ⟨0, _⟩ => show win5_2.index t (0 : Fin 2) * 128 + 1 * (z 0).val = (z 0).val; rw [e20]; omega
    | ⟨1, _⟩ => show win5_2.index t (1 : Fin 2) * 128 + 1 * (z 1).val = (z 1).val; rw [e21]; omega
  · funext z
    show V c main_arg25 (((cfg5.win 4).blk t).view.emb z) = V c main_arg25 z
    refine congrArg _ (funext fun a => Fin.ext ?_)
    match a with
    | ⟨0, _⟩ => show win5_4.index t (0 : Fin 2) * 128 + 1 * (z 0).val = (z 0).val; rw [e40]; omega
    | ⟨1, _⟩ => show win5_4.index t (1 : Fin 2) * 128 + 1 * (z 1).val = (z 1).val; rw [e41]; omega
  · funext z
    show V c main_arg24 (((cfg5.win 3).blk t).view.emb z) = V c main_arg24 z
    refine congrArg _ (funext fun a => Fin.ext ?_)
    match a with
    | ⟨0, _⟩ => show win5_3.index t (0 : Fin 1) * 128 + 1 * (z 0).val = (z 0).val; rw [e30]; omega

/-- An index of the output array is in point `t`'s block iff each coordinate is in the block's range on its axis. -/
theorem mem_blk (t : Fin cfg5.N) (i : S100000x128.Idx) :
    i ∈ ((cfg5.win 5).blk t).view.set ↔ ∀ a : Fin 2, win5_5.index t a * S5000x128.size a ≤ (i a).val
      ∧ (i a).val < win5_5.index t a * S5000x128.size a + S5000x128.size a := by
  show i ∈ ((View.whole main_v74).slice (win5_5.rect t)).set ↔ _
  rw [View.set_slice_whole, Rect.mem_set_unit]
  exact Iff.rfl

/-- The row blocks tile the array: row `r` is in the block of point `r / 5000`. -/
theorem cover (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  have hN : cfg5.N = 20 := N_5
  let t : Fin cfg5.N := ⟨(i 0).val / 5000, by rw [hN]; omega⟩
  obtain ⟨-, -, -, -, -, -, -, -, -, e50, e51⟩ := idx_facts t
  have ht : t.val = (i 0).val / 5000 := rfl
  refine ⟨t, flush5_5 t, ?_⟩
  rw [mem_blk]
  intro a
  match a with
  | ⟨0, _⟩ =>
    show win5_5.index t (0 : Fin 2) * 5000 ≤ (i 0).val ∧ (i 0).val < win5_5.index t (0 : Fin 2) * 5000 + 5000
    rw [e50, ht]; omega
  | ⟨1, _⟩ =>
    show win5_5.index t (1 : Fin 2) * 128 ≤ (i 1).val ∧ (i 1).val < win5_5.index t (1 : Fin 2) * 128 + 128
    rw [e51]; omega

/-- The output array after the region is the layer of the five input arrays as the region finds them. -/
theorem final (c : Dev nD) :
    (dat5 (F := Ideal) V c).arrAt 5 cfg5.N
      = Cert.Spec.sageLin (n := 100000) (V c main_v72) (V c main_v42) (V c main_arg23) (V c main_arg24) (V c main_arg25) :=
  (dat5 V c).arrAt_eq_of_cover 5 _ (fun t _ => flushed_eq V c t) cover

end Cert.KernelIdeal.Region5

end
-- ==== Proof.PayCls.lean ====
import proofs.«401606_j16690242913042_1_alg».proof.Proof.Gen.KernelIdeal.Skeleton
import proofs.«401606_j16690242913042_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open Idealize.ShloMosaic Idealize.ShloMosaic.TcCoe Idealize.ShloMosaic.ValueIdx
open Idealize.ShloMosaic.Pipeline (Dat Cfg Window)

namespace Cert.KernelIdeal.Pay

open Cert.KernelIdeal Cert.KernelIdeal.Gen

/-- The left operand's row coordinate is the output's row. -/
theorem dotH_lhs_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
/-- The left operand's column coordinate is the contracted index. -/
theorem dotH_lhs_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
/-- The right operand's row coordinate is the contracted index. -/
theorem dotH_rhs_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
/-- The right operand's column coordinate is the output's column. -/
theorem dotH_rhs_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The first product into the zero accumulator, at row p and hidden unit j: the sum over the 256 input features. -/
theorem dotH_apply (x : FVec Ideal S5000x256 .bf16) (w : FVec Ideal S256x128 .bf16) (p : Fin 5000) (j : Fin 128) :
    matmul dot_S5000x256_S256x128_S5000x128_1_0_0_1_n_n none x w (constant (F := Ideal) S5000x128 .f32 0x00000000#32) (ix2 p j)
      = ∑ k : Fin 256, x (ix2 p k) * w (ix2 k j) := by
  refine (Ideal.matmul_constant_zero_apply dot_S5000x256_S256x128_S5000x128_1_0_0_1_n_n none x w (ix2 p j)).trans ?_
  rw [← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p j) ((contrEquiv1 dot_S5000x256_S256x128_S5000x128_1_0_0_1_n_n 256 rfl rfl).symm k) = ix2 p k := funext fun a => Fin.ext (by
    match a with
    | ⟨0, _⟩ => exact dotH_lhs_0 _ _
    | ⟨1, _⟩ => exact (dotH_lhs_1 _ _).trans hk)
  have er : dot_S5000x256_S256x128_S5000x128_1_0_0_1_n_n.rhsIdx (ix2 p j) ((contrEquiv1 dot_S5000x256_S256x128_S5000x128_1_0_0_1_n_n 256 rfl rfl).symm k) = ix2 k j := funext fun a => Fin.ext (by
    match a with
    | ⟨0, _⟩ => exact (dotH_rhs_0 _ _).trans hk
    | ⟨1, _⟩ => exact dotH_rhs_1 _ _)
  rw [el, er]

/-- The left operand's row coordinate is the output's row. -/
theorem dotY_lhs_0 (i : S5000x1.Idx) (q : dot_S5000x128_S128x1_S5000x1_1_0_0_1_n_n.contr.Idx) :
    (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
/-- The left operand's column coordinate is the contracted index. -/
theorem dotY_lhs_1 (i : S5000x1.Idx) (q : dot_S5000x128_S128x1_S5000x1_1_0_0_1_n_n.contr.Idx) :
    (dot_S5000x128_S128x1_S5000x1_1_0_0_1_n_n.lhsIdx i q 1).val = (q ⟨0, by decide⟩).val :=
  dot_S5000x128_S128x1_S5000x1_1_0_0_1_n_n.lhsIdx_val_of_single rfl i q
/-- The right operand's row coordinate is the contracted index. -/
theorem dotY_rhs_0 (i : S5000x1.Idx) (q : dot_S5000x128_S128x1_S5000x1_1_0_0_1_n_n.contr.Idx) :
    (dot_S5000x128_S128x1_S5000x1_1_0_0_1_n_n.rhsIdx i q 0).val = (q ⟨0, by decide⟩).val :=
  dot_S5000x128_S128x1_S5000x1_1_0_0_1_n_n.rhsIdx_val_of_single rfl i q
/-- The right operand's column coordinate is the output's column. -/
theorem dotY_rhs_1 (i : S5000x1.Idx) (q : dot_S5000x128_S128x1_S5000x1_1_0_0_1_n_n.contr.Idx) :
    (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-- The second product into the zero accumulator, at row p and the one output column: the sum over the 128 hidden units. -/
theorem dotY_apply (x : FVec Ideal S5000x128 .bf16) (w : FVec Ideal S128x1 .bf16) (p : Fin 5000) (j : Fin 1) :
    matmul dot_S5000x128_S128x1_S5000x1_1_0_0_1_n_n none x w (constant (F := Ideal) S5000x1 .f32 0x00000000#32) (ix2 p j)
      = ∑ k : Fin 128, x (ix2 p k) * w (ix2 k j) := by
  refine (Ideal.matmul_constant_zero_apply dot_S5000x128_S128x1_S5000x1_1_0_0_1_n_n none x w (ix2 p j)).trans ?_
  rw [← Equiv.sum_comp (contrEquiv1 dot_S5000x128_S128x1_S5000x1_1_0_0_1_n_n 128 rfl rfl).symm]
  refine Finset.sum_congr rfl fun k _ => ?_
  have hk := contrEquiv1_symm_val dot_S5000x128_S128x1_S5000x1_1_0_0_1_n_n 128 rfl rfl k
  have el : dot_S5000x128_S128x1_S5000x1_1_0_0_1_n_n.lhsIdx (ix2 p j) ((contrEquiv1 dot_S5000x128_S128x1_S5000x1_1_0_0_1_n_n 128 rfl rfl).symm k) = ix2 p k := funext fun a => Fin.ext (by
    match a with
    | ⟨0, _⟩ => exact dotY_lhs_0 _ _
    | ⟨1, _⟩ => exact (dotY_lhs_1 _ _).trans hk)
  have er : dot_S5000x128_S128x1_S5000x1_1_0_0_1_n_n.rhsIdx (ix2 p j) ((contrEquiv1 dot_S5000x128_S128x1_S5000x1_1_0_0_1_n_n 128 rfl rfl).symm k) = ix2 k j := funext fun a => Fin.ext (by
    match a with
    | ⟨0, _⟩ => exact (dotY_rhs_0 _ _).trans hk
    | ⟨1, _⟩ => exact dotY_rhs_1 _ _)
  rw [el, er]

/-- The hidden layer's block at row p and unit j: the rectified sum over the input features plus the bias. -/
theorem hidden_apply (z : Vec Ideal S5000x256 .f32) (W1 : Vec Ideal S256x128 .f32) (b1 : Vec Ideal S128 .f32) (p : Fin 5000) (j : Fin 128) :
    maximumf
        (addf
          (matmul dot_S5000x256_S256x128_S5000x128_1_0_0_1_n_n none
            (truncf .bf16 (shapeCast S5000x256 z shapeCasts_S5000x256_S5000x256) bitsLt_bf16_f32)
            (truncf .bf16 W1 bitsLt_bf16_f32) (constant (F := Ideal) S5000x128 .f32 0x00000000#32))
          (broadcastTo S5000x128 (shapeCast S1x128 b1 shapeCasts_S128_S1x128) broadcasts_S1x128_S5000x128))
        (broadcast S5000x128 (Scalar.ofBits (F := Ideal) .f32 0x00000000#32)) (ix2 p j)
      = Cert.Spec.hiddenAt (n := 5000) z W1 b1 p j := by
  unfold Cert.Spec.hiddenAt Cert.Spec.dotAt
  rw [maximumf_apply, addf_apply, dotH_apply, broadcastTo_1b_ab_apply, shapeCast_a_1a_apply, broadcast_apply, shapeCast_self]
  show max (_ + _) (Ideal.ofBits .f32 0x00000000#32) = _
  rw [Ideal.ofBits_zero_f32]
  rfl

/-- The classifier's payload on a block of 5000 rows is the classifier of the loaded blocks, row by row: the two narrowings are the
    identity on extended reals, each product into a zero accumulator is the plain sum, and the rectifier is max(·, 0). -/
theorem cls6 (z : Vec Ideal S5000x256 .f32) (W1 : Vec Ideal S256x128 .f32) (b1 : Vec Ideal S128 .f32) (W2 : Vec Ideal S128x1 .f32) (b2 : Vec Ideal S1 .f32) :
    k6_pay1 (F := Ideal) z W1 b1 W2 b2 = Cert.Spec.classify (n := 5000) z W1 b1 W2 b2 := by
  funext j
  obtain ⟨p, q, rfl⟩ : ∃ (p : Fin 5000) (q : Fin 1), j = ix2 p q := ⟨j 0, j 1, eq_ix2 j⟩
  unfold k6_pay1
  unfold Cert.Spec.classify
  show _ = (∑ j : Fin 128, Cert.Spec.hiddenAt (n := 5000) z W1 b1 p j * W2 (ix2 j q)) + b2 (ix1 q)
  rw [addf_apply, dotY_apply, broadcastTo_1b_ab_apply, shapeCast_a_1a_apply]
  refine congrArg (· + b2 (ix1 q)) (Finset.sum_congr rfl fun k _ => ?_)
  rw [truncf_apply, truncf_apply, hidden_apply]

end Cert.KernelIdeal.Pay

end
-- ==== Proof.Region6.lean ====
import proofs.«401606_j16690242913042_1_alg».proof.Proof.Gen.KernelIdeal.Frame
import proofs.«401606_j16690242913042_1_alg».proof.Proof.PayCls

set_option maxRecDepth 16384

noncomputable section

open Idealize.ShloMosaic Idealize.ShloMosaic.TcCoe Idealize.ShloMosaic.ValueIdx
open Idealize.ShloMosaic.Pipeline (Dat Cfg Window)

namespace Cert.KernelIdeal.Region6

open Cert.KernelIdeal Cert.KernelIdeal.Gen

/-- The rank-2 zero offset. -/
theorem zero_off2 : (![0, 0] : Fin 2 → Nat) = fun _ => 0 := funext fun a => by fin_cases a <;> rfl
/-- The rank-1 zero offset. -/
theorem zero_off1 : (![0] : Fin 1 → Nat) = fun _ => 0 := funext fun a => by fin_cases a <;> rfl

/-- The classifier is row-local: row r of the result on Z is row p of the result on any z whose row p is Z's row r. -/
theorem classify_rows {n m : Nat} (Z : Cert.Spec.Mat n 256) (z : Cert.Spec.Mat m 256) (W1 : Cert.Spec.Mat 256 128) (b1 : Cert.Spec.Row 128)
    (W2 : Cert.Spec.Mat 128 1) (b2 : Cert.Spec.Row 1)
    (i : (⟨2, ![m, 1]⟩ : Shape).Idx) (i' : (⟨2, ![n, 1]⟩ : Shape).Idx)
    (hz : ∀ k : Fin 256, z (ix2 (i 0) k) = Z (ix2 (i' 0) k)) :
    Cert.Spec.classify z W1 b1 W2 b2 i = Cert.Spec.classify Z W1 b1 W2 b2 i' := by
  have h1 : i 1 = i' 1 := Fin.ext (by have := idx2_lt1 i; have := idx2_lt1 i'; omega)
  unfold Cert.Spec.classify Cert.Spec.hiddenAt Cert.Spec.dotAt
  simp only [hz, h1]

/-- The block index maps over the grid: the row blocks of the input and of the result move with the point; every other block stays at 0. -/
theorem block_rows : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 1) = 0
    ∧ win6_3.index t (0 : Fin 2) = 0 ∧ win6_3.index t (1 : Fin 2) = 0
    ∧ win6_4.index t (0 : Fin 1) = 0
    ∧ win6_5.index t (0 : Fin 2) = t.val ∧ win6_5.index t (1 : Fin 2) = 0 :=
  (by decide +kernel : ∀ t : Fin grid6.N, _)

variable (V : (c : Dev nD) → (b : Ref sig .tc) → Buf (Elt Ideal) ((c : Thread nD τ).loc b))

/-- What point t writes back is block t of the classifier of the whole arrays: the weight blocks are the whole weight arrays, and
    the row block of the input sits at rows 5000·t … 5000·t + 4999, where the result's block sits. -/
theorem block_classified (c : Dev nD) (t : Fin cfg6.N) :
    (dat6 (F := Ideal) V c).flushed 5 t = ((cfg6.win 5).blk t).view.read (Elt Ideal)
      (Cert.Spec.classify (n := 200000) (V c main_v77) (V c main_arg26) (V c main_arg27) (V c main_arg28) (V c main_arg29)) := by
  show (cfg6.win 5).cut (grid6.coords t) ((dat6 V c).after 5 t) = _
  rw [after6_5]
  unfold out6_5
  rw [View.canon_unit_zero zero_off2]
  simp only [View.ld_unit_zero (S := S5000x256) zero_off2, View.ld_unit_zero (S := S256x128) zero_off2, View.ld_unit_zero (S := S128) zero_off1,
    View.ld_unit_zero (S := S128x1) zero_off2, View.ld_unit_zero (S := S1) zero_off1]
  rw [Pay.cls6]
  obtain ⟨a00, a01, a10, a11, a20, a30, a31, a40, a50, a51⟩ := block_rows t
  have e1 : iblk6 V c 1 t = V c main_arg26 := by
    funext y
    show V c main_arg26 (((cfg6.win 1).blk t).view.emb y) = V c main_arg26 y
    refine congrArg (V c main_arg26) (funext fun a => Fin.ext ?_)
    match a with
    | ⟨0, _⟩ => show win6_1.index t (0 : Fin 2) * 256 + 1 * (y 0).val = (y 0).val; omega
    | ⟨1, _⟩ => show win6_1.index t (1 : Fin 2) * 128 + 1 * (y 1).val = (y 1).val; omega
  have e2 : iblk6 V c 2 t = V c main_arg27 := by
    funext y
    show V c main_arg27 (((cfg6.win 2).blk t).view.emb y) = V c main_arg27 y
    refine congrArg (V c main_arg27) (funext fun a => Fin.ext ?_)
    match a with
    | ⟨0, _⟩ => show win6_2.index t (0 : Fin 1) * 128 + 1 * (y 0).val = (y 0).val; omega
  have e3 : iblk6 V c 3 t = V c main_arg28 := by
    funext y
    show V c main_arg28 (((cfg6.win 3).blk t).view.emb y) = V c main_arg28 y
    refine congrArg (V c main_arg28) (funext fun a => Fin.ext ?_)
    match a with
    | ⟨0, _⟩ => show win6_3.index t (0 : Fin 2) * 128 + 1 * (y 0).val = (y 0).val; omega
    | ⟨1, _⟩ => show win6_3.index t (1 : Fin 2) * 1 + 1 * (y 1).val = (y 1).val; omega
  have e4 : iblk6 V c 4 t = V c main_arg29 := by
    funext y
    show V c main_arg29 (((cfg6.win 4).blk t).view.emb y) = V c main_arg29 y
    refine congrArg (V c main_arg29) (funext fun a => Fin.ext ?_)
    match a with
    | ⟨0, _⟩ => show win6_4.index t (0 : Fin 1) * 1 + 1 * (y 0).val = (y 0).val; omega
  rw [e1, e2, e3, e4]
  funext j
  show Cert.Spec.classify (n := 5000) (iblk6 V c 0 t) (V c main_arg26) (V c main_arg27) (V c main_arg28) (V c main_arg29) j
    = Cert.Spec.classify (n := 200000) (V c main_v77) (V c main_arg26) (V c main_arg27) (V c main_arg28) (V c main_arg29) (((cfg6.win 5).blk t).view.emb j)
  refine classify_rows _ _ _ _ _ _ j _ fun k => ?_
  show V c main_v77 (((cfg6.win 0).blk t).view.emb (ix2 (j 0) k)) = V c main_v77 (ix2 ((((cfg6.win 5).blk t).view.emb j) 0) k)
  refine congrArg (V c main_v77) (funext fun a => Fin.ext ?_)
  match a with
  | ⟨0, _⟩ => show win6_0.index t (0 : Fin 2) * 5000 + 1 * (j 0).val = win6_5.index t (0 : Fin 2) * 5000 + 1 * (j 0).val; omega
  | ⟨1, _⟩ => show win6_0.index t (1 : Fin 2) * 256 + 1 * k.val = k.val; omega

/-- An index of the result array is in point t's block iff each coordinate is in the block's range on its axis. -/
theorem mem_row_block (t : Fin cfg6.N) (i : S200000x1.Idx) :
    i ∈ ((cfg6.win 5).blk t).view.set ↔ ∀ a : Fin 2, win6_5.index t a * S5000x1.size a ≤ (i a).val ∧ (i a).val < win6_5.index t a * S5000x1.size a + S5000x1.size a := by
  show i ∈ ((View.whole main_v78).slice (win6_5.rect t)).set ↔ _
  rw [View.set_slice_whole, Rect.mem_set_unit]
  exact Iff.rfl

/-- Every row of the result is in the block of the point r / 5000, and that point writes back. -/
theorem rows_covered (i : S200000x1.Idx) : ∃ t : Fin cfg6.N, (cfg6.win 5).flush t = true ∧ i ∈ ((cfg6.win 5).blk t).view.set := by
  have hi0 : (i 0).val < 200000 := idx2_lt0 i
  have hi1 : (i 1).val < 1 := idx2_lt1 i
  have hN : cfg6.N = 40 := by decide
  let t : Fin cfg6.N := ⟨(i 0).val / 5000, by rw [hN]; omega⟩
  have ht : t.val = (i 0).val / 5000 := rfl
  obtain ⟨a00, a01, a10, a11, a20, a30, a31, a40, a50, a51⟩ := block_rows t
  refine ⟨t, flush6_5 t, ?_⟩
  rw [mem_row_block]
  intro a
  match a with
  | ⟨0, _⟩ => show win6_5.index t (0 : Fin 2) * 5000 ≤ (i 0).val ∧ (i 0).val < win6_5.index t (0 : Fin 2) * 5000 + 5000; omega
  | ⟨1, _⟩ => show win6_5.index t (1 : Fin 2) * 1 ≤ (i 1).val ∧ (i 1).val < win6_5.index t (1 : Fin 2) * 1 + 1; omega

/-- The result array after the run: the classifier of the five input arrays, row by row. -/
theorem final (c : Dev nD) :
    (dat6 (F := Ideal) V c).arrAt 5 cfg6.N
      = Cert.Spec.classify (n := 200000) (V c main_v77) (V c main_arg26) (V c main_arg27) (V c main_arg28) (V c main_arg29) := by
  exact (dat6 V c).arrAt_eq_of_cover 5 _ (fun t _ => block_classified V c t) rows_covered

end Cert.KernelIdeal.Region6

end
-- ==== Proof.Net.lean ====
/-
  The whole network as ONE function of the thirty argument arrays, written over the three dense layers
  (Spec) and the sparse steps both programs leave to the host.

  The sparse steps, each a function of whole arrays:
  * picking rows of a table by an index vector, negative indices counted from the end (`pickPP`, `pickSS`: the
    embedding rows of the two node types; `pickPL`, `pickSL`: the rows of the final node features that the labelled
    pairs name);
  * the degree of every target node: one added per incident edge (`degS`, `degP`);
  * the mean aggregation over incident edges: the source rows summed into their target rows, divided by the
    degree clamped below at 1 (`aggS'`, `aggP'` with the degree given; `aggS`, `aggP` with it computed);
  * joining the two 128-column halves side by side (`join`) and dropping the result's unit column (`squeeze`).

  `netOut` composes them: two input projections, two message-passing layers in each direction (the first
  rectified), the row picks for the labelled pairs, the classifier. It takes the four row picks as parameters, so
  that the two programs, which differ only in how a row pick treats an index outside its table, are its two
  instances.
-/
import proofs.«401606_j16690242913042_1_alg».proof.ReferenceIdeal
import proofs.«401606_j16690242913042_1_alg».proof.Proof.Gen.ReferenceIdeal
import proofs.«401606_j16690242913042_1_alg».proof.Proof.Spec

noncomputable section

namespace Cert.Net

open Idealize.ShloMosaic Idealize.ShloMosaic.TcCoe
open Cert.ReferenceIdeal Cert.ReferenceIdeal.Gen Cert.Spec

/-- A float array of a literal shape over the extended reals. -/
abbrev FArr (s : Shape) : Type := FVec Ideal s .f32
/-- A 32-bit integer array of a literal shape. -/
abbrev IArr (s : Shape) : Type := IVec s 32

/-- An index vector with its negative entries counted from the end of a table of `N` rows: `idx + N` where `idx < 0`. -/
def wrap {s : Shape} (hb : (S_ : Shape).BroadcastsInDim s ![]) (N : BitVec 32) (idx : IArr s) : IArr s :=
  select (cmpi .slt idx (broadcastInDim s ![] hb (constantI S_ 32 0#32)))
    (addi idx (broadcastInDim s ![] hb (constantI S_ 32 N))) idx

/-- The float zero and one as scalars. -/
def zeroS : FArr S_ := constant (F := Ideal) S_ .f32 0x00000000#32
def oneS : FArr S_ := constant (F := Ideal) S_ .f32 0x3F800000#32

/-- Every index is a row number of a table of `hi + 1` rows. -/
def InRange {s : Shape} (idx : IArr s) (hi : BitVec 32) : Prop :=
  ∀ i, IntOp.cmpi .sge (idx i) 0#32 = 1#1 ∧ IntOp.cmpi .sle (idx i) hi = 1#1

/-- Rows of a 100000-row table picked by 100000 indices (a negative index counts from the end). -/
def pickPP (tbl : FArr S100000x128) (idx : IArr S100000) : FArr S100000x128 := Host.gather gather_S100000x128_S100000x1_S100000x128_1_0_n_n_0_1_1128 tbl
    (broadcastInDim S100000x1 ![0] bcast_S100000_S100000x1_0 (wrap bcast_S_S100000 100000#32 idx))
/-- Rows of a 10000-row table picked by 10000 indices. -/
def pickSS (tbl : FArr S10000x128) (idx : IArr S10000) : FArr S10000x128 := Host.gather gather_S10000x128_S10000x1_S10000x128_1_0_n_n_0_1_1128 tbl
    (broadcastInDim S10000x1 ![0] bcast_S10000_S10000x1_0 (wrap bcast_S_S10000 10000#32 idx))
/-- Rows of a 100000-row table picked by 200000 indices. -/
def pickPL (tbl : FArr S100000x128) (idx : IArr S200000) : FArr S200000x128 :=
  Host.gather gather_S100000x128_S200000x1_S200000x128_1_0_n_n_0_1_1128 tbl (broadcastInDim S200000x1 ![0] bcast_S200000_S200000x1_0 (wrap bcast_S_S200000 100000#32 idx))
/-- Rows of a 10000-row table picked by 200000 indices. -/
def pickSL (tbl : FArr S10000x128) (idx : IArr S200000) : FArr S200000x128 :=
  Host.gather gather_S10000x128_S200000x1_S200000x128_1_0_n_n_0_1_1128 tbl (broadcastInDim S200000x1 ![0] bcast_S200000_S200000x1_0 (wrap bcast_S_S200000 10000#32 idx))

/-- The number of edges into each of the 10000 targets. -/
def degS (dst : IArr S500000) : FArr S10000 := Host.scatterAdd (F := Ideal) scatter_S10000_S500000x1_S500000_n_0_0_1 (broadcastInDim S10000 ![] bcast_S_S10000 zeroS)
    (broadcastInDim S500000x1 ![0] bcast_S500000_S500000x1_0 dst) (broadcastInDim S500000 ![] bcast_S_S500000 oneS)
/-- The number of edges into each of the 100000 targets. -/
def degP (src : IArr S500000) : FArr S100000 := Host.scatterAdd (F := Ideal) scatter_S100000_S500000x1_S500000_n_0_0_1 (broadcastInDim S100000 ![] bcast_S_S100000 zeroS)
    (broadcastInDim S500000x1 ![0] bcast_S500000_S500000x1_0 src) (broadcastInDim S500000 ![] bcast_S_S500000 oneS)

/-- Mean over incident edges into the 10000 targets, the degrees given: rows of `x` picked by `src`, summed by
    `dst`, divided by max(deg, 1). -/
def aggS' (x : FArr S100000x128) (src dst : IArr S500000) (deg : FArr S10000) : FArr S10000x128 :=
  Host.divf (F := Ideal)
    (Host.scatterAdd (F := Ideal) scatter_S10000x128_S500000x1_S500000x128_1_0_0_1 (broadcastInDim S10000x128 ![] bcast_S_S10000x128 zeroS) (broadcastInDim S500000x1 ![0] bcast_S500000_S500000x1_0 dst)
      (Host.gather gather_S100000x128_S500000x1_S500000x128_1_0_n_n_0_1_1128 x (broadcastInDim S500000x1 ![0] bcast_S500000_S500000x1_0 (wrap bcast_S_S500000 100000#32 src))))
    (broadcastInDim S10000x128 ![0, 1] bcast_S10000x1_S10000x128_0_1
      (broadcastInDim S10000x1 ![0] bcast_S10000_S10000x1_0 (maximumf (F := Ideal) deg (broadcastInDim S10000 ![] bcast_S_S10000 oneS))))
/-- Mean over incident edges into the 100000 targets, the degrees given: rows of `x` picked by `dst`, summed by
    `src`, divided by max(deg, 1). -/
def aggP' (x : FArr S10000x128) (src dst : IArr S500000) (deg : FArr S100000) : FArr S100000x128 :=
  Host.divf (F := Ideal)
    (Host.scatterAdd (F := Ideal) scatter_S100000x128_S500000x1_S500000x128_1_0_0_1 (broadcastInDim S100000x128 ![] bcast_S_S100000x128 zeroS) (broadcastInDim S500000x1 ![0] bcast_S500000_S500000x1_0 src)
      (Host.gather gather_S10000x128_S500000x1_S500000x128_1_0_n_n_0_1_1128 x (broadcastInDim S500000x1 ![0] bcast_S500000_S500000x1_0 (wrap bcast_S_S500000 10000#32 dst))))
    (broadcastInDim S100000x128 ![0, 1] bcast_S100000x1_S100000x128_0_1
      (broadcastInDim S100000x1 ![0] bcast_S100000_S100000x1_0 (maximumf (F := Ideal) deg (broadcastInDim S100000 ![] bcast_S_S100000 oneS))))
def aggS (x : FArr S100000x128) (src dst : IArr S500000) : FArr S10000x128 := aggS' x src dst (degS dst)
def aggP (x : FArr S10000x128) (src dst : IArr S500000) : FArr S100000x128 := aggP' x src dst (degP src)

/-- Two 128-column arrays side by side. -/
def join (a b : FArr S200000x128) : FArr S200000x256 :=
  concatenate S200000x256 1 [⟨S200000x128, a⟩, ⟨S200000x128, b⟩] concatenates_S200000x128_S200000x128_S200000x256_d1
/-- The one-column result as a vector. -/
def squeeze (y : FArr S200000x1) : FArr S200000 := shapeCast _ y shapeCasts_S200000x1_S200000

/-- The thirty argument arrays. -/
structure Inputs where
  xP : FArr S100000x256
  xS : FArr S10000x256
  idP : IArr S100000
  idS : IArr S10000
  src : IArr S500000
  dst : IArr S500000
  lblP : IArr S200000
  lblS : IArr S200000
  embP : FArr S100000x128
  embS : FArr S10000x128
  Wp : FArr S256x128
  bp : FArr S128
  Ws : FArr S256x128
  bs : FArr S128
  Wl1ps : FArr S128x128
  bl1ps : FArr S128
  Wr1ps : FArr S128x128
  Wl1sp : FArr S128x128
  bl1sp : FArr S128
  Wr1sp : FArr S128x128
  Wl2ps : FArr S128x128
  bl2ps : FArr S128
  Wr2ps : FArr S128x128
  Wl2sp : FArr S128x128
  bl2sp : FArr S128
  Wr2sp : FArr S128x128
  Wc1 : FArr S256x128
  bc1 : FArr S128
  Wc2 : FArr S128x1
  bc2 : FArr S1

variable (pPP : FArr S100000x128 → IArr S100000 → FArr S100000x128) (pSS : FArr S10000x128 → IArr S10000 → FArr S10000x128)
  (pPL : FArr S100000x128 → IArr S200000 → FArr S200000x128) (pSL : FArr S10000x128 → IArr S200000 → FArr S200000x128) (I : Inputs)

/-- Projected features of the 100000 nodes. -/
def xp : FArr S100000x128 := embedLin (n := 100000) I.xP (pPP I.embP I.idP) I.Wp I.bp
/-- Projected features of the 10000 nodes. -/
def xs : FArr S10000x128 := embedLin (n := 10000) I.xS (pSS I.embS I.idS) I.Ws I.bs
/-- First layer, into the 10000 nodes. -/
def hs : FArr S10000x128 := sageRelu (n := 10000) (aggS (xp pPP I) I.src I.dst) (xs pSS I) I.Wl1ps I.bl1ps I.Wr1ps
/-- First layer, into the 100000 nodes. -/
def hp : FArr S100000x128 := sageRelu (n := 100000) (aggP (xs pSS I) I.src I.dst) (xp pPP I) I.Wl1sp I.bl1sp I.Wr1sp
/-- Second layer, into the 10000 nodes. -/
def os : FArr S10000x128 := sageLin (n := 10000) (aggS (hp pPP pSS I) I.src I.dst) (hs pPP pSS I) I.Wl2ps I.bl2ps I.Wr2ps
/-- Second layer, into the 100000 nodes. -/
def op : FArr S100000x128 := sageLin (n := 100000) (aggP (hs pPP pSS I) I.src I.dst) (hp pPP pSS I) I.Wl2sp I.bl2sp I.Wr2sp
/-- The classifier's input: for each labelled pair the two nodes' final features side by side. -/
def zc : FArr S200000x256 := join (pPL (op pPP pSS I) I.lblP) (pSL (os pPP pSS I) I.lblS)
/-- The network's result. -/
def netOut : FArr S200000 := squeeze (classify (n := 200000) (zc pPP pSS pPL pSL I) I.Wc1 I.bc1 I.Wc2 I.bc2)

end Cert.Net

end
-- ==== Proof.Take.lean ====
/-
  The four row picks of the kernel's host program, each the composition of the 23 host operations of one call of the
  take: the index is wrapped (a negative one counted from the end of the table), tested against the table's range, the
  test and-reduced over its unit axis, and the gathered row kept where the test passed and filled with the
  not-a-number pattern elsewhere. The reference picks the same rows with the same wrap and no fill; for indices in
  range the test passes everywhere, so the two agree.
-/
import proofs.«401606_j16690242913042_1_alg».proof.Proof.Gen.KernelIdeal.Launch
import proofs.«401606_j16690242913042_1_alg».proof.Proof.Net
import Idealize.ShloMosaic.Lib.StableHlo.Run
import Idealize.ShloMosaic.Lib.StableHlo.Predicate
import Idealize.ShloMosaic.Lib.ReduceAll

set_option maxRecDepth 16384

noncomputable section

open Idealize.ShloMosaic Idealize.ShloMosaic.TcCoe Idealize.ShloMosaic.ValueIdx
open Idealize.ShloMosaic.Pipeline (Dat Cfg Window)

namespace Cert.KernelIdeal.Take

open Cert.KernelIdeal Cert.KernelIdeal.Gen Cert.Net

/-! ## Facts shared by the four sizes -/

section Shared
variable {s c t u : Shape}

/-- An index vector with no negative entry is left alone by the wrap that counts negative entries from the end. -/
theorem wrap_eq (hb : (S_ : Shape).BroadcastsInDim s ![]) (N : BitVec 32) (idx : IArr s)
    (h0 : ∀ j, IntOp.cmpi .sge (idx j) 0#32 = 1#1) : wrap hb N idx = idx := by
  funext j
  show Scalar.select (IntOp.cmpi .slt (idx j) 0#32) (IntOp.addi (idx j) N) (idx j) = idx j
  have hge := IntOp.cmpi_sge.1 (h0 j)
  have hlt : ¬ IntOp.cmpi .slt (idx j) 0#32 = 1#1 := by
    rw [IntOp.cmpi_slt]; omega
  exact if_neg hlt

/-- Both range tests pass at every position of a column that only repeats in-range indices. -/
theorem ok_one {hi : BitVec 32} (idx : IArr s) (h : InRange idx hi)
    (col z hh : IVec c 32) (hcol : ∀ k, ∃ j, col k = idx j) (hz : ∀ k, z k = 0#32) (hh' : ∀ k, hh k = hi) (k : c.Idx) :
    andi (cmpi .sge col z) (cmpi .sle col hh) k = 1#1 := by
  obtain ⟨j, hj⟩ := hcol k
  show IntOp.andi (IntOp.cmpi .sge (col k) (z k)) (IntOp.cmpi .sle (col k) (hh k)) = 1#1
  rw [hj, hz, hh']
  exact IntOp.andi_eq_one.2 (h j)

/-- A left fold by and, started at 1, over words that are all 1 is 1. -/
theorem foldl_andi_one {ι : Type} (f : ι → BitVec 1) (hf : ∀ n, f n = 1#1) :
    ∀ (l : List ι) (init : BitVec 1), init = 1#1 → l.foldl (fun r n => IntOp.andi r (f n)) init = 1#1
  | [], _, h => h
  | a :: l, init, h => foldl_andi_one f hf l _ (IntOp.andi_eq_one.2 ⟨h, hf a⟩)

/-- A reduction by and, started at 1, of an array of ones is 1 everywhere. -/
theorem reduce_andi_one {axes : List (Fin s.rank)} (x : s.Idx → BitVec 1) (init : u.Idx → BitVec 1) (h : s.ReducesTo axes t)
    (hu : 0 < u.numel) (hx : ∀ i, x i = 1#1) (hi : ∀ k, init k = 1#1) (j : t.Idx) :
    Host.reduce IntOp.andi x init h hu j = 1#1 := by
  rw [Host.reduce_eq_foldl]
  exact foldl_andi_one x hx _ _ (hi _)

/-- A select whose mask is 1 everywhere is its first branch. -/
theorem select_all_one {α : Type} (m : IVec s 1) (a b : s.Idx → α) (hm : ∀ i, m i = 1#1) : select m a b = a := by
  funext i
  show Scalar.select (m i) (a i) (b i) = a i
  rw [hm i]; rfl

end Shared

/-! ## The four picks as the kernel's host operations compute them -/

/-- The start indices of the pick as a one-column array: the indices into a 100000-row table, negative ones counted from the end. -/
def colPP (idx : IArr S100000) : IArr S100000x1 :=
  broadcastInDim S100000x1 ![0] bcast_S100000_S100000x1_0 (wrap bcast_S_S100000 100000#32 idx)

/-- Rows of a 100000-row table picked by 100000 indices (a negative index counts from the end), a row whose index
    still lies outside the table filled with the not-a-number pattern. -/
def takePP (tbl : FArr S100000x128) (idx : IArr S100000) : FArr S100000x128 :=
  select
    (broadcastInDim S100000x128 ![0] bcast_S100000_S100000x128_0
      (Host.reduce IntOp.andi
        (andi (cmpi .sge (colPP idx) (broadcastInDim S100000x1 ![] bcast_S_S100000x1 (constantI S_ 32 0#32)))
          (cmpi .sle (colPP idx) (broadcastInDim S100000x1 ![0, 1] bcast_S1x1_S100000x1_0_1
            (broadcastInDim S1x1 ![1] bcast_S1_S1x1_1 (constantI S1 32 99999#32)))))
        (constantI S_ 1 1#1) reducesTo_S100000x1_S100000_d1 h_S_))
    (Host.gather gather_S100000x128_S100000x1_S100000x128_1_0_n_n_0_1_1128 tbl (colPP idx))
    (broadcastInDim S100000x128 ![] bcast_S_S100000x128 (constant (F := Ideal) S_ .f32 0x7FC00000#32))

/-- The start indices of the pick as a one-column array: the indices into a 10000-row table, negative ones counted from the end. -/
def colSS (idx : IArr S10000) : IArr S10000x1 :=
  broadcastInDim S10000x1 ![0] bcast_S10000_S10000x1_0 (wrap bcast_S_S10000 10000#32 idx)

/-- Rows of a 10000-row table picked by 10000 indices, filled likewise. -/
def takeSS (tbl : FArr S10000x128) (idx : IArr S10000) : FArr S10000x128 :=
  select
    (broadcastInDim S10000x128 ![0] bcast_S10000_S10000x128_0
      (Host.reduce IntOp.andi
        (andi (cmpi .sge (colSS idx) (broadcastInDim S10000x1 ![] bcast_S_S10000x1 (constantI S_ 32 0#32)))
          (cmpi .sle (colSS idx) (broadcastInDim S10000x1 ![0, 1] bcast_S1x1_S10000x1_0_1
            (broadcastInDim S1x1 ![1] bcast_S1_S1x1_1 (constantI S1 32 9999#32)))))
        (constantI S_ 1 1#1) reducesTo_S10000x1_S10000_d1 h_S_))
    (Host.gather gather_S10000x128_S10000x1_S10000x128_1_0_n_n_0_1_1128 tbl (colSS idx))
    (broadcastInDim S10000x128 ![] bcast_S_S10000x128 (constant (F := Ideal) S_ .f32 0x7FC00000#32))

/-- The start indices of the pick as a one-column array: the indices into a 100000-row table, negative ones counted from the end. -/
def colPL (idx : IArr S200000) : IArr S200000x1 :=
  broadcastInDim S200000x1 ![0] bcast_S200000_S200000x1_0 (wrap bcast_S_S200000 100000#32 idx)

/-- Rows of a 100000-row table picked by 200000 indices, filled likewise. -/
def takePL (tbl : FArr S100000x128) (idx : IArr S200000) : FArr S200000x128 :=
  select
    (broadcastInDim S200000x128 ![0] bcast_S200000_S200000x128_0
      (Host.reduce IntOp.andi
        (andi (cmpi .sge (colPL idx) (broadcastInDim S200000x1 ![] bcast_S_S200000x1 (constantI S_ 32 0#32)))
          (cmpi .sle (colPL idx) (broadcastInDim S200000x1 ![0, 1] bcast_S1x1_S200000x1_0_1
            (broadcastInDim S1x1 ![1] bcast_S1_S1x1_1 (constantI S1 32 99999#32)))))
        (constantI S_ 1 1#1) reducesTo_S200000x1_S200000_d1 h_S_))
    (Host.gather gather_S100000x128_S200000x1_S200000x128_1_0_n_n_0_1_1128 tbl (colPL idx))
    (broadcastInDim S200000x128 ![] bcast_S_S200000x128 (constant (F := Ideal) S_ .f32 0x7FC00000#32))

/-- The start indices of the pick as a one-column array: the indices into a 10000-row table, negative ones counted from the end. -/
def colSL (idx : IArr S200000) : IArr S200000x1 :=
  broadcastInDim S200000x1 ![0] bcast_S200000_S200000x1_0 (wrap bcast_S_S200000 10000#32 idx)

/-- Rows of a 10000-row table picked by 200000 indices, filled likewise. -/
def takeSL (tbl : FArr S10000x128) (idx : IArr S200000) : FArr S200000x128 :=
  select
    (broadcastInDim S200000x128 ![0] bcast_S200000_S200000x128_0
      (Host.reduce IntOp.andi
        (andi (cmpi .sge (colSL idx) (broadcastInDim S200000x1 ![] bcast_S_S200000x1 (constantI S_ 32 0#32)))
          (cmpi .sle (colSL idx) (broadcastInDim S200000x1 ![0, 1] bcast_S1x1_S200000x1_0_1
            (broadcastInDim S1x1 ![1] bcast_S1_S1x1_1 (constantI S1 32 9999#32)))))
        (constantI S_ 1 1#1) reducesTo_S200000x1_S200000_d1 h_S_))
    (Host.gather gather_S10000x128_S200000x1_S200000x128_1_0_n_n_0_1_1128 tbl (colSL idx))
    (broadcastInDim S200000x128 ![] bcast_S_S200000x128 (constant (F := Ideal) S_ .f32 0x7FC00000#32))

/-! ## Each stretch of host operations computes its pick -/

section Stretches
variable (W : Valuation τ sig (Elt Ideal))

set_option maxHeartbeats 4000000 in
theorem stretch0 : StableHlo.after (hostOps0 (F := Ideal)) W (Proc.devRef .tc main_v0)
    = takePP (W (Proc.devRef .tc main_arg8)) (W (Proc.devRef .tc main_arg2)) := by
  after_results_simp
  simp only [StableHlo.TRef.ofBuf, StableHlo.TRef.toBuf, cast_eq]
  rfl

set_option maxHeartbeats 4000000 in
theorem stretch0_1 : StableHlo.after (hostOps0_1 (F := Ideal)) W (Proc.devRef .tc main_v1)
    = takeSS (W (Proc.devRef .tc main_arg9)) (W (Proc.devRef .tc main_arg3)) := by
  after_results_simp
  simp only [StableHlo.TRef.ofBuf, StableHlo.TRef.toBuf, cast_eq]
  rfl

set_option maxHeartbeats 4000000 in
theorem stretch6 : StableHlo.after (hostOps6 (F := Ideal)) W (Proc.devRef .tc main_v75)
    = takePL (W (Proc.devRef .tc main_v74)) (W (Proc.devRef .tc main_arg6)) := by
  after_results_simp
  simp only [StableHlo.TRef.ofBuf, StableHlo.TRef.toBuf, cast_eq]
  rfl

set_option maxHeartbeats 4000000 in
theorem stretch6_1 : StableHlo.after (hostOps6_1 (F := Ideal)) W (Proc.devRef .tc main_v76)
    = takeSL (W (Proc.devRef .tc main_v73)) (W (Proc.devRef .tc main_arg7)) := by
  after_results_simp
  simp only [StableHlo.TRef.ofBuf, StableHlo.TRef.toBuf, cast_eq]
  rfl

end Stretches

/-! ## In range, the filled pick is the plain one -/

theorem takePP_eq (tbl : FArr S100000x128) (idx : IArr S100000) (h : InRange idx 99999#32) : takePP tbl idx = pickPP tbl idx := by
  have hw := wrap_eq bcast_S_S100000 100000#32 idx (fun j => (h j).1)
  unfold takePP
  refine (select_all_one _ _ _ fun i => ?_).trans ?_
  · exact reduce_andi_one _ _ _ _
      (ok_one idx h _ _ _ (fun k => ⟨_, congrFun hw _⟩) (fun _ => rfl) (fun _ => rfl)) (fun _ => rfl) _
  · rfl

theorem takeSS_eq (tbl : FArr S10000x128) (idx : IArr S10000) (h : InRange idx 9999#32) : takeSS tbl idx = pickSS tbl idx := by
  have hw := wrap_eq bcast_S_S10000 10000#32 idx (fun j => (h j).1)
  unfold takeSS
  refine (select_all_one _ _ _ fun i => ?_).trans ?_
  · exact reduce_andi_one _ _ _ _
      (ok_one idx h _ _ _ (fun k => ⟨_, congrFun hw _⟩) (fun _ => rfl) (fun _ => rfl)) (fun _ => rfl) _
  · rfl

theorem takePL_eq (tbl : FArr S100000x128) (idx : IArr S200000) (h : InRange idx 99999#32) : takePL tbl idx = pickPL tbl idx := by
  have hw := wrap_eq bcast_S_S200000 100000#32 idx (fun j => (h j).1)
  unfold takePL
  refine (select_all_one _ _ _ fun i => ?_).trans ?_
  · exact reduce_andi_one _ _ _ _
      (ok_one idx h _ _ _ (fun k => ⟨_, congrFun hw _⟩) (fun _ => rfl) (fun _ => rfl)) (fun _ => rfl) _
  · rfl

theorem takeSL_eq (tbl : FArr S10000x128) (idx : IArr S200000) (h : InRange idx 9999#32) : takeSL tbl idx = pickSL tbl idx := by
  have hw := wrap_eq bcast_S_S200000 10000#32 idx (fun j => (h j).1)
  unfold takeSL
  refine (select_all_one _ _ _ fun i => ?_).trans ?_
  · exact reduce_andi_one _ _ _ _
      (ok_one idx h _ _ _ (fun k => ⟨_, congrFun hw _⟩) (fun _ => rfl) (fun _ => rfl)) (fun _ => rfl) _
  · rfl

end Cert.KernelIdeal.Take

end
-- ==== Proof.Agg.lean ====
import proofs.«401606_j16690242913042_1_alg».proof.Proof.Gen.KernelIdeal.Launch
import proofs.«401606_j16690242913042_1_alg».proof.Proof.Net
import Idealize.ShloMosaic.Lib.StableHlo.Run

set_option maxRecDepth 16384

noncomputable section

open Idealize.ShloMosaic Idealize.ShloMosaic.TcCoe Idealize.ShloMosaic.ValueIdx
open Idealize.ShloMosaic.Pipeline (Dat Cfg Window)

namespace Cert.KernelIdeal.Agg

open Cert.KernelIdeal Cert.KernelIdeal.Gen Cert.Net

variable (W : Valuation τ sig (Elt Ideal))

/-! The host operations between the first two launches and the first pair of message-passing launches: the two
    degree vectors and the two mean aggregations of the projected features. -/
theorem stretch2_degS : StableHlo.after (hostOps2 (F := Ideal)) W (Proc.devRef .tc main_v7) = degS (W (Proc.devRef .tc main_arg5)) := by
  show StableHlo.after hostOps2 _ (Proc.devRef .tc main_v7) = _
  after_results_simp
  rfl
theorem stretch2_degP : StableHlo.after (hostOps2 (F := Ideal)) W (Proc.devRef .tc main_v10) = degP (W (Proc.devRef .tc main_arg4)) := by
  show StableHlo.after hostOps2 _ (Proc.devRef .tc main_v10) = _
  after_results_simp
  rfl
theorem stretch2_aggS : StableHlo.after (hostOps2 (F := Ideal)) W (Proc.devRef .tc main_v25)
    = aggS (W (Proc.devRef .tc main_v2)) (W (Proc.devRef .tc main_arg4)) (W (Proc.devRef .tc main_arg5)) := by
  show StableHlo.after hostOps2 _ (Proc.devRef .tc main_v25) = _
  after_results_simp
  rfl
theorem stretch2_aggP : StableHlo.after (hostOps2 (F := Ideal)) W (Proc.devRef .tc main_v40)
    = aggP (W (Proc.devRef .tc main_v3)) (W (Proc.devRef .tc main_arg4)) (W (Proc.devRef .tc main_arg5)) := by
  show StableHlo.after hostOps2 _ (Proc.devRef .tc main_v40) = _
  after_results_simp
  rfl

/-! The host operations between the two pairs of message-passing launches: the mean aggregations of the first
    layer's features, over the degrees computed before. -/
theorem stretch4_aggS : StableHlo.after (hostOps4 (F := Ideal)) W (Proc.devRef .tc main_v57)
    = aggS' (W (Proc.devRef .tc main_v42)) (W (Proc.devRef .tc main_arg4)) (W (Proc.devRef .tc main_arg5)) (W (Proc.devRef .tc main_v7)) := by
  show StableHlo.after hostOps4 _ (Proc.devRef .tc main_v57) = _
  after_results_simp
  rfl
theorem stretch4_aggP : StableHlo.after (hostOps4 (F := Ideal)) W (Proc.devRef .tc main_v72)
    = aggP' (W (Proc.devRef .tc main_v41)) (W (Proc.devRef .tc main_arg4)) (W (Proc.devRef .tc main_arg5)) (W (Proc.devRef .tc main_v10)) := by
  show StableHlo.after hostOps4 _ (Proc.devRef .tc main_v72) = _
  after_results_simp
  rfl

/-! The join of the two picked halves, and the result's unit column dropped. -/
theorem stretch6_2 : StableHlo.after (hostOps6_2 (F := Ideal)) W (Proc.devRef .tc main_v77)
    = join (W (Proc.devRef .tc main_v75)) (W (Proc.devRef .tc main_v76)) := by
  show StableHlo.after hostOps6_2 _ (Proc.devRef .tc main_v77) = _
  after_results
  rfl
theorem stretch7 : StableHlo.after (hostOps7 (F := Ideal)) W (Proc.devRef .tc main_v79)
    = squeeze (W (Proc.devRef .tc main_v78)) := by
  show StableHlo.after hostOps7 _ (Proc.devRef .tc main_v79) = _
  after_results
  rfl

end Cert.KernelIdeal.Agg

end
-- ==== Proof.KPass.lean ====
import proofs.«401606_j16690242913042_1_alg».proof.Proof.Gen.KernelIdeal.Frame

set_option maxRecDepth 16384

noncomputable section

/-! Between two consecutive boundaries of the program a buffer keeps its contents when the step between them does not
    write it: a stretch of host operations none of which has it as its result; a launch whose arrays do not include it; a
    launch that only reads it, through an input window (an input's array ends as it was entered). -/

namespace Cert.KernelIdeal.Pass

open Idealize.ShloMosaic Idealize.ShloMosaic.TcCoe Idealize.ShloMosaic.Tactic
open Idealize.SL Idealize.SL.Sem
open Cert.KernelIdeal Cert.KernelIdeal.Gen

variable {F : FTy → Type} [FloatOps F]
variable (m : (ℓ : Loc nD τ sig) → Buf (Elt F) ℓ) (ρ : Dev nD → PrngReg)

theorem w1_arg0 (c : Dev nD) : W1 m ρ c (Proc.devRef .tc main_arg0) = W0 m ρ c (Proc.devRef .tc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w1_arg10 (c : Dev nD) : W1 m ρ c (Proc.devRef .tc main_arg10) = W0 m ρ c (Proc.devRef .tc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w1_arg11 (c : Dev nD) : W1 m ρ c (Proc.devRef .tc main_arg11) = W0 m ρ c (Proc.devRef .tc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w1_arg4 (c : Dev nD) : W1 m ρ c (Proc.devRef .tc main_arg4) = W0 m ρ c (Proc.devRef .tc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w1_arg5 (c : Dev nD) : W1 m ρ c (Proc.devRef .tc main_arg5) = W0 m ρ c (Proc.devRef .tc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w1_arg1 (c : Dev nD) : W1 m ρ c (Proc.devRef .tc main_arg1) = W0 m ρ c (Proc.devRef .tc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w1_arg9 (c : Dev nD) : W1 m ρ c (Proc.devRef .tc main_arg9) = W0 m ρ c (Proc.devRef .tc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w1_arg3 (c : Dev nD) : W1 m ρ c (Proc.devRef .tc main_arg3) = W0 m ρ c (Proc.devRef .tc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w1_arg12 (c : Dev nD) : W1 m ρ c (Proc.devRef .tc main_arg12) = W0 m ρ c (Proc.devRef .tc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w1_arg13 (c : Dev nD) : W1 m ρ c (Proc.devRef .tc main_arg13) = W0 m ρ c (Proc.devRef .tc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w1_arg14 (c : Dev nD) : W1 m ρ c (Proc.devRef .tc main_arg14) = W0 m ρ c (Proc.devRef .tc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w1_arg15 (c : Dev nD) : W1 m ρ c (Proc.devRef .tc main_arg15) = W0 m ρ c (Proc.devRef .tc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w1_arg16 (c : Dev nD) : W1 m ρ c (Proc.devRef .tc main_arg16) = W0 m ρ c (Proc.devRef .tc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w1_arg17 (c : Dev nD) : W1 m ρ c (Proc.devRef .tc main_arg17) = W0 m ρ c (Proc.devRef .tc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w1_arg18 (c : Dev nD) : W1 m ρ c (Proc.devRef .tc main_arg18) = W0 m ρ c (Proc.devRef .tc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w1_arg19 (c : Dev nD) : W1 m ρ c (Proc.devRef .tc main_arg19) = W0 m ρ c (Proc.devRef .tc main_arg19) :=
  StableHlo.after_of_forall_not_mem (b := Proc.devRef .tc main_arg19) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w1_arg23 (c : Dev nD) : W1 m ρ c (Proc.devRef .tc main_arg23) = W0 m ρ c (Proc.devRef .tc main_arg23) :=
  StableHlo.after_of_forall_not_mem (b := Proc.devRef .tc main_arg23) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w1_arg24 (c : Dev nD) : W1 m ρ c (Proc.devRef .tc main_arg24) = W0 m ρ c (Proc.devRef .tc main_arg24) :=
  StableHlo.after_of_forall_not_mem (b := Proc.devRef .tc main_arg24) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w1_arg25 (c : Dev nD) : W1 m ρ c (Proc.devRef .tc main_arg25) = W0 m ρ c (Proc.devRef .tc main_arg25) :=
  StableHlo.after_of_forall_not_mem (b := Proc.devRef .tc main_arg25) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w1_arg6 (c : Dev nD) : W1 m ρ c (Proc.devRef .tc main_arg6) = W0 m ρ c (Proc.devRef .tc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w1_arg20 (c : Dev nD) : W1 m ρ c (Proc.devRef .tc main_arg20) = W0 m ρ c (Proc.devRef .tc main_arg20) :=
  StableHlo.after_of_forall_not_mem (b := Proc.devRef .tc main_arg20) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w1_arg21 (c : Dev nD) : W1 m ρ c (Proc.devRef .tc main_arg21) = W0 m ρ c (Proc.devRef .tc main_arg21) :=
  StableHlo.after_of_forall_not_mem (b := Proc.devRef .tc main_arg21) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w1_arg22 (c : Dev nD) : W1 m ρ c (Proc.devRef .tc main_arg22) = W0 m ρ c (Proc.devRef .tc main_arg22) :=
  StableHlo.after_of_forall_not_mem (b := Proc.devRef .tc main_arg22) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w1_arg7 (c : Dev nD) : W1 m ρ c (Proc.devRef .tc main_arg7) = W0 m ρ c (Proc.devRef .tc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w1_arg26 (c : Dev nD) : W1 m ρ c (Proc.devRef .tc main_arg26) = W0 m ρ c (Proc.devRef .tc main_arg26) :=
  StableHlo.after_of_forall_not_mem (b := Proc.devRef .tc main_arg26) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w1_arg27 (c : Dev nD) : W1 m ρ c (Proc.devRef .tc main_arg27) = W0 m ρ c (Proc.devRef .tc main_arg27) :=
  StableHlo.after_of_forall_not_mem (b := Proc.devRef .tc main_arg27) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w1_arg28 (c : Dev nD) : W1 m ρ c (Proc.devRef .tc main_arg28) = W0 m ρ c (Proc.devRef .tc main_arg28) :=
  StableHlo.after_of_forall_not_mem (b := Proc.devRef .tc main_arg28) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w1_arg29 (c : Dev nD) : W1 m ρ c (Proc.devRef .tc main_arg29) = W0 m ρ c (Proc.devRef .tc main_arg29) :=
  StableHlo.after_of_forall_not_mem (b := Proc.devRef .tc main_arg29) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w2_arg0 (c : Dev nD) : W2 m ρ c (Proc.devRef .tc main_arg0) = W1 m ρ c (Proc.devRef .tc main_arg0) :=
  StableHlo.after_of_forall_not_mem (b := Proc.devRef .tc main_arg0) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w2_v0 (c : Dev nD) : W2 m ρ c (Proc.devRef .tc main_v0) = W1 m ρ c (Proc.devRef .tc main_v0) :=
  StableHlo.after_of_forall_not_mem (b := Proc.devRef .tc main_v0) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w2_arg10 (c : Dev nD) : W2 m ρ c (Proc.devRef .tc main_arg10) = W1 m ρ c (Proc.devRef .tc main_arg10) :=
  StableHlo.after_of_forall_not_mem (b := Proc.devRef .tc main_arg10) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w2_arg11 (c : Dev nD) : W2 m ρ c (Proc.devRef .tc main_arg11) = W1 m ρ c (Proc.devRef .tc main_arg11) :=
  StableHlo.after_of_forall_not_mem (b := Proc.devRef .tc main_arg11) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w2_arg4 (c : Dev nD) : W2 m ρ c (Proc.devRef .tc main_arg4) = W1 m ρ c (Proc.devRef .tc main_arg4) :=
  StableHlo.after_of_forall_not_mem (b := Proc.devRef .tc main_arg4) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w2_arg5 (c : Dev nD) : W2 m ρ c (Proc.devRef .tc main_arg5) = W1 m ρ c (Proc.devRef .tc main_arg5) :=
  StableHlo.after_of_forall_not_mem (b := Proc.devRef .tc main_arg5) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w2_arg1 (c : Dev nD) : W2 m ρ c (Proc.devRef .tc main_arg1) = W1 m ρ c (Proc.devRef .tc main_arg1) :=
  StableHlo.after_of_forall_not_mem (b := Proc.devRef .tc main_arg1) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w2_arg12 (c : Dev nD) : W2 m ρ c (Proc.devRef .tc main_arg12) = W1 m ρ c (Proc.devRef .tc main_arg12) :=
  StableHlo.after_of_forall_not_mem (b := Proc.devRef .tc main_arg12) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w2_arg13 (c : Dev nD) : W2 m ρ c (Proc.devRef .tc main_arg13) = W1 m ρ c (Proc.devRef .tc main_arg13) :=
  StableHlo.after_of_forall_not_mem (b := Proc.devRef .tc main_arg13) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w2_arg14 (c : Dev nD) : W2 m ρ c (Proc.devRef .tc main_arg14) = W1 m ρ c (Proc.devRef .tc main_arg14) :=
  StableHlo.after_of_forall_not_mem (b := Proc.devRef .tc main_arg14) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w2_arg15 (c : Dev nD) : W2 m ρ c (Proc.devRef .tc main_arg15) = W1 m ρ c (Proc.devRef .tc main_arg15) :=
  StableHlo.after_of_forall_not_mem (b := Proc.devRef .tc main_arg15) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w2_arg16 (c : Dev nD) : W2 m ρ c (Proc.devRef .tc main_arg16) = W1 m ρ c (Proc.devRef .tc main_arg16) :=
  StableHlo.after_of_forall_not_mem (b := Proc.devRef .tc main_arg16) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w2_arg17 (c : Dev nD) : W2 m ρ c (Proc.devRef .tc main_arg17) = W1 m ρ c (Proc.devRef .tc main_arg17) :=
  StableHlo.after_of_forall_not_mem (b := Proc.devRef .tc main_arg17) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w2_arg18 (c : Dev nD) : W2 m ρ c (Proc.devRef .tc main_arg18) = W1 m ρ c (Proc.devRef .tc main_arg18) :=
  StableHlo.after_of_forall_not_mem (b := Proc.devRef .tc main_arg18) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w2_arg19 (c : Dev nD) : W2 m ρ c (Proc.devRef .tc main_arg19) = W1 m ρ c (Proc.devRef .tc main_arg19) :=
  StableHlo.after_of_forall_not_mem (b := Proc.devRef .tc main_arg19) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w2_arg23 (c : Dev nD) : W2 m ρ c (Proc.devRef .tc main_arg23) = W1 m ρ c (Proc.devRef .tc main_arg23) :=
  StableHlo.after_of_forall_not_mem (b := Proc.devRef .tc main_arg23) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w2_arg24 (c : Dev nD) : W2 m ρ c (Proc.devRef .tc main_arg24) = W1 m ρ c (Proc.devRef .tc main_arg24) :=
  StableHlo.after_of_forall_not_mem (b := Proc.devRef .tc main_arg24) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w2_arg25 (c : Dev nD) : W2 m ρ c (Proc.devRef .tc main_arg25) = W1 m ρ c (Proc.devRef .tc main_arg25) :=
  StableHlo.after_of_forall_not_mem (b := Proc.devRef .tc main_arg25) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w2_arg6 (c : Dev nD) : W2 m ρ c (Proc.devRef .tc main_arg6) = W1 m ρ c (Proc.devRef .tc main_arg6) :=
  StableHlo.after_of_forall_not_mem (b := Proc.devRef .tc main_arg6) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w2_arg20 (c : Dev nD) : W2 m ρ c (Proc.devRef .tc main_arg20) = W1 m ρ c (Proc.devRef .tc main_arg20) :=
  StableHlo.after_of_forall_not_mem (b := Proc.devRef .tc main_arg20) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w2_arg21 (c : Dev nD) : W2 m ρ c (Proc.devRef .tc main_arg21) = W1 m ρ c (Proc.devRef .tc main_arg21) :=
  StableHlo.after_of_forall_not_mem (b := Proc.devRef .tc main_arg21) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w2_arg22 (c : Dev nD) : W2 m ρ c (Proc.devRef .tc main_arg22) = W1 m ρ c (Proc.devRef .tc main_arg22) :=
  StableHlo.after_of_forall_not_mem (b := Proc.devRef .tc main_arg22) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w2_arg7 (c : Dev nD) : W2 m ρ c (Proc.devRef .tc main_arg7) = W1 m ρ c (Proc.devRef .tc main_arg7) :=
  StableHlo.after_of_forall_not_mem (b := Proc.devRef .tc main_arg7) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w2_arg26 (c : Dev nD) : W2 m ρ c (Proc.devRef .tc main_arg26) = W1 m ρ c (Proc.devRef .tc main_arg26) :=
  StableHlo.after_of_forall_not_mem (b := Proc.devRef .tc main_arg26) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w2_arg27 (c : Dev nD) : W2 m ρ c (Proc.devRef .tc main_arg27) = W1 m ρ c (Proc.devRef .tc main_arg27) :=
  StableHlo.after_of_forall_not_mem (b := Proc.devRef .tc main_arg27) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w2_arg28 (c : Dev nD) : W2 m ρ c (Proc.devRef .tc main_arg28) = W1 m ρ c (Proc.devRef .tc main_arg28) :=
  StableHlo.after_of_forall_not_mem (b := Proc.devRef .tc main_arg28) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w2_arg29 (c : Dev nD) : W2 m ρ c (Proc.devRef .tc main_arg29) = W1 m ρ c (Proc.devRef .tc main_arg29) :=
  StableHlo.after_of_forall_not_mem (b := Proc.devRef .tc main_arg29) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w3_arg4 (c : Dev nD) : W3 m ρ c (Proc.devRef .tc main_arg4) = W2 m ρ c (Proc.devRef .tc main_arg4) :=
  W3_of_ne m ρ c main_arg4 (by decide)
theorem w3_arg5 (c : Dev nD) : W3 m ρ c (Proc.devRef .tc main_arg5) = W2 m ρ c (Proc.devRef .tc main_arg5) :=
  W3_of_ne m ρ c main_arg5 (by decide)
theorem w3_arg1 (c : Dev nD) : W3 m ρ c (Proc.devRef .tc main_arg1) = W2 m ρ c (Proc.devRef .tc main_arg1) :=
  W3_of_ne m ρ c main_arg1 (by decide)
theorem w3_v1 (c : Dev nD) : W3 m ρ c (Proc.devRef .tc main_v1) = W2 m ρ c (Proc.devRef .tc main_v1) :=
  W3_of_ne m ρ c main_v1 (by decide)
theorem w3_arg12 (c : Dev nD) : W3 m ρ c (Proc.devRef .tc main_arg12) = W2 m ρ c (Proc.devRef .tc main_arg12) :=
  W3_of_ne m ρ c main_arg12 (by decide)
theorem w3_arg13 (c : Dev nD) : W3 m ρ c (Proc.devRef .tc main_arg13) = W2 m ρ c (Proc.devRef .tc main_arg13) :=
  W3_of_ne m ρ c main_arg13 (by decide)
theorem w3_arg14 (c : Dev nD) : W3 m ρ c (Proc.devRef .tc main_arg14) = W2 m ρ c (Proc.devRef .tc main_arg14) :=
  W3_of_ne m ρ c main_arg14 (by decide)
theorem w3_arg15 (c : Dev nD) : W3 m ρ c (Proc.devRef .tc main_arg15) = W2 m ρ c (Proc.devRef .tc main_arg15) :=
  W3_of_ne m ρ c main_arg15 (by decide)
theorem w3_arg16 (c : Dev nD) : W3 m ρ c (Proc.devRef .tc main_arg16) = W2 m ρ c (Proc.devRef .tc main_arg16) :=
  W3_of_ne m ρ c main_arg16 (by decide)
theorem w3_arg17 (c : Dev nD) : W3 m ρ c (Proc.devRef .tc main_arg17) = W2 m ρ c (Proc.devRef .tc main_arg17) :=
  W3_of_ne m ρ c main_arg17 (by decide)
theorem w3_arg18 (c : Dev nD) : W3 m ρ c (Proc.devRef .tc main_arg18) = W2 m ρ c (Proc.devRef .tc main_arg18) :=
  W3_of_ne m ρ c main_arg18 (by decide)
theorem w3_arg19 (c : Dev nD) : W3 m ρ c (Proc.devRef .tc main_arg19) = W2 m ρ c (Proc.devRef .tc main_arg19) :=
  W3_of_ne m ρ c main_arg19 (by decide)
theorem w3_arg23 (c : Dev nD) : W3 m ρ c (Proc.devRef .tc main_arg23) = W2 m ρ c (Proc.devRef .tc main_arg23) :=
  W3_of_ne m ρ c main_arg23 (by decide)
theorem w3_arg24 (c : Dev nD) : W3 m ρ c (Proc.devRef .tc main_arg24) = W2 m ρ c (Proc.devRef .tc main_arg24) :=
  W3_of_ne m ρ c main_arg24 (by decide)
theorem w3_arg25 (c : Dev nD) : W3 m ρ c (Proc.devRef .tc main_arg25) = W2 m ρ c (Proc.devRef .tc main_arg25) :=
  W3_of_ne m ρ c main_arg25 (by decide)
theorem w3_arg6 (c : Dev nD) : W3 m ρ c (Proc.devRef .tc main_arg6) = W2 m ρ c (Proc.devRef .tc main_arg6) :=
  W3_of_ne m ρ c main_arg6 (by decide)
theorem w3_arg20 (c : Dev nD) : W3 m ρ c (Proc.devRef .tc main_arg20) = W2 m ρ c (Proc.devRef .tc main_arg20) :=
  W3_of_ne m ρ c main_arg20 (by decide)
theorem w3_arg21 (c : Dev nD) : W3 m ρ c (Proc.devRef .tc main_arg21) = W2 m ρ c (Proc.devRef .tc main_arg21) :=
  W3_of_ne m ρ c main_arg21 (by decide)
theorem w3_arg22 (c : Dev nD) : W3 m ρ c (Proc.devRef .tc main_arg22) = W2 m ρ c (Proc.devRef .tc main_arg22) :=
  W3_of_ne m ρ c main_arg22 (by decide)
theorem w3_arg7 (c : Dev nD) : W3 m ρ c (Proc.devRef .tc main_arg7) = W2 m ρ c (Proc.devRef .tc main_arg7) :=
  W3_of_ne m ρ c main_arg7 (by decide)
theorem w3_arg26 (c : Dev nD) : W3 m ρ c (Proc.devRef .tc main_arg26) = W2 m ρ c (Proc.devRef .tc main_arg26) :=
  W3_of_ne m ρ c main_arg26 (by decide)
theorem w3_arg27 (c : Dev nD) : W3 m ρ c (Proc.devRef .tc main_arg27) = W2 m ρ c (Proc.devRef .tc main_arg27) :=
  W3_of_ne m ρ c main_arg27 (by decide)
theorem w3_arg28 (c : Dev nD) : W3 m ρ c (Proc.devRef .tc main_arg28) = W2 m ρ c (Proc.devRef .tc main_arg28) :=
  W3_of_ne m ρ c main_arg28 (by decide)
theorem w3_arg29 (c : Dev nD) : W3 m ρ c (Proc.devRef .tc main_arg29) = W2 m ρ c (Proc.devRef .tc main_arg29) :=
  W3_of_ne m ρ c main_arg29 (by decide)
theorem w4_v2 (c : Dev nD) : W4 m ρ c (Proc.devRef .tc main_v2) = W3 m ρ c (Proc.devRef .tc main_v2) :=
  W4_of_ne m ρ c main_v2 (by decide)
theorem w4_arg4 (c : Dev nD) : W4 m ρ c (Proc.devRef .tc main_arg4) = W3 m ρ c (Proc.devRef .tc main_arg4) :=
  W4_of_ne m ρ c main_arg4 (by decide)
theorem w4_arg5 (c : Dev nD) : W4 m ρ c (Proc.devRef .tc main_arg5) = W3 m ρ c (Proc.devRef .tc main_arg5) :=
  W4_of_ne m ρ c main_arg5 (by decide)
theorem w4_arg14 (c : Dev nD) : W4 m ρ c (Proc.devRef .tc main_arg14) = W3 m ρ c (Proc.devRef .tc main_arg14) :=
  W4_of_ne m ρ c main_arg14 (by decide)
theorem w4_arg15 (c : Dev nD) : W4 m ρ c (Proc.devRef .tc main_arg15) = W3 m ρ c (Proc.devRef .tc main_arg15) :=
  W4_of_ne m ρ c main_arg15 (by decide)
theorem w4_arg16 (c : Dev nD) : W4 m ρ c (Proc.devRef .tc main_arg16) = W3 m ρ c (Proc.devRef .tc main_arg16) :=
  W4_of_ne m ρ c main_arg16 (by decide)
theorem w4_arg17 (c : Dev nD) : W4 m ρ c (Proc.devRef .tc main_arg17) = W3 m ρ c (Proc.devRef .tc main_arg17) :=
  W4_of_ne m ρ c main_arg17 (by decide)
theorem w4_arg18 (c : Dev nD) : W4 m ρ c (Proc.devRef .tc main_arg18) = W3 m ρ c (Proc.devRef .tc main_arg18) :=
  W4_of_ne m ρ c main_arg18 (by decide)
theorem w4_arg19 (c : Dev nD) : W4 m ρ c (Proc.devRef .tc main_arg19) = W3 m ρ c (Proc.devRef .tc main_arg19) :=
  W4_of_ne m ρ c main_arg19 (by decide)
theorem w4_arg23 (c : Dev nD) : W4 m ρ c (Proc.devRef .tc main_arg23) = W3 m ρ c (Proc.devRef .tc main_arg23) :=
  W4_of_ne m ρ c main_arg23 (by decide)
theorem w4_arg24 (c : Dev nD) : W4 m ρ c (Proc.devRef .tc main_arg24) = W3 m ρ c (Proc.devRef .tc main_arg24) :=
  W4_of_ne m ρ c main_arg24 (by decide)
theorem w4_arg25 (c : Dev nD) : W4 m ρ c (Proc.devRef .tc main_arg25) = W3 m ρ c (Proc.devRef .tc main_arg25) :=
  W4_of_ne m ρ c main_arg25 (by decide)
theorem w4_arg6 (c : Dev nD) : W4 m ρ c (Proc.devRef .tc main_arg6) = W3 m ρ c (Proc.devRef .tc main_arg6) :=
  W4_of_ne m ρ c main_arg6 (by decide)
theorem w4_arg20 (c : Dev nD) : W4 m ρ c (Proc.devRef .tc main_arg20) = W3 m ρ c (Proc.devRef .tc main_arg20) :=
  W4_of_ne m ρ c main_arg20 (by decide)
theorem w4_arg21 (c : Dev nD) : W4 m ρ c (Proc.devRef .tc main_arg21) = W3 m ρ c (Proc.devRef .tc main_arg21) :=
  W4_of_ne m ρ c main_arg21 (by decide)
theorem w4_arg22 (c : Dev nD) : W4 m ρ c (Proc.devRef .tc main_arg22) = W3 m ρ c (Proc.devRef .tc main_arg22) :=
  W4_of_ne m ρ c main_arg22 (by decide)
theorem w4_arg7 (c : Dev nD) : W4 m ρ c (Proc.devRef .tc main_arg7) = W3 m ρ c (Proc.devRef .tc main_arg7) :=
  W4_of_ne m ρ c main_arg7 (by decide)
theorem w4_arg26 (c : Dev nD) : W4 m ρ c (Proc.devRef .tc main_arg26) = W3 m ρ c (Proc.devRef .tc main_arg26) :=
  W4_of_ne m ρ c main_arg26 (by decide)
theorem w4_arg27 (c : Dev nD) : W4 m ρ c (Proc.devRef .tc main_arg27) = W3 m ρ c (Proc.devRef .tc main_arg27) :=
  W4_of_ne m ρ c main_arg27 (by decide)
theorem w4_arg28 (c : Dev nD) : W4 m ρ c (Proc.devRef .tc main_arg28) = W3 m ρ c (Proc.devRef .tc main_arg28) :=
  W4_of_ne m ρ c main_arg28 (by decide)
theorem w4_arg29 (c : Dev nD) : W4 m ρ c (Proc.devRef .tc main_arg29) = W3 m ρ c (Proc.devRef .tc main_arg29) :=
  W4_of_ne m ρ c main_arg29 (by decide)
theorem w5_v3 (c : Dev nD) : W5 m ρ c (Proc.devRef .tc main_v3) = W4 m ρ c (Proc.devRef .tc main_v3) :=
  StableHlo.after_of_forall_not_mem (b := Proc.devRef .tc main_v3) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w5_arg14 (c : Dev nD) : W5 m ρ c (Proc.devRef .tc main_arg14) = W4 m ρ c (Proc.devRef .tc main_arg14) :=
  StableHlo.after_of_forall_not_mem (b := Proc.devRef .tc main_arg14) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w5_arg15 (c : Dev nD) : W5 m ρ c (Proc.devRef .tc main_arg15) = W4 m ρ c (Proc.devRef .tc main_arg15) :=
  StableHlo.after_of_forall_not_mem (b := Proc.devRef .tc main_arg15) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w5_arg16 (c : Dev nD) : W5 m ρ c (Proc.devRef .tc main_arg16) = W4 m ρ c (Proc.devRef .tc main_arg16) :=
  StableHlo.after_of_forall_not_mem (b := Proc.devRef .tc main_arg16) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w5_arg4 (c : Dev nD) : W5 m ρ c (Proc.devRef .tc main_arg4) = W4 m ρ c (Proc.devRef .tc main_arg4) :=
  StableHlo.after_of_forall_not_mem (b := Proc.devRef .tc main_arg4) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w5_arg5 (c : Dev nD) : W5 m ρ c (Proc.devRef .tc main_arg5) = W4 m ρ c (Proc.devRef .tc main_arg5) :=
  StableHlo.after_of_forall_not_mem (b := Proc.devRef .tc main_arg5) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w5_v2 (c : Dev nD) : W5 m ρ c (Proc.devRef .tc main_v2) = W4 m ρ c (Proc.devRef .tc main_v2) :=
  StableHlo.after_of_forall_not_mem (b := Proc.devRef .tc main_v2) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w5_arg17 (c : Dev nD) : W5 m ρ c (Proc.devRef .tc main_arg17) = W4 m ρ c (Proc.devRef .tc main_arg17) :=
  StableHlo.after_of_forall_not_mem (b := Proc.devRef .tc main_arg17) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w5_arg18 (c : Dev nD) : W5 m ρ c (Proc.devRef .tc main_arg18) = W4 m ρ c (Proc.devRef .tc main_arg18) :=
  StableHlo.after_of_forall_not_mem (b := Proc.devRef .tc main_arg18) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w5_arg19 (c : Dev nD) : W5 m ρ c (Proc.devRef .tc main_arg19) = W4 m ρ c (Proc.devRef .tc main_arg19) :=
  StableHlo.after_of_forall_not_mem (b := Proc.devRef .tc main_arg19) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w5_arg23 (c : Dev nD) : W5 m ρ c (Proc.devRef .tc main_arg23) = W4 m ρ c (Proc.devRef .tc main_arg23) :=
  StableHlo.after_of_forall_not_mem (b := Proc.devRef .tc main_arg23) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w5_arg24 (c : Dev nD) : W5 m ρ c (Proc.devRef .tc main_arg24) = W4 m ρ c (Proc.devRef .tc main_arg24) :=
  StableHlo.after_of_forall_not_mem (b := Proc.devRef .tc main_arg24) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w5_arg25 (c : Dev nD) : W5 m ρ c (Proc.devRef .tc main_arg25) = W4 m ρ c (Proc.devRef .tc main_arg25) :=
  StableHlo.after_of_forall_not_mem (b := Proc.devRef .tc main_arg25) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w5_arg6 (c : Dev nD) : W5 m ρ c (Proc.devRef .tc main_arg6) = W4 m ρ c (Proc.devRef .tc main_arg6) :=
  StableHlo.after_of_forall_not_mem (b := Proc.devRef .tc main_arg6) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w5_arg20 (c : Dev nD) : W5 m ρ c (Proc.devRef .tc main_arg20) = W4 m ρ c (Proc.devRef .tc main_arg20) :=
  StableHlo.after_of_forall_not_mem (b := Proc.devRef .tc main_arg20) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w5_arg21 (c : Dev nD) : W5 m ρ c (Proc.devRef .tc main_arg21) = W4 m ρ c (Proc.devRef .tc main_arg21) :=
  StableHlo.after_of_forall_not_mem (b := Proc.devRef .tc main_arg21) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w5_arg22 (c : Dev nD) : W5 m ρ c (Proc.devRef .tc main_arg22) = W4 m ρ c (Proc.devRef .tc main_arg22) :=
  StableHlo.after_of_forall_not_mem (b := Proc.devRef .tc main_arg22) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w5_arg7 (c : Dev nD) : W5 m ρ c (Proc.devRef .tc main_arg7) = W4 m ρ c (Proc.devRef .tc main_arg7) :=
  StableHlo.after_of_forall_not_mem (b := Proc.devRef .tc main_arg7) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w5_arg26 (c : Dev nD) : W5 m ρ c (Proc.devRef .tc main_arg26) = W4 m ρ c (Proc.devRef .tc main_arg26) :=
  StableHlo.after_of_forall_not_mem (b := Proc.devRef .tc main_arg26) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w5_arg27 (c : Dev nD) : W5 m ρ c (Proc.devRef .tc main_arg27) = W4 m ρ c (Proc.devRef .tc main_arg27) :=
  StableHlo.after_of_forall_not_mem (b := Proc.devRef .tc main_arg27) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w5_arg28 (c : Dev nD) : W5 m ρ c (Proc.devRef .tc main_arg28) = W4 m ρ c (Proc.devRef .tc main_arg28) :=
  StableHlo.after_of_forall_not_mem (b := Proc.devRef .tc main_arg28) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w5_arg29 (c : Dev nD) : W5 m ρ c (Proc.devRef .tc main_arg29) = W4 m ρ c (Proc.devRef .tc main_arg29) :=
  StableHlo.after_of_forall_not_mem (b := Proc.devRef .tc main_arg29) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w6_arg4 (c : Dev nD) : W6 m ρ c (Proc.devRef .tc main_arg4) = W5 m ρ c (Proc.devRef .tc main_arg4) :=
  W6_of_ne m ρ c main_arg4 (by decide)
theorem w6_arg5 (c : Dev nD) : W6 m ρ c (Proc.devRef .tc main_arg5) = W5 m ρ c (Proc.devRef .tc main_arg5) :=
  W6_of_ne m ρ c main_arg5 (by decide)
theorem w6_v10 (c : Dev nD) : W6 m ρ c (Proc.devRef .tc main_v10) = W5 m ρ c (Proc.devRef .tc main_v10) :=
  W6_of_ne m ρ c main_v10 (by decide)
theorem w6_v40 (c : Dev nD) : W6 m ρ c (Proc.devRef .tc main_v40) = W5 m ρ c (Proc.devRef .tc main_v40) :=
  W6_of_ne m ρ c main_v40 (by decide)
theorem w6_v2 (c : Dev nD) : W6 m ρ c (Proc.devRef .tc main_v2) = W5 m ρ c (Proc.devRef .tc main_v2) :=
  W6_of_ne m ρ c main_v2 (by decide)
theorem w6_arg17 (c : Dev nD) : W6 m ρ c (Proc.devRef .tc main_arg17) = W5 m ρ c (Proc.devRef .tc main_arg17) :=
  W6_of_ne m ρ c main_arg17 (by decide)
theorem w6_arg18 (c : Dev nD) : W6 m ρ c (Proc.devRef .tc main_arg18) = W5 m ρ c (Proc.devRef .tc main_arg18) :=
  W6_of_ne m ρ c main_arg18 (by decide)
theorem w6_arg19 (c : Dev nD) : W6 m ρ c (Proc.devRef .tc main_arg19) = W5 m ρ c (Proc.devRef .tc main_arg19) :=
  W6_of_ne m ρ c main_arg19 (by decide)
theorem w6_arg23 (c : Dev nD) : W6 m ρ c (Proc.devRef .tc main_arg23) = W5 m ρ c (Proc.devRef .tc main_arg23) :=
  W6_of_ne m ρ c main_arg23 (by decide)
theorem w6_arg24 (c : Dev nD) : W6 m ρ c (Proc.devRef .tc main_arg24) = W5 m ρ c (Proc.devRef .tc main_arg24) :=
  W6_of_ne m ρ c main_arg24 (by decide)
theorem w6_arg25 (c : Dev nD) : W6 m ρ c (Proc.devRef .tc main_arg25) = W5 m ρ c (Proc.devRef .tc main_arg25) :=
  W6_of_ne m ρ c main_arg25 (by decide)
theorem w6_arg6 (c : Dev nD) : W6 m ρ c (Proc.devRef .tc main_arg6) = W5 m ρ c (Proc.devRef .tc main_arg6) :=
  W6_of_ne m ρ c main_arg6 (by decide)
theorem w6_v7 (c : Dev nD) : W6 m ρ c (Proc.devRef .tc main_v7) = W5 m ρ c (Proc.devRef .tc main_v7) :=
  W6_of_ne m ρ c main_v7 (by decide)
theorem w6_arg20 (c : Dev nD) : W6 m ρ c (Proc.devRef .tc main_arg20) = W5 m ρ c (Proc.devRef .tc main_arg20) :=
  W6_of_ne m ρ c main_arg20 (by decide)
theorem w6_arg21 (c : Dev nD) : W6 m ρ c (Proc.devRef .tc main_arg21) = W5 m ρ c (Proc.devRef .tc main_arg21) :=
  W6_of_ne m ρ c main_arg21 (by decide)
theorem w6_arg22 (c : Dev nD) : W6 m ρ c (Proc.devRef .tc main_arg22) = W5 m ρ c (Proc.devRef .tc main_arg22) :=
  W6_of_ne m ρ c main_arg22 (by decide)
theorem w6_arg7 (c : Dev nD) : W6 m ρ c (Proc.devRef .tc main_arg7) = W5 m ρ c (Proc.devRef .tc main_arg7) :=
  W6_of_ne m ρ c main_arg7 (by decide)
theorem w6_arg26 (c : Dev nD) : W6 m ρ c (Proc.devRef .tc main_arg26) = W5 m ρ c (Proc.devRef .tc main_arg26) :=
  W6_of_ne m ρ c main_arg26 (by decide)
theorem w6_arg27 (c : Dev nD) : W6 m ρ c (Proc.devRef .tc main_arg27) = W5 m ρ c (Proc.devRef .tc main_arg27) :=
  W6_of_ne m ρ c main_arg27 (by decide)
theorem w6_arg28 (c : Dev nD) : W6 m ρ c (Proc.devRef .tc main_arg28) = W5 m ρ c (Proc.devRef .tc main_arg28) :=
  W6_of_ne m ρ c main_arg28 (by decide)
theorem w6_arg29 (c : Dev nD) : W6 m ρ c (Proc.devRef .tc main_arg29) = W5 m ρ c (Proc.devRef .tc main_arg29) :=
  W6_of_ne m ρ c main_arg29 (by decide)
theorem w7_v41 (c : Dev nD) : W7 m ρ c (Proc.devRef .tc main_v41) = W6 m ρ c (Proc.devRef .tc main_v41) :=
  W7_of_ne m ρ c main_v41 (by decide)
theorem w7_arg4 (c : Dev nD) : W7 m ρ c (Proc.devRef .tc main_arg4) = W6 m ρ c (Proc.devRef .tc main_arg4) :=
  W7_of_ne m ρ c main_arg4 (by decide)
theorem w7_arg5 (c : Dev nD) : W7 m ρ c (Proc.devRef .tc main_arg5) = W6 m ρ c (Proc.devRef .tc main_arg5) :=
  W7_of_ne m ρ c main_arg5 (by decide)
theorem w7_v10 (c : Dev nD) : W7 m ρ c (Proc.devRef .tc main_v10) = W6 m ρ c (Proc.devRef .tc main_v10) :=
  W7_of_ne m ρ c main_v10 (by decide)
theorem w7_arg23 (c : Dev nD) : W7 m ρ c (Proc.devRef .tc main_arg23) = W6 m ρ c (Proc.devRef .tc main_arg23) :=
  W7_of_ne m ρ c main_arg23 (by decide)
theorem w7_arg24 (c : Dev nD) : W7 m ρ c (Proc.devRef .tc main_arg24) = W6 m ρ c (Proc.devRef .tc main_arg24) :=
  W7_of_ne m ρ c main_arg24 (by decide)
theorem w7_arg25 (c : Dev nD) : W7 m ρ c (Proc.devRef .tc main_arg25) = W6 m ρ c (Proc.devRef .tc main_arg25) :=
  W7_of_ne m ρ c main_arg25 (by decide)
theorem w7_arg6 (c : Dev nD) : W7 m ρ c (Proc.devRef .tc main_arg6) = W6 m ρ c (Proc.devRef .tc main_arg6) :=
  W7_of_ne m ρ c main_arg6 (by decide)
theorem w7_v7 (c : Dev nD) : W7 m ρ c (Proc.devRef .tc main_v7) = W6 m ρ c (Proc.devRef .tc main_v7) :=
  W7_of_ne m ρ c main_v7 (by decide)
theorem w7_arg20 (c : Dev nD) : W7 m ρ c (Proc.devRef .tc main_arg20) = W6 m ρ c (Proc.devRef .tc main_arg20) :=
  W7_of_ne m ρ c main_arg20 (by decide)
theorem w7_arg21 (c : Dev nD) : W7 m ρ c (Proc.devRef .tc main_arg21) = W6 m ρ c (Proc.devRef .tc main_arg21) :=
  W7_of_ne m ρ c main_arg21 (by decide)
theorem w7_arg22 (c : Dev nD) : W7 m ρ c (Proc.devRef .tc main_arg22) = W6 m ρ c (Proc.devRef .tc main_arg22) :=
  W7_of_ne m ρ c main_arg22 (by decide)
theorem w7_arg7 (c : Dev nD) : W7 m ρ c (Proc.devRef .tc main_arg7) = W6 m ρ c (Proc.devRef .tc main_arg7) :=
  W7_of_ne m ρ c main_arg7 (by decide)
theorem w7_arg26 (c : Dev nD) : W7 m ρ c (Proc.devRef .tc main_arg26) = W6 m ρ c (Proc.devRef .tc main_arg26) :=
  W7_of_ne m ρ c main_arg26 (by decide)
theorem w7_arg27 (c : Dev nD) : W7 m ρ c (Proc.devRef .tc main_arg27) = W6 m ρ c (Proc.devRef .tc main_arg27) :=
  W7_of_ne m ρ c main_arg27 (by decide)
theorem w7_arg28 (c : Dev nD) : W7 m ρ c (Proc.devRef .tc main_arg28) = W6 m ρ c (Proc.devRef .tc main_arg28) :=
  W7_of_ne m ρ c main_arg28 (by decide)
theorem w7_arg29 (c : Dev nD) : W7 m ρ c (Proc.devRef .tc main_arg29) = W6 m ρ c (Proc.devRef .tc main_arg29) :=
  W7_of_ne m ρ c main_arg29 (by decide)
theorem w8_v42 (c : Dev nD) : W8 m ρ c (Proc.devRef .tc main_v42) = W7 m ρ c (Proc.devRef .tc main_v42) :=
  StableHlo.after_of_forall_not_mem (b := Proc.devRef .tc main_v42) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w8_arg23 (c : Dev nD) : W8 m ρ c (Proc.devRef .tc main_arg23) = W7 m ρ c (Proc.devRef .tc main_arg23) :=
  StableHlo.after_of_forall_not_mem (b := Proc.devRef .tc main_arg23) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w8_arg24 (c : Dev nD) : W8 m ρ c (Proc.devRef .tc main_arg24) = W7 m ρ c (Proc.devRef .tc main_arg24) :=
  StableHlo.after_of_forall_not_mem (b := Proc.devRef .tc main_arg24) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w8_arg25 (c : Dev nD) : W8 m ρ c (Proc.devRef .tc main_arg25) = W7 m ρ c (Proc.devRef .tc main_arg25) :=
  StableHlo.after_of_forall_not_mem (b := Proc.devRef .tc main_arg25) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w8_arg6 (c : Dev nD) : W8 m ρ c (Proc.devRef .tc main_arg6) = W7 m ρ c (Proc.devRef .tc main_arg6) :=
  StableHlo.after_of_forall_not_mem (b := Proc.devRef .tc main_arg6) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w8_v41 (c : Dev nD) : W8 m ρ c (Proc.devRef .tc main_v41) = W7 m ρ c (Proc.devRef .tc main_v41) :=
  StableHlo.after_of_forall_not_mem (b := Proc.devRef .tc main_v41) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w8_arg20 (c : Dev nD) : W8 m ρ c (Proc.devRef .tc main_arg20) = W7 m ρ c (Proc.devRef .tc main_arg20) :=
  StableHlo.after_of_forall_not_mem (b := Proc.devRef .tc main_arg20) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w8_arg21 (c : Dev nD) : W8 m ρ c (Proc.devRef .tc main_arg21) = W7 m ρ c (Proc.devRef .tc main_arg21) :=
  StableHlo.after_of_forall_not_mem (b := Proc.devRef .tc main_arg21) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w8_arg22 (c : Dev nD) : W8 m ρ c (Proc.devRef .tc main_arg22) = W7 m ρ c (Proc.devRef .tc main_arg22) :=
  StableHlo.after_of_forall_not_mem (b := Proc.devRef .tc main_arg22) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w8_arg7 (c : Dev nD) : W8 m ρ c (Proc.devRef .tc main_arg7) = W7 m ρ c (Proc.devRef .tc main_arg7) :=
  StableHlo.after_of_forall_not_mem (b := Proc.devRef .tc main_arg7) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w8_arg26 (c : Dev nD) : W8 m ρ c (Proc.devRef .tc main_arg26) = W7 m ρ c (Proc.devRef .tc main_arg26) :=
  StableHlo.after_of_forall_not_mem (b := Proc.devRef .tc main_arg26) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w8_arg27 (c : Dev nD) : W8 m ρ c (Proc.devRef .tc main_arg27) = W7 m ρ c (Proc.devRef .tc main_arg27) :=
  StableHlo.after_of_forall_not_mem (b := Proc.devRef .tc main_arg27) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w8_arg28 (c : Dev nD) : W8 m ρ c (Proc.devRef .tc main_arg28) = W7 m ρ c (Proc.devRef .tc main_arg28) :=
  StableHlo.after_of_forall_not_mem (b := Proc.devRef .tc main_arg28) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w8_arg29 (c : Dev nD) : W8 m ρ c (Proc.devRef .tc main_arg29) = W7 m ρ c (Proc.devRef .tc main_arg29) :=
  StableHlo.after_of_forall_not_mem (b := Proc.devRef .tc main_arg29) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w9_v72 (c : Dev nD) : W9 m ρ c (Proc.devRef .tc main_v72) = W8 m ρ c (Proc.devRef .tc main_v72) :=
  W9_of_ne m ρ c main_v72 (by decide)
theorem w9_v42 (c : Dev nD) : W9 m ρ c (Proc.devRef .tc main_v42) = W8 m ρ c (Proc.devRef .tc main_v42) :=
  W9_of_ne m ρ c main_v42 (by decide)
theorem w9_arg23 (c : Dev nD) : W9 m ρ c (Proc.devRef .tc main_arg23) = W8 m ρ c (Proc.devRef .tc main_arg23) :=
  W9_of_ne m ρ c main_arg23 (by decide)
theorem w9_arg24 (c : Dev nD) : W9 m ρ c (Proc.devRef .tc main_arg24) = W8 m ρ c (Proc.devRef .tc main_arg24) :=
  W9_of_ne m ρ c main_arg24 (by decide)
theorem w9_arg25 (c : Dev nD) : W9 m ρ c (Proc.devRef .tc main_arg25) = W8 m ρ c (Proc.devRef .tc main_arg25) :=
  W9_of_ne m ρ c main_arg25 (by decide)
theorem w9_arg6 (c : Dev nD) : W9 m ρ c (Proc.devRef .tc main_arg6) = W8 m ρ c (Proc.devRef .tc main_arg6) :=
  W9_of_ne m ρ c main_arg6 (by decide)
theorem w9_arg7 (c : Dev nD) : W9 m ρ c (Proc.devRef .tc main_arg7) = W8 m ρ c (Proc.devRef .tc main_arg7) :=
  W9_of_ne m ρ c main_arg7 (by decide)
theorem w9_arg26 (c : Dev nD) : W9 m ρ c (Proc.devRef .tc main_arg26) = W8 m ρ c (Proc.devRef .tc main_arg26) :=
  W9_of_ne m ρ c main_arg26 (by decide)
theorem w9_arg27 (c : Dev nD) : W9 m ρ c (Proc.devRef .tc main_arg27) = W8 m ρ c (Proc.devRef .tc main_arg27) :=
  W9_of_ne m ρ c main_arg27 (by decide)
theorem w9_arg28 (c : Dev nD) : W9 m ρ c (Proc.devRef .tc main_arg28) = W8 m ρ c (Proc.devRef .tc main_arg28) :=
  W9_of_ne m ρ c main_arg28 (by decide)
theorem w9_arg29 (c : Dev nD) : W9 m ρ c (Proc.devRef .tc main_arg29) = W8 m ρ c (Proc.devRef .tc main_arg29) :=
  W9_of_ne m ρ c main_arg29 (by decide)
theorem w10_arg6 (c : Dev nD) : W10 m ρ c (Proc.devRef .tc main_arg6) = W9 m ρ c (Proc.devRef .tc main_arg6) :=
  W10_of_ne m ρ c main_arg6 (by decide)
theorem w10_v73 (c : Dev nD) : W10 m ρ c (Proc.devRef .tc main_v73) = W9 m ρ c (Proc.devRef .tc main_v73) :=
  W10_of_ne m ρ c main_v73 (by decide)
theorem w10_arg7 (c : Dev nD) : W10 m ρ c (Proc.devRef .tc main_arg7) = W9 m ρ c (Proc.devRef .tc main_arg7) :=
  W10_of_ne m ρ c main_arg7 (by decide)
theorem w10_arg26 (c : Dev nD) : W10 m ρ c (Proc.devRef .tc main_arg26) = W9 m ρ c (Proc.devRef .tc main_arg26) :=
  W10_of_ne m ρ c main_arg26 (by decide)
theorem w10_arg27 (c : Dev nD) : W10 m ρ c (Proc.devRef .tc main_arg27) = W9 m ρ c (Proc.devRef .tc main_arg27) :=
  W10_of_ne m ρ c main_arg27 (by decide)
theorem w10_arg28 (c : Dev nD) : W10 m ρ c (Proc.devRef .tc main_arg28) = W9 m ρ c (Proc.devRef .tc main_arg28) :=
  W10_of_ne m ρ c main_arg28 (by decide)
theorem w10_arg29 (c : Dev nD) : W10 m ρ c (Proc.devRef .tc main_arg29) = W9 m ρ c (Proc.devRef .tc main_arg29) :=
  W10_of_ne m ρ c main_arg29 (by decide)
theorem w11_v73 (c : Dev nD) : W11 m ρ c (Proc.devRef .tc main_v73) = W10 m ρ c (Proc.devRef .tc main_v73) :=
  StableHlo.after_of_forall_not_mem (b := Proc.devRef .tc main_v73) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w11_arg7 (c : Dev nD) : W11 m ρ c (Proc.devRef .tc main_arg7) = W10 m ρ c (Proc.devRef .tc main_arg7) :=
  StableHlo.after_of_forall_not_mem (b := Proc.devRef .tc main_arg7) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w11_arg26 (c : Dev nD) : W11 m ρ c (Proc.devRef .tc main_arg26) = W10 m ρ c (Proc.devRef .tc main_arg26) :=
  StableHlo.after_of_forall_not_mem (b := Proc.devRef .tc main_arg26) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w11_arg27 (c : Dev nD) : W11 m ρ c (Proc.devRef .tc main_arg27) = W10 m ρ c (Proc.devRef .tc main_arg27) :=
  StableHlo.after_of_forall_not_mem (b := Proc.devRef .tc main_arg27) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w11_arg28 (c : Dev nD) : W11 m ρ c (Proc.devRef .tc main_arg28) = W10 m ρ c (Proc.devRef .tc main_arg28) :=
  StableHlo.after_of_forall_not_mem (b := Proc.devRef .tc main_arg28) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w11_arg29 (c : Dev nD) : W11 m ρ c (Proc.devRef .tc main_arg29) = W10 m ρ c (Proc.devRef .tc main_arg29) :=
  StableHlo.after_of_forall_not_mem (b := Proc.devRef .tc main_arg29) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w12_v75 (c : Dev nD) : W12 m ρ c (Proc.devRef .tc main_v75) = W11 m ρ c (Proc.devRef .tc main_v75) :=
  StableHlo.after_of_forall_not_mem (b := Proc.devRef .tc main_v75) _ _ (List.forall_iff_forall_mem.mp (by
    simp only [hostOps6_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w12_arg26 (c : Dev nD) : W12 m ρ c (Proc.devRef .tc main_arg26) = W11 m ρ c (Proc.devRef .tc main_arg26) :=
  StableHlo.after_of_forall_not_mem (b := Proc.devRef .tc main_arg26) _ _ (List.forall_iff_forall_mem.mp (by
    simp only [hostOps6_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w12_arg27 (c : Dev nD) : W12 m ρ c (Proc.devRef .tc main_arg27) = W11 m ρ c (Proc.devRef .tc main_arg27) :=
  StableHlo.after_of_forall_not_mem (b := Proc.devRef .tc main_arg27) _ _ (List.forall_iff_forall_mem.mp (by
    simp only [hostOps6_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w12_arg28 (c : Dev nD) : W12 m ρ c (Proc.devRef .tc main_arg28) = W11 m ρ c (Proc.devRef .tc main_arg28) :=
  StableHlo.after_of_forall_not_mem (b := Proc.devRef .tc main_arg28) _ _ (List.forall_iff_forall_mem.mp (by
    simp only [hostOps6_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w12_arg29 (c : Dev nD) : W12 m ρ c (Proc.devRef .tc main_arg29) = W11 m ρ c (Proc.devRef .tc main_arg29) :=
  StableHlo.after_of_forall_not_mem (b := Proc.devRef .tc main_arg29) _ _ (List.forall_iff_forall_mem.mp (by
    simp only [hostOps6_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w13_arg26 (c : Dev nD) : W13 m ρ c (Proc.devRef .tc main_arg26) = W12 m ρ c (Proc.devRef .tc main_arg26) :=
  StableHlo.after_of_forall_not_mem (b := Proc.devRef .tc main_arg26) _ _ (List.forall_iff_forall_mem.mp (by
    simp only [hostOps6_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w13_arg27 (c : Dev nD) : W13 m ρ c (Proc.devRef .tc main_arg27) = W12 m ρ c (Proc.devRef .tc main_arg27) :=
  StableHlo.after_of_forall_not_mem (b := Proc.devRef .tc main_arg27) _ _ (List.forall_iff_forall_mem.mp (by
    simp only [hostOps6_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w13_arg28 (c : Dev nD) : W13 m ρ c (Proc.devRef .tc main_arg28) = W12 m ρ c (Proc.devRef .tc main_arg28) :=
  StableHlo.after_of_forall_not_mem (b := Proc.devRef .tc main_arg28) _ _ (List.forall_iff_forall_mem.mp (by
    simp only [hostOps6_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem w13_arg29 (c : Dev nD) : W13 m ρ c (Proc.devRef .tc main_arg29) = W12 m ρ c (Proc.devRef .tc main_arg29) :=
  StableHlo.after_of_forall_not_mem (b := Proc.devRef .tc main_arg29) _ _ (List.forall_iff_forall_mem.mp (by
    simp only [hostOps6_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.Pass

end
-- ==== Proof.KFold.lean ====
import proofs.«401606_j16690242913042_1_alg».proof.Proof.Gen.KernelIdeal.Frame
import proofs.«401606_j16690242913042_1_alg».proof.Proof.Region0
import proofs.«401606_j16690242913042_1_alg».proof.Proof.Region1
import proofs.«401606_j16690242913042_1_alg».proof.Proof.Region2
import proofs.«401606_j16690242913042_1_alg».proof.Proof.Region3
import proofs.«401606_j16690242913042_1_alg».proof.Proof.Region4
import proofs.«401606_j16690242913042_1_alg».proof.Proof.Region5
import proofs.«401606_j16690242913042_1_alg».proof.Proof.Region6
import proofs.«401606_j16690242913042_1_alg».proof.Proof.Take
import proofs.«401606_j16690242913042_1_alg».proof.Proof.Agg
import proofs.«401606_j16690242913042_1_alg».proof.Proof.Net
import proofs.«401606_j16690242913042_1_alg».proof.Proof.KPass

set_option maxRecDepth 16384

noncomputable section

open Idealize.ShloMosaic Idealize.ShloMosaic.TcCoe Idealize.ShloMosaic.ValueIdx
open Idealize.ShloMosaic.Pipeline (Dat Cfg Window)

namespace Cert.KernelIdeal.Fold

open Cert.KernelIdeal Cert.KernelIdeal.Gen Cert.Net Cert.KernelIdeal.Take

variable (m : (ℓ : Loc nD τ sig) → Buf (Elt Ideal) ℓ) (ρ : Dev nD → PrngReg)

/-- Core `c`'s thirty argument arrays as launched. -/
def inputs (c : Dev nD) : Inputs where
  xP := m ((c : Thread nD τ).loc main_arg0)
  xS := m ((c : Thread nD τ).loc main_arg1)
  idP := m ((c : Thread nD τ).loc main_arg2)
  idS := m ((c : Thread nD τ).loc main_arg3)
  src := m ((c : Thread nD τ).loc main_arg4)
  dst := m ((c : Thread nD τ).loc main_arg5)
  lblP := m ((c : Thread nD τ).loc main_arg6)
  lblS := m ((c : Thread nD τ).loc main_arg7)
  embP := m ((c : Thread nD τ).loc main_arg8)
  embS := m ((c : Thread nD τ).loc main_arg9)
  Wp := m ((c : Thread nD τ).loc main_arg10)
  bp := m ((c : Thread nD τ).loc main_arg11)
  Ws := m ((c : Thread nD τ).loc main_arg12)
  bs := m ((c : Thread nD τ).loc main_arg13)
  Wl1ps := m ((c : Thread nD τ).loc main_arg14)
  bl1ps := m ((c : Thread nD τ).loc main_arg15)
  Wr1ps := m ((c : Thread nD τ).loc main_arg16)
  Wl1sp := m ((c : Thread nD τ).loc main_arg17)
  bl1sp := m ((c : Thread nD τ).loc main_arg18)
  Wr1sp := m ((c : Thread nD τ).loc main_arg19)
  Wl2ps := m ((c : Thread nD τ).loc main_arg20)
  bl2ps := m ((c : Thread nD τ).loc main_arg21)
  Wr2ps := m ((c : Thread nD τ).loc main_arg22)
  Wl2sp := m ((c : Thread nD τ).loc main_arg23)
  bl2sp := m ((c : Thread nD τ).loc main_arg24)
  Wr2sp := m ((c : Thread nD τ).loc main_arg25)
  Wc1 := m ((c : Thread nD τ).loc main_arg26)
  bc1 := m ((c : Thread nD τ).loc main_arg27)
  Wc2 := m ((c : Thread nD τ).loc main_arg28)
  bc2 := m ((c : Thread nD τ).loc main_arg29)

/-! ## Equal arguments give equal values (for functions of two to five arrays) -/

private theorem congr2 {α β γ : Type} (f : α → β → γ) {a a' : α} {b b' : β}
    (ha : a = a') (hb : b = b') : f a b = f a' b' := by
  subst ha hb; rfl
private theorem congr3 {α β γ δ : Type} (f : α → β → γ → δ) {a a' : α} {b b' : β} {d d' : γ}
    (ha : a = a') (hb : b = b') (hd : d = d') : f a b d = f a' b' d' := by
  subst ha hb hd; rfl
private theorem congr4 {α β γ δ ε : Type} (f : α → β → γ → δ → ε) {a a' : α} {b b' : β} {d d' : γ} {e e' : δ}
    (ha : a = a') (hb : b = b') (hd : d = d') (he : e = e') : f a b d e = f a' b' d' e' := by
  subst ha hb hd he; rfl
private theorem congr5 {α β γ δ ε ζ : Type} (f : α → β → γ → δ → ε → ζ) {a a' : α} {b b' : β} {d d' : γ} {e e' : δ}
    {g g' : ε} (ha : a = a') (hb : b = b') (hd : d = d') (he : e = e') (hg : g = g') :
    f a b d e g = f a' b' d' e' g' := by
  subst ha hb hd he hg; rfl

/-! ## The argument arrays, read at the boundary where a step takes them

    No host operation and no launch writes an argument's buffer, so at every boundary it holds what it held at the
    launch: the chain of "this step does not write it" facts from that boundary back to the launch memory. -/

theorem arg9_at1 (c : Dev nD) : W1 m ρ c (Proc.devRef .tc main_arg9) = (inputs m c).embS :=
  Pass.w1_arg9 m ρ c
theorem arg3_at1 (c : Dev nD) : W1 m ρ c (Proc.devRef .tc main_arg3) = (inputs m c).idS :=
  Pass.w1_arg3 m ρ c

theorem arg0_at2 (c : Dev nD) : W2 m ρ c (Proc.devRef .tc main_arg0) = (inputs m c).xP :=
  (Pass.w2_arg0 m ρ c).trans (Pass.w1_arg0 m ρ c)
theorem arg10_at2 (c : Dev nD) : W2 m ρ c (Proc.devRef .tc main_arg10) = (inputs m c).Wp :=
  (Pass.w2_arg10 m ρ c).trans (Pass.w1_arg10 m ρ c)
theorem arg11_at2 (c : Dev nD) : W2 m ρ c (Proc.devRef .tc main_arg11) = (inputs m c).bp :=
  (Pass.w2_arg11 m ρ c).trans (Pass.w1_arg11 m ρ c)

theorem arg1_at3 (c : Dev nD) : W3 m ρ c (Proc.devRef .tc main_arg1) = (inputs m c).xS :=
  (Pass.w3_arg1 m ρ c).trans <| (Pass.w2_arg1 m ρ c).trans (Pass.w1_arg1 m ρ c)
theorem arg12_at3 (c : Dev nD) : W3 m ρ c (Proc.devRef .tc main_arg12) = (inputs m c).Ws :=
  (Pass.w3_arg12 m ρ c).trans <| (Pass.w2_arg12 m ρ c).trans (Pass.w1_arg12 m ρ c)
theorem arg13_at3 (c : Dev nD) : W3 m ρ c (Proc.devRef .tc main_arg13) = (inputs m c).bs :=
  (Pass.w3_arg13 m ρ c).trans <| (Pass.w2_arg13 m ρ c).trans (Pass.w1_arg13 m ρ c)

theorem arg4_at4 (c : Dev nD) : W4 m ρ c (Proc.devRef .tc main_arg4) = (inputs m c).src :=
  (Pass.w4_arg4 m ρ c).trans <| (Pass.w3_arg4 m ρ c).trans <| (Pass.w2_arg4 m ρ c).trans (Pass.w1_arg4 m ρ c)
theorem arg5_at4 (c : Dev nD) : W4 m ρ c (Proc.devRef .tc main_arg5) = (inputs m c).dst :=
  (Pass.w4_arg5 m ρ c).trans <| (Pass.w3_arg5 m ρ c).trans <| (Pass.w2_arg5 m ρ c).trans (Pass.w1_arg5 m ρ c)

theorem arg14_at5 (c : Dev nD) : W5 m ρ c (Proc.devRef .tc main_arg14) = (inputs m c).Wl1ps :=
  (Pass.w5_arg14 m ρ c).trans <| (Pass.w4_arg14 m ρ c).trans <| (Pass.w3_arg14 m ρ c).trans <|
    (Pass.w2_arg14 m ρ c).trans (Pass.w1_arg14 m ρ c)
theorem arg15_at5 (c : Dev nD) : W5 m ρ c (Proc.devRef .tc main_arg15) = (inputs m c).bl1ps :=
  (Pass.w5_arg15 m ρ c).trans <| (Pass.w4_arg15 m ρ c).trans <| (Pass.w3_arg15 m ρ c).trans <|
    (Pass.w2_arg15 m ρ c).trans (Pass.w1_arg15 m ρ c)
theorem arg16_at5 (c : Dev nD) : W5 m ρ c (Proc.devRef .tc main_arg16) = (inputs m c).Wr1ps :=
  (Pass.w5_arg16 m ρ c).trans <| (Pass.w4_arg16 m ρ c).trans <| (Pass.w3_arg16 m ρ c).trans <|
    (Pass.w2_arg16 m ρ c).trans (Pass.w1_arg16 m ρ c)

theorem arg17_at6 (c : Dev nD) : W6 m ρ c (Proc.devRef .tc main_arg17) = (inputs m c).Wl1sp :=
  (Pass.w6_arg17 m ρ c).trans <| (Pass.w5_arg17 m ρ c).trans <| (Pass.w4_arg17 m ρ c).trans <|
    (Pass.w3_arg17 m ρ c).trans <| (Pass.w2_arg17 m ρ c).trans (Pass.w1_arg17 m ρ c)
theorem arg18_at6 (c : Dev nD) : W6 m ρ c (Proc.devRef .tc main_arg18) = (inputs m c).bl1sp :=
  (Pass.w6_arg18 m ρ c).trans <| (Pass.w5_arg18 m ρ c).trans <| (Pass.w4_arg18 m ρ c).trans <|
    (Pass.w3_arg18 m ρ c).trans <| (Pass.w2_arg18 m ρ c).trans (Pass.w1_arg18 m ρ c)
theorem arg19_at6 (c : Dev nD) : W6 m ρ c (Proc.devRef .tc main_arg19) = (inputs m c).Wr1sp :=
  (Pass.w6_arg19 m ρ c).trans <| (Pass.w5_arg19 m ρ c).trans <| (Pass.w4_arg19 m ρ c).trans <|
    (Pass.w3_arg19 m ρ c).trans <| (Pass.w2_arg19 m ρ c).trans (Pass.w1_arg19 m ρ c)

theorem arg4_at7 (c : Dev nD) : W7 m ρ c (Proc.devRef .tc main_arg4) = (inputs m c).src :=
  (Pass.w7_arg4 m ρ c).trans <| (Pass.w6_arg4 m ρ c).trans <| (Pass.w5_arg4 m ρ c).trans (arg4_at4 m ρ c)
theorem arg5_at7 (c : Dev nD) : W7 m ρ c (Proc.devRef .tc main_arg5) = (inputs m c).dst :=
  (Pass.w7_arg5 m ρ c).trans <| (Pass.w6_arg5 m ρ c).trans <| (Pass.w5_arg5 m ρ c).trans (arg5_at4 m ρ c)

theorem arg20_at8 (c : Dev nD) : W8 m ρ c (Proc.devRef .tc main_arg20) = (inputs m c).Wl2ps :=
  (Pass.w8_arg20 m ρ c).trans <| (Pass.w7_arg20 m ρ c).trans <| (Pass.w6_arg20 m ρ c).trans <|
    (Pass.w5_arg20 m ρ c).trans <| (Pass.w4_arg20 m ρ c).trans <| (Pass.w3_arg20 m ρ c).trans <|
    (Pass.w2_arg20 m ρ c).trans (Pass.w1_arg20 m ρ c)
theorem arg21_at8 (c : Dev nD) : W8 m ρ c (Proc.devRef .tc main_arg21) = (inputs m c).bl2ps :=
  (Pass.w8_arg21 m ρ c).trans <| (Pass.w7_arg21 m ρ c).trans <| (Pass.w6_arg21 m ρ c).trans <|
    (Pass.w5_arg21 m ρ c).trans <| (Pass.w4_arg21 m ρ c).trans <| (Pass.w3_arg21 m ρ c).trans <|
    (Pass.w2_arg21 m ρ c).trans (Pass.w1_arg21 m ρ c)
theorem arg22_at8 (c : Dev nD) : W8 m ρ c (Proc.devRef .tc main_arg22) = (inputs m c).Wr2ps :=
  (Pass.w8_arg22 m ρ c).trans <| (Pass.w7_arg22 m ρ c).trans <| (Pass.w6_arg22 m ρ c).trans <|
    (Pass.w5_arg22 m ρ c).trans <| (Pass.w4_arg22 m ρ c).trans <| (Pass.w3_arg22 m ρ c).trans <|
    (Pass.w2_arg22 m ρ c).trans (Pass.w1_arg22 m ρ c)

theorem arg23_at9 (c : Dev nD) : W9 m ρ c (Proc.devRef .tc main_arg23) = (inputs m c).Wl2sp :=
  (Pass.w9_arg23 m ρ c).trans <| (Pass.w8_arg23 m ρ c).trans <| (Pass.w7_arg23 m ρ c).trans <|
    (Pass.w6_arg23 m ρ c).trans <| (Pass.w5_arg23 m ρ c).trans <| (Pass.w4_arg23 m ρ c).trans <|
    (Pass.w3_arg23 m ρ c).trans <| (Pass.w2_arg23 m ρ c).trans (Pass.w1_arg23 m ρ c)
theorem arg24_at9 (c : Dev nD) : W9 m ρ c (Proc.devRef .tc main_arg24) = (inputs m c).bl2sp :=
  (Pass.w9_arg24 m ρ c).trans <| (Pass.w8_arg24 m ρ c).trans <| (Pass.w7_arg24 m ρ c).trans <|
    (Pass.w6_arg24 m ρ c).trans <| (Pass.w5_arg24 m ρ c).trans <| (Pass.w4_arg24 m ρ c).trans <|
    (Pass.w3_arg24 m ρ c).trans <| (Pass.w2_arg24 m ρ c).trans (Pass.w1_arg24 m ρ c)
theorem arg25_at9 (c : Dev nD) : W9 m ρ c (Proc.devRef .tc main_arg25) = (inputs m c).Wr2sp :=
  (Pass.w9_arg25 m ρ c).trans <| (Pass.w8_arg25 m ρ c).trans <| (Pass.w7_arg25 m ρ c).trans <|
    (Pass.w6_arg25 m ρ c).trans <| (Pass.w5_arg25 m ρ c).trans <| (Pass.w4_arg25 m ρ c).trans <|
    (Pass.w3_arg25 m ρ c).trans <| (Pass.w2_arg25 m ρ c).trans (Pass.w1_arg25 m ρ c)

theorem arg6_at10 (c : Dev nD) : W10 m ρ c (Proc.devRef .tc main_arg6) = (inputs m c).lblP :=
  (Pass.w10_arg6 m ρ c).trans <| (Pass.w9_arg6 m ρ c).trans <| (Pass.w8_arg6 m ρ c).trans <|
    (Pass.w7_arg6 m ρ c).trans <| (Pass.w6_arg6 m ρ c).trans <| (Pass.w5_arg6 m ρ c).trans <|
    (Pass.w4_arg6 m ρ c).trans <| (Pass.w3_arg6 m ρ c).trans <| (Pass.w2_arg6 m ρ c).trans (Pass.w1_arg6 m ρ c)

theorem arg7_at11 (c : Dev nD) : W11 m ρ c (Proc.devRef .tc main_arg7) = (inputs m c).lblS :=
  (Pass.w11_arg7 m ρ c).trans <| (Pass.w10_arg7 m ρ c).trans <| (Pass.w9_arg7 m ρ c).trans <|
    (Pass.w8_arg7 m ρ c).trans <| (Pass.w7_arg7 m ρ c).trans <| (Pass.w6_arg7 m ρ c).trans <|
    (Pass.w5_arg7 m ρ c).trans <| (Pass.w4_arg7 m ρ c).trans <| (Pass.w3_arg7 m ρ c).trans <|
    (Pass.w2_arg7 m ρ c).trans (Pass.w1_arg7 m ρ c)

theorem arg26_at13 (c : Dev nD) : W13 m ρ c (Proc.devRef .tc main_arg26) = (inputs m c).Wc1 :=
  (Pass.w13_arg26 m ρ c).trans <| (Pass.w12_arg26 m ρ c).trans <| (Pass.w11_arg26 m ρ c).trans <|
    (Pass.w10_arg26 m ρ c).trans <| (Pass.w9_arg26 m ρ c).trans <| (Pass.w8_arg26 m ρ c).trans <|
    (Pass.w7_arg26 m ρ c).trans <| (Pass.w6_arg26 m ρ c).trans <| (Pass.w5_arg26 m ρ c).trans <|
    (Pass.w4_arg26 m ρ c).trans <| (Pass.w3_arg26 m ρ c).trans <| (Pass.w2_arg26 m ρ c).trans
    (Pass.w1_arg26 m ρ c)
theorem arg27_at13 (c : Dev nD) : W13 m ρ c (Proc.devRef .tc main_arg27) = (inputs m c).bc1 :=
  (Pass.w13_arg27 m ρ c).trans <| (Pass.w12_arg27 m ρ c).trans <| (Pass.w11_arg27 m ρ c).trans <|
    (Pass.w10_arg27 m ρ c).trans <| (Pass.w9_arg27 m ρ c).trans <| (Pass.w8_arg27 m ρ c).trans <|
    (Pass.w7_arg27 m ρ c).trans <| (Pass.w6_arg27 m ρ c).trans <| (Pass.w5_arg27 m ρ c).trans <|
    (Pass.w4_arg27 m ρ c).trans <| (Pass.w3_arg27 m ρ c).trans <| (Pass.w2_arg27 m ρ c).trans
    (Pass.w1_arg27 m ρ c)
theorem arg28_at13 (c : Dev nD) : W13 m ρ c (Proc.devRef .tc main_arg28) = (inputs m c).Wc2 :=
  (Pass.w13_arg28 m ρ c).trans <| (Pass.w12_arg28 m ρ c).trans <| (Pass.w11_arg28 m ρ c).trans <|
    (Pass.w10_arg28 m ρ c).trans <| (Pass.w9_arg28 m ρ c).trans <| (Pass.w8_arg28 m ρ c).trans <|
    (Pass.w7_arg28 m ρ c).trans <| (Pass.w6_arg28 m ρ c).trans <| (Pass.w5_arg28 m ρ c).trans <|
    (Pass.w4_arg28 m ρ c).trans <| (Pass.w3_arg28 m ρ c).trans <| (Pass.w2_arg28 m ρ c).trans
    (Pass.w1_arg28 m ρ c)
theorem arg29_at13 (c : Dev nD) : W13 m ρ c (Proc.devRef .tc main_arg29) = (inputs m c).bc2 :=
  (Pass.w13_arg29 m ρ c).trans <| (Pass.w12_arg29 m ρ c).trans <| (Pass.w11_arg29 m ρ c).trans <|
    (Pass.w10_arg29 m ρ c).trans <| (Pass.w9_arg29 m ρ c).trans <| (Pass.w8_arg29 m ρ c).trans <|
    (Pass.w7_arg29 m ρ c).trans <| (Pass.w6_arg29 m ρ c).trans <| (Pass.w5_arg29 m ρ c).trans <|
    (Pass.w4_arg29 m ρ c).trans <| (Pass.w3_arg29 m ρ c).trans <| (Pass.w2_arg29 m ρ c).trans
    (Pass.w1_arg29 m ρ c)

/-! ## The computed arrays, boundary by boundary

    Each step's result, as the network's named piece of the argument arrays: a host stretch's result is its
    function of what the stretch reads; a launch's output array is the dense layer of what the launch reads; a
    buffer the next steps do not write keeps the value until the step that reads it. -/

/-- The picked embedding rows of the 100000 nodes, at the first launch's entry. -/
theorem v0_at2 (c : Dev nD) :
    W2 m ρ c (Proc.devRef .tc main_v0) = takePP (inputs m c).embP (inputs m c).idP :=
  (Pass.w2_v0 m ρ c).trans (Take.stretch0 (W0 m ρ c))

/-- The picked embedding rows of the 10000 nodes, at the first launch's entry. -/
theorem v1_at2 (c : Dev nD) :
    W2 m ρ c (Proc.devRef .tc main_v1) = takeSS (inputs m c).embS (inputs m c).idS :=
  (Take.stretch0_1 (W1 m ρ c)).trans (congr2 takeSS (arg9_at1 m ρ c) (arg3_at1 m ρ c))

/-- The first launch leaves the projected features of the 100000 nodes. -/
theorem v2_at3 (c : Dev nD) : W3 m ρ c (Proc.devRef .tc main_v2) = xp takePP (inputs m c) := by
  unfold xp
  exact (W3_arr m ρ c 4).trans ((Region0.final (V2 m ρ) c).trans
    (congr4 (Cert.Spec.embedLin (n := 100000)) (arg0_at2 m ρ c) (v0_at2 m ρ c) (arg10_at2 m ρ c) (arg11_at2 m ρ c)))

theorem v1_at3 (c : Dev nD) :
    W3 m ρ c (Proc.devRef .tc main_v1) = takeSS (inputs m c).embS (inputs m c).idS :=
  (Pass.w3_v1 m ρ c).trans (v1_at2 m ρ c)

/-- The second launch leaves the projected features of the 10000 nodes. -/
theorem v3_at4 (c : Dev nD) : W4 m ρ c (Proc.devRef .tc main_v3) = xs takeSS (inputs m c) := by
  unfold xs
  exact (W4_arr m ρ c 4).trans ((Region1.final (V3 m ρ) c).trans
    (congr4 (Cert.Spec.embedLin (n := 10000)) (arg1_at3 m ρ c) (v1_at3 m ρ c) (arg12_at3 m ρ c) (arg13_at3 m ρ c)))

theorem v2_at4 (c : Dev nD) : W4 m ρ c (Proc.devRef .tc main_v2) = xp takePP (inputs m c) :=
  (Pass.w4_v2 m ρ c).trans (v2_at3 m ρ c)

/-- The degrees of the 10000 targets. -/
theorem v7_at5 (c : Dev nD) : W5 m ρ c (Proc.devRef .tc main_v7) = degS (inputs m c).dst :=
  (Agg.stretch2_degS (W4 m ρ c)).trans (congrArg degS (arg5_at4 m ρ c))

/-- The degrees of the 100000 targets. -/
theorem v10_at5 (c : Dev nD) : W5 m ρ c (Proc.devRef .tc main_v10) = degP (inputs m c).src :=
  (Agg.stretch2_degP (W4 m ρ c)).trans (congrArg degP (arg4_at4 m ρ c))

/-- The mean of the projected features over the edges into the 10000 targets. -/
theorem v25_at5 (c : Dev nD) :
    W5 m ρ c (Proc.devRef .tc main_v25) = aggS (xp takePP (inputs m c)) (inputs m c).src (inputs m c).dst :=
  (Agg.stretch2_aggS (W4 m ρ c)).trans (congr3 aggS (v2_at4 m ρ c) (arg4_at4 m ρ c) (arg5_at4 m ρ c))

/-- The mean of the projected features over the edges into the 100000 targets. -/
theorem v40_at5 (c : Dev nD) :
    W5 m ρ c (Proc.devRef .tc main_v40) = aggP (xs takeSS (inputs m c)) (inputs m c).src (inputs m c).dst :=
  (Agg.stretch2_aggP (W4 m ρ c)).trans (congr3 aggP (v3_at4 m ρ c) (arg4_at4 m ρ c) (arg5_at4 m ρ c))

theorem v3_at5 (c : Dev nD) : W5 m ρ c (Proc.devRef .tc main_v3) = xs takeSS (inputs m c) :=
  (Pass.w5_v3 m ρ c).trans (v3_at4 m ρ c)
theorem v2_at5 (c : Dev nD) : W5 m ρ c (Proc.devRef .tc main_v2) = xp takePP (inputs m c) :=
  (Pass.w5_v2 m ρ c).trans (v2_at4 m ρ c)

/-- The third launch leaves the first layer's features of the 10000 nodes. -/
theorem v41_at6 (c : Dev nD) : W6 m ρ c (Proc.devRef .tc main_v41) = hs takePP takeSS (inputs m c) := by
  unfold hs
  exact (W6_arr m ρ c 5).trans ((Region2.final (V5 m ρ) c).trans
    (congr5 (Cert.Spec.sageRelu (n := 10000)) (v25_at5 m ρ c) (v3_at5 m ρ c) (arg14_at5 m ρ c) (arg15_at5 m ρ c)
      (arg16_at5 m ρ c)))

theorem v40_at6 (c : Dev nD) :
    W6 m ρ c (Proc.devRef .tc main_v40) = aggP (xs takeSS (inputs m c)) (inputs m c).src (inputs m c).dst :=
  (Pass.w6_v40 m ρ c).trans (v40_at5 m ρ c)
theorem v2_at6 (c : Dev nD) : W6 m ρ c (Proc.devRef .tc main_v2) = xp takePP (inputs m c) :=
  (Pass.w6_v2 m ρ c).trans (v2_at5 m ρ c)
theorem v7_at6 (c : Dev nD) : W6 m ρ c (Proc.devRef .tc main_v7) = degS (inputs m c).dst :=
  (Pass.w6_v7 m ρ c).trans (v7_at5 m ρ c)
theorem v10_at6 (c : Dev nD) : W6 m ρ c (Proc.devRef .tc main_v10) = degP (inputs m c).src :=
  (Pass.w6_v10 m ρ c).trans (v10_at5 m ρ c)

/-- The fourth launch leaves the first layer's features of the 100000 nodes. -/
theorem v42_at7 (c : Dev nD) : W7 m ρ c (Proc.devRef .tc main_v42) = hp takePP takeSS (inputs m c) := by
  unfold hp
  exact (W7_arr m ρ c 5).trans ((Region3.final (V6 m ρ) c).trans
    (congr5 (Cert.Spec.sageRelu (n := 100000)) (v40_at6 m ρ c) (v2_at6 m ρ c) (arg17_at6 m ρ c) (arg18_at6 m ρ c)
      (arg19_at6 m ρ c)))

theorem v41_at7 (c : Dev nD) : W7 m ρ c (Proc.devRef .tc main_v41) = hs takePP takeSS (inputs m c) :=
  (Pass.w7_v41 m ρ c).trans (v41_at6 m ρ c)
theorem v7_at7 (c : Dev nD) : W7 m ρ c (Proc.devRef .tc main_v7) = degS (inputs m c).dst :=
  (Pass.w7_v7 m ρ c).trans (v7_at6 m ρ c)
theorem v10_at7 (c : Dev nD) : W7 m ρ c (Proc.devRef .tc main_v10) = degP (inputs m c).src :=
  (Pass.w7_v10 m ρ c).trans (v10_at6 m ρ c)

/-- The mean of the first layer's features over the edges into the 10000 targets (the degrees are the ones
    computed before the first layer: the same function of the same edge list). -/
theorem v57_at8 (c : Dev nD) :
    W8 m ρ c (Proc.devRef .tc main_v57)
      = aggS (hp takePP takeSS (inputs m c)) (inputs m c).src (inputs m c).dst := by
  unfold aggS
  exact (Agg.stretch4_aggS (W7 m ρ c)).trans
    (congr4 aggS' (v42_at7 m ρ c) (arg4_at7 m ρ c) (arg5_at7 m ρ c) (v7_at7 m ρ c))

/-- The mean of the first layer's features over the edges into the 100000 targets. -/
theorem v72_at8 (c : Dev nD) :
    W8 m ρ c (Proc.devRef .tc main_v72)
      = aggP (hs takePP takeSS (inputs m c)) (inputs m c).src (inputs m c).dst := by
  unfold aggP
  exact (Agg.stretch4_aggP (W7 m ρ c)).trans
    (congr4 aggP' (v41_at7 m ρ c) (arg4_at7 m ρ c) (arg5_at7 m ρ c) (v10_at7 m ρ c))

theorem v41_at8 (c : Dev nD) : W8 m ρ c (Proc.devRef .tc main_v41) = hs takePP takeSS (inputs m c) :=
  (Pass.w8_v41 m ρ c).trans (v41_at7 m ρ c)
theorem v42_at8 (c : Dev nD) : W8 m ρ c (Proc.devRef .tc main_v42) = hp takePP takeSS (inputs m c) :=
  (Pass.w8_v42 m ρ c).trans (v42_at7 m ρ c)

/-- The fifth launch leaves the second layer's features of the 10000 nodes. -/
theorem v73_at9 (c : Dev nD) : W9 m ρ c (Proc.devRef .tc main_v73) = os takePP takeSS (inputs m c) := by
  unfold os
  exact (W9_arr m ρ c 5).trans ((Region4.final (V8 m ρ) c).trans
    (congr5 (Cert.Spec.sageLin (n := 10000)) (v57_at8 m ρ c) (v41_at8 m ρ c) (arg20_at8 m ρ c) (arg21_at8 m ρ c)
      (arg22_at8 m ρ c)))

theorem v72_at9 (c : Dev nD) :
    W9 m ρ c (Proc.devRef .tc main_v72)
      = aggP (hs takePP takeSS (inputs m c)) (inputs m c).src (inputs m c).dst :=
  (Pass.w9_v72 m ρ c).trans (v72_at8 m ρ c)
theorem v42_at9 (c : Dev nD) : W9 m ρ c (Proc.devRef .tc main_v42) = hp takePP takeSS (inputs m c) :=
  (Pass.w9_v42 m ρ c).trans (v42_at8 m ρ c)

/-- The sixth launch leaves the second layer's features of the 100000 nodes. -/
theorem v74_at10 (c : Dev nD) : W10 m ρ c (Proc.devRef .tc main_v74) = op takePP takeSS (inputs m c) := by
  unfold op
  exact (W10_arr m ρ c 5).trans ((Region5.final (V9 m ρ) c).trans
    (congr5 (Cert.Spec.sageLin (n := 100000)) (v72_at9 m ρ c) (v42_at9 m ρ c) (arg23_at9 m ρ c) (arg24_at9 m ρ c)
      (arg25_at9 m ρ c)))

theorem v73_at10 (c : Dev nD) : W10 m ρ c (Proc.devRef .tc main_v73) = os takePP takeSS (inputs m c) :=
  (Pass.w10_v73 m ρ c).trans (v73_at9 m ρ c)

/-- The labelled pairs' rows of the 100000 nodes' final features. -/
theorem v75_at11 (c : Dev nD) :
    W11 m ρ c (Proc.devRef .tc main_v75) = takePL (op takePP takeSS (inputs m c)) (inputs m c).lblP :=
  (Take.stretch6 (W10 m ρ c)).trans (congr2 takePL (v74_at10 m ρ c) (arg6_at10 m ρ c))

theorem v73_at11 (c : Dev nD) : W11 m ρ c (Proc.devRef .tc main_v73) = os takePP takeSS (inputs m c) :=
  (Pass.w11_v73 m ρ c).trans (v73_at10 m ρ c)

/-- The labelled pairs' rows of the 10000 nodes' final features. -/
theorem v76_at12 (c : Dev nD) :
    W12 m ρ c (Proc.devRef .tc main_v76) = takeSL (os takePP takeSS (inputs m c)) (inputs m c).lblS :=
  (Take.stretch6_1 (W11 m ρ c)).trans (congr2 takeSL (v73_at11 m ρ c) (arg7_at11 m ρ c))

theorem v75_at12 (c : Dev nD) :
    W12 m ρ c (Proc.devRef .tc main_v75) = takePL (op takePP takeSS (inputs m c)) (inputs m c).lblP :=
  (Pass.w12_v75 m ρ c).trans (v75_at11 m ρ c)

/-- The classifier's input: the two picked halves side by side. -/
theorem v77_at13 (c : Dev nD) :
    W13 m ρ c (Proc.devRef .tc main_v77) = zc takePP takeSS takePL takeSL (inputs m c) := by
  unfold zc
  exact (Agg.stretch6_2 (W12 m ρ c)).trans (congr2 join (v75_at12 m ρ c) (v76_at12 m ρ c))

/-- The last launch leaves the classifier's one-column result. -/
theorem v78_at14 (c : Dev nD) :
    W14 m ρ c (Proc.devRef .tc main_v78)
      = Cert.Spec.classify (n := 200000) (zc takePP takeSS takePL takeSL (inputs m c)) (inputs m c).Wc1
          (inputs m c).bc1 (inputs m c).Wc2 (inputs m c).bc2 :=
  (W14_arr m ρ c 5).trans ((Region6.final (V13 m ρ) c).trans
    (congr5 (Cert.Spec.classify (n := 200000)) (v77_at13 m ρ c) (arg26_at13 m ρ c) (arg27_at13 m ρ c)
      (arg28_at13 m ρ c) (arg29_at13 m ρ c)))

/-- What the result buffer holds at the end of the fold of boundary contents: the network over the row picks that
    fill a row outside its table with the not-a-number pattern, of the argument arrays as launched. -/
theorem kernel_value (c : Dev nD) :
    W15 m ρ c (Proc.devRef .tc main_v79) = netOut takePP takeSS takePL takeSL (inputs m c) := by
  unfold netOut
  exact (Agg.stretch7 (W14 m ρ c)).trans (congrArg squeeze (v78_at14 m ρ c))

end Cert.KernelIdeal.Fold

end
-- ==== Proof.RefValue.lean ====
/-
  The reference program's result is the network over the plain row picks.

  The reference is a chain of dense stages (a matrix product, a bias row spread over the rows, a sum, a clamp at 0)
  and sparse stages (row picks, sums into target rows, the side-by-side join). A dense stage is read at an index:
  the product's entry is the sum over the shared axis of the operands at the product's two index functions, and
  these are `ix2 r k` and `ix2 k j`; the bias is read at the column. A sparse stage is the same operation on both
  sides, so it is matched as it stands and only its operand is rewritten.
-/
import proofs.«401606_j16690242913042_1_alg».proof.Proof.Gen.ReferenceIdeal.Read
import proofs.«401606_j16690242913042_1_alg».proof.Proof.Net

set_option maxRecDepth 16384

noncomputable section

open Idealize.ShloMosaic Idealize.ShloMosaic.TcCoe Idealize.ShloMosaic.ValueIdx
open Idealize.ShloMosaic.Pipeline (Dat Cfg Window)

namespace Cert.ReferenceIdeal.RefValue

open Cert.ReferenceIdeal Cert.ReferenceIdeal.Read Cert.Net Cert.Spec

/-! ## Indices and entries -/

/-- Two rank-2 indices with the same coordinates are equal. -/
theorem idx2_ext {n0 n1 : Nat} (p q : (⟨2, ![n0, n1]⟩ : Shape).Idx) (h0 : p 0 = q 0) (h1 : p 1 = q 1) : p = q := by
  funext a
  match a with
  | ⟨0, _⟩ => exact h0
  | ⟨1, _⟩ => exact h1

/-- Two rank-1 indices with the same coordinate are equal. -/
theorem idx1_ext {n0 : Nat} (p q : (⟨1, ![n0]⟩ : Shape).Idx) (h0 : p 0 = q 0) : p = q := by
  funext a
  match a with
  | ⟨0, _⟩ => exact h0

/-- A sum over the shared axis, its operands read at (r, k) and (k, j), is the product's entry (r, j). -/
theorem dotAt_of_idx {n k h : Nat} (x : Mat n k) (W : Mat k h) (r : Fin n) (j : Fin h)
    (l : Fin k → (⟨2, ![n, k]⟩ : Shape).Idx) (g : Fin k → (⟨2, ![k, h]⟩ : Shape).Idx)
    (hl : ∀ kk, l kk = ix2 r kk) (hg : ∀ kk, g kk = ix2 kk j) :
    (∑ kk : Fin k, x (l kk) * W (g kk)) = dotAt x W r j := by
  unfold dotAt
  exact Finset.sum_congr rfl fun kk _ => by rw [hl kk, hg kk]

/-- The input projection at an index, from its three summands. -/
theorem embedLin_at {n : Nat} (x : Mat n 256) (e : Mat n 128) (W : Mat 256 128) (b : Row 128)
    (i : (⟨2, ![n, 128]⟩ : Shape).Idx) (s bb ee : Ideal .f32)
    (hs : s = dotAt x W (i 0) (i 1)) (hb : bb = b (ix1 (i 1))) (he : ee = e i) :
    FloatOps.addf (FloatOps.addf s bb) ee = embedLin x e W b i := by
  subst hs hb he
  rfl

/-- A message-passing layer at an index, from its three summands. -/
theorem sageLin_at {n : Nat} (a d : Mat n 128) (Wl : Mat 128 128) (bl : Row 128) (Wr : Mat 128 128)
    (i : (⟨2, ![n, 128]⟩ : Shape).Idx) (s bb t : Ideal .f32)
    (hs : s = dotAt a Wl (i 0) (i 1)) (hb : bb = bl (ix1 (i 1))) (ht : t = dotAt d Wr (i 0) (i 1)) :
    FloatOps.addf (FloatOps.addf s bb) t = sageLin a d Wl bl Wr i := by
  subst hs hb ht
  rfl

/-- The rectified layer at an index: the clamp's second operand is the constant 0. -/
theorem sageRelu_at {n : Nat} (a d : Mat n 128) (Wl : Mat 128 128) (bl : Row 128) (Wr : Mat 128 128)
    (i : (⟨2, ![n, 128]⟩ : Shape).Idx) (s bb t : Ideal .f32)
    (hs : s = dotAt a Wl (i 0) (i 1)) (hb : bb = bl (ix1 (i 1))) (ht : t = dotAt d Wr (i 0) (i 1)) :
    FloatOps.maximumf (FloatOps.addf (FloatOps.addf s bb) t) (FloatOps.ofBits (F := Ideal) .f32 0x00000000#32)
      = sageRelu a d Wl bl Wr i := by
  subst hs hb ht
  show max _ (Ideal.ofBits .f32 0x00000000#32) = max _ 0
  rw [Ideal.ofBits_zero_f32]
  rfl

/-- A hidden unit of the classifier, from its two summands. -/
theorem hiddenAt_of {n : Nat} (z : Mat n 256) (W1 : Mat 256 128) (b1 : Row 128) (r : Fin n) (j : Fin 128)
    (s bb : Ideal .f32) (hs : s = dotAt z W1 r j) (hb : bb = b1 (ix1 j)) :
    FloatOps.maximumf (FloatOps.addf s bb) (FloatOps.ofBits (F := Ideal) .f32 0x00000000#32) = hiddenAt z W1 b1 r j := by
  subst hs hb
  show max _ (Ideal.ofBits .f32 0x00000000#32) = max _ 0
  rw [Ideal.ofBits_zero_f32]
  rfl

/-! ## The row picks

  The reference wraps an index vector (adds the table's row count where the index is negative), makes it a
  column and gathers: the same operations, in the same order, as the network's row picks. -/

theorem pickPP_eq (tbl : FArr S100000x128) (idx : IArr S100000) :
    val_main_v10 (F := Ideal) idx tbl = pickPP tbl idx := by
  unfold val_main_v10 val_main_v9 val_main_v8 val_main_v5 val_main_v4 val_main_c val_main_v7 val_main_v6 val_main_c_0 pickPP wrap
  rfl

theorem pickSS_eq (tbl : FArr S10000x128) (idx : IArr S10000) :
    val_main_v22 (F := Ideal) idx tbl = pickSS tbl idx := by
  unfold val_main_v22 val_main_v21 val_main_v20 val_main_v17 val_main_v16 val_main_c_1 val_main_v19 val_main_v18 val_main_c_2 pickSS wrap
  rfl

theorem pickPL_eq (tbl : FArr S100000x128) (idx : IArr S200000) :
    Host.gather gather_S100000x128_S200000x1_S200000x128_1_0_n_n_0_1_1128 tbl (val_main_v131 (F := Ideal) idx)
      = pickPL tbl idx := by
  unfold val_main_v131 val_main_v130 val_main_v127 val_main_v126 val_main_c_26 val_main_v129 val_main_v128 val_main_c_27 pickPL wrap
  rfl

theorem pickSL_eq (tbl : FArr S10000x128) (idx : IArr S200000) :
    Host.gather gather_S10000x128_S200000x1_S200000x128_1_0_n_n_0_1_1128 tbl (val_main_v138 (F := Ideal) idx)
      = pickSL tbl idx := by
  unfold val_main_v138 val_main_v137 val_main_v134 val_main_v133 val_main_c_28 val_main_v136 val_main_v135 val_main_c_29 pickSL wrap
  rfl

/-! ## The two input projections -/

theorem xp_eq (I : Inputs) :
    val_main_v11 (F := Ideal) I.xP I.idP I.embP I.Wp I.bp = xp pickPP I := by
  funext i
  rw [val_main_v11_apply, val_main_v3_apply, val_main_v0_apply, val_main_v2_apply, val_main_v1_apply]
  show _ = embedLin (n := 100000) I.xP (pickPP I.embP I.idP) I.Wp I.bp i
  exact embedLin_at (n := 100000) I.xP (pickPP I.embP I.idP) I.Wp I.bp i _ _ _
    (dotAt_of_idx (n := 100000) (k := 256) (h := 128) I.xP I.Wp (i 0) (i 1) (lidx_main_v0 i) (ridx_main_v0 i)
      (fun kk => idx2_ext _ _ rfl rfl) (fun kk => idx2_ext _ _ rfl rfl))
    (congrArg I.bp (idx1_ext _ _ rfl)) (congrFun (pickPP_eq I.embP I.idP) i)

theorem xs_eq (I : Inputs) :
    val_main_v23 (F := Ideal) I.xS I.idS I.embS I.Ws I.bs = xs pickSS I := by
  funext i
  rw [val_main_v23_apply, val_main_v15_apply, val_main_v12_apply, val_main_v14_apply, val_main_v13_apply]
  show _ = embedLin (n := 10000) I.xS (pickSS I.embS I.idS) I.Ws I.bs i
  exact embedLin_at (n := 10000) I.xS (pickSS I.embS I.idS) I.Ws I.bs i _ _ _
    (dotAt_of_idx (n := 10000) (k := 256) (h := 128) I.xS I.Ws (i 0) (i 1) (lidx_main_v12 i) (ridx_main_v12 i)
      (fun kk => idx2_ext _ _ rfl rfl) (fun kk => idx2_ext _ _ rfl rfl))
    (congrArg I.bs (idx1_ext _ _ rfl)) (congrFun (pickSS_eq I.embS I.idS) i)

/-! ## The first layer -/

/-- The mean aggregation of the projected 100000-node features into the 10000 nodes. -/
theorem agg1S_eq (I : Inputs) :
    val_main_v42 (F := Ideal) I.xP I.idP I.src I.dst I.embP I.Wp I.bp = aggS (val_main_v11 (F := Ideal) I.xP I.idP I.embP I.Wp I.bp) I.src I.dst := by
  unfold val_main_v42 val_main_v33 val_main_v30 val_main_v29 val_main_v28 val_main_v25 val_main_v24 val_main_c_3 val_main_v27 val_main_v26 val_main_c_4 val_main_v31 val_main_cst val_main_v32 val_main_v41 val_main_v40 val_main_v39 val_main_v37 val_main_v35 val_main_cst_6 val_main_v36 val_main_v34 val_main_cst_5 val_main_v38 val_main_cst_7
    aggS aggS' degS wrap zeroS oneS
  rfl

/-- The mean aggregation of the projected 10000-node features into the 100000 nodes. -/
theorem agg1P_eq (I : Inputs) :
    val_main_v68 (F := Ideal) I.xS I.idS I.src I.dst I.embS I.Ws I.bs = aggP (val_main_v23 (F := Ideal) I.xS I.idS I.embS I.Ws I.bs) I.src I.dst := by
  unfold val_main_v68 val_main_v59 val_main_v56 val_main_v55 val_main_v54 val_main_v51 val_main_v50 val_main_c_8 val_main_v53 val_main_v52 val_main_c_9 val_main_v57 val_main_cst_10 val_main_v58 val_main_v67 val_main_v66 val_main_v65 val_main_v63 val_main_v61 val_main_cst_12 val_main_v62 val_main_v60 val_main_cst_11 val_main_v64 val_main_cst_13
    aggP aggP' degP wrap zeroS oneS
  rfl

theorem hs_eq (I : Inputs) :
    val_main_v49 (F := Ideal) I.xP I.xS I.idP I.idS I.src I.dst I.embP I.embS I.Wp I.bp I.Ws I.bs I.Wl1ps I.bl1ps I.Wr1ps = hs pickPP pickSS I := by
  funext i
  rw [val_main_v49_apply, val_main_call0_v0_apply, val_main_call0_cst_apply, val_main_v48_apply, val_main_v46_apply,
    val_main_v43_apply, val_main_v45_apply, val_main_v44_apply, val_main_v47_apply, agg1S_eq, xp_eq, xs_eq]
  show _ = sageRelu (n := 10000) (aggS (xp pickPP I) I.src I.dst) (xs pickSS I) I.Wl1ps I.bl1ps I.Wr1ps i
  exact sageRelu_at (n := 10000) (aggS (xp pickPP I) I.src I.dst) (xs pickSS I) I.Wl1ps I.bl1ps I.Wr1ps i _ _ _
    (dotAt_of_idx (n := 10000) (k := 128) (h := 128) _ I.Wl1ps (i 0) (i 1) (lidx_main_v43 i) (ridx_main_v43 i)
      (fun kk => idx2_ext _ _ rfl rfl) (fun kk => idx2_ext _ _ rfl rfl))
    (congrArg I.bl1ps (idx1_ext _ _ rfl))
    (dotAt_of_idx (n := 10000) (k := 128) (h := 128) _ I.Wr1ps (i 0) (i 1) (lidx_main_v47 i) (ridx_main_v47 i)
      (fun kk => idx2_ext _ _ rfl rfl) (fun kk => idx2_ext _ _ rfl rfl))

theorem hp_eq (I : Inputs) :
    val_main_v75 (F := Ideal) I.xP I.xS I.idP I.idS I.src I.dst I.embP I.embS I.Wp I.bp I.Ws I.bs I.Wl1sp I.bl1sp I.Wr1sp = hp pickPP pickSS I := by
  funext i
  rw [val_main_v75_apply, val_main_call1_v0_apply, val_main_call1_cst_apply, val_main_v74_apply, val_main_v72_apply,
    val_main_v69_apply, val_main_v71_apply, val_main_v70_apply, val_main_v73_apply, agg1P_eq, xp_eq, xs_eq]
  show _ = sageRelu (n := 100000) (aggP (xs pickSS I) I.src I.dst) (xp pickPP I) I.Wl1sp I.bl1sp I.Wr1sp i
  exact sageRelu_at (n := 100000) (aggP (xs pickSS I) I.src I.dst) (xp pickPP I) I.Wl1sp I.bl1sp I.Wr1sp i _ _ _
    (dotAt_of_idx (n := 100000) (k := 128) (h := 128) _ I.Wl1sp (i 0) (i 1) (lidx_main_v69 i) (ridx_main_v69 i)
      (fun kk => idx2_ext _ _ rfl rfl) (fun kk => idx2_ext _ _ rfl rfl))
    (congrArg I.bl1sp (idx1_ext _ _ rfl))
    (dotAt_of_idx (n := 100000) (k := 128) (h := 128) _ I.Wr1sp (i 0) (i 1) (lidx_main_v73 i) (ridx_main_v73 i)
      (fun kk => idx2_ext _ _ rfl rfl) (fun kk => idx2_ext _ _ rfl rfl))

/-! ## The second layer

  Its aggregations are the first layer's operations again under new buffer names (the zero target, the wrapped
  indices and the degree are computed anew from the same inputs), so they unfold to the same terms. -/

theorem agg2S_eq (I : Inputs) :
    val_main_v94 (F := Ideal) I.xP I.xS I.idP I.idS I.src I.dst I.embP I.embS I.Wp I.bp I.Ws I.bs I.Wl1sp I.bl1sp I.Wr1sp = aggS (val_main_v75 (F := Ideal) I.xP I.xS I.idP I.idS I.src I.dst I.embP I.embS I.Wp I.bp I.Ws I.bs I.Wl1sp I.bl1sp I.Wr1sp) I.src I.dst := by
  unfold val_main_v94 val_main_v85 val_main_v82 val_main_v81 val_main_v80 val_main_v77 val_main_v76 val_main_c_14 val_main_v79 val_main_v78 val_main_c_15 val_main_v83 val_main_cst_16 val_main_v84 val_main_v93 val_main_v92 val_main_v91 val_main_v89 val_main_v87 val_main_cst_18 val_main_v88 val_main_v86 val_main_cst_17 val_main_v90 val_main_cst_19
    aggS aggS' degS wrap zeroS oneS
  rfl

theorem agg2P_eq (I : Inputs) :
    val_main_v119 (F := Ideal) I.xP I.xS I.idP I.idS I.src I.dst I.embP I.embS I.Wp I.bp I.Ws I.bs I.Wl1ps I.bl1ps I.Wr1ps = aggP (val_main_v49 (F := Ideal) I.xP I.xS I.idP I.idS I.src I.dst I.embP I.embS I.Wp I.bp I.Ws I.bs I.Wl1ps I.bl1ps I.Wr1ps) I.src I.dst := by
  unfold val_main_v119 val_main_v110 val_main_v107 val_main_v106 val_main_v105 val_main_v102 val_main_v101 val_main_c_20 val_main_v104 val_main_v103 val_main_c_21 val_main_v108 val_main_cst_22 val_main_v109 val_main_v118 val_main_v117 val_main_v116 val_main_v114 val_main_v112 val_main_cst_24 val_main_v113 val_main_v111 val_main_cst_23 val_main_v115 val_main_cst_25
    aggP aggP' degP wrap zeroS oneS
  rfl

theorem os_eq (I : Inputs) :
    val_main_v100 (F := Ideal) I.xP I.xS I.idP I.idS I.src I.dst I.embP I.embS I.Wp I.bp I.Ws I.bs I.Wl1ps I.bl1ps I.Wr1ps I.Wl1sp I.bl1sp I.Wr1sp I.Wl2ps I.bl2ps I.Wr2ps = os pickPP pickSS I := by
  funext i
  rw [val_main_v100_apply, val_main_v98_apply, val_main_v95_apply, val_main_v97_apply, val_main_v96_apply,
    val_main_v99_apply, agg2S_eq, hp_eq, hs_eq]
  show _ = sageLin (n := 10000) (aggS (hp pickPP pickSS I) I.src I.dst) (hs pickPP pickSS I) I.Wl2ps I.bl2ps I.Wr2ps i
  exact sageLin_at (n := 10000) (aggS (hp pickPP pickSS I) I.src I.dst) (hs pickPP pickSS I) I.Wl2ps I.bl2ps I.Wr2ps i _ _ _
    (dotAt_of_idx (n := 10000) (k := 128) (h := 128) _ I.Wl2ps (i 0) (i 1) (lidx_main_v95 i) (ridx_main_v95 i)
      (fun kk => idx2_ext _ _ rfl rfl) (fun kk => idx2_ext _ _ rfl rfl))
    (congrArg I.bl2ps (idx1_ext _ _ rfl))
    (dotAt_of_idx (n := 10000) (k := 128) (h := 128) _ I.Wr2ps (i 0) (i 1) (lidx_main_v99 i) (ridx_main_v99 i)
      (fun kk => idx2_ext _ _ rfl rfl) (fun kk => idx2_ext _ _ rfl rfl))

theorem op_eq (I : Inputs) :
    val_main_v125 (F := Ideal) I.xP I.xS I.idP I.idS I.src I.dst I.embP I.embS I.Wp I.bp I.Ws I.bs I.Wl1ps I.bl1ps I.Wr1ps I.Wl1sp I.bl1sp I.Wr1sp I.Wl2sp I.bl2sp I.Wr2sp = op pickPP pickSS I := by
  funext i
  rw [val_main_v125_apply, val_main_v123_apply, val_main_v120_apply, val_main_v122_apply, val_main_v121_apply,
    val_main_v124_apply, agg2P_eq, hs_eq, hp_eq]
  show _ = sageLin (n := 100000) (aggP (hs pickPP pickSS I) I.src I.dst) (hp pickPP pickSS I) I.Wl2sp I.bl2sp I.Wr2sp i
  exact sageLin_at (n := 100000) (aggP (hs pickPP pickSS I) I.src I.dst) (hp pickPP pickSS I) I.Wl2sp I.bl2sp I.Wr2sp i _ _ _
    (dotAt_of_idx (n := 100000) (k := 128) (h := 128) _ I.Wl2sp (i 0) (i 1) (lidx_main_v120 i) (ridx_main_v120 i)
      (fun kk => idx2_ext _ _ rfl rfl) (fun kk => idx2_ext _ _ rfl rfl))
    (congrArg I.bl2sp (idx1_ext _ _ rfl))
    (dotAt_of_idx (n := 100000) (k := 128) (h := 128) _ I.Wr2sp (i 0) (i 1) (lidx_main_v124 i) (ridx_main_v124 i)
      (fun kk => idx2_ext _ _ rfl rfl) (fun kk => idx2_ext _ _ rfl rfl))

/-! ## The classifier -/

/-- The classifier's input: the two row picks of the final features, joined. -/
theorem zc_eq (I : Inputs) :
    val_main_v140 (F := Ideal) I.xP I.xS I.idP I.idS I.src I.dst I.lblP I.lblS I.embP I.embS I.Wp I.bp I.Ws I.bs I.Wl1ps I.bl1ps I.Wr1ps I.Wl1sp I.bl1sp I.Wr1sp I.Wl2ps I.bl2ps I.Wr2ps I.Wl2sp I.bl2sp I.Wr2sp = zc pickPP pickSS pickPL pickSL I := by
  unfold val_main_v140 val_main_v132 val_main_v139 zc join
  rw [pickPL_eq, pickSL_eq, op_eq, os_eq]

/-- The hidden layer at an index. -/
theorem hid_eq (I : Inputs) (j : S200000x128.Idx) :
    (val_main_v145 (F := Ideal) I.xP I.xS I.idP I.idS I.src I.dst I.lblP I.lblS I.embP I.embS I.Wp I.bp I.Ws I.bs I.Wl1ps I.bl1ps I.Wr1ps I.Wl1sp I.bl1sp I.Wr1sp I.Wl2ps I.bl2ps I.Wr2ps I.Wl2sp I.bl2sp I.Wr2sp I.Wc1 I.bc1) j = hiddenAt (n := 200000) (zc pickPP pickSS pickPL pickSL I) I.Wc1 I.bc1 (j 0) (j 1) := by
  rw [val_main_v145_apply, val_main_call2_v0_apply, val_main_call2_cst_apply, val_main_v144_apply, val_main_v141_apply,
    val_main_v143_apply, val_main_v142_apply, zc_eq]
  exact hiddenAt_of (n := 200000) (zc pickPP pickSS pickPL pickSL I) I.Wc1 I.bc1 (j 0) (j 1) _ _
    (dotAt_of_idx (n := 200000) (k := 256) (h := 128) _ I.Wc1 (j 0) (j 1) (lidx_main_v141 j) (ridx_main_v141 j)
      (fun kk => idx2_ext _ _ rfl rfl) (fun kk => idx2_ext _ _ rfl rfl))
    (congrArg I.bc1 (idx1_ext _ _ rfl))

theorem cls_eq (I : Inputs) :
    val_main_v149 (F := Ideal) I.xP I.xS I.idP I.idS I.src I.dst I.lblP I.lblS I.embP I.embS I.Wp I.bp I.Ws I.bs I.Wl1ps I.bl1ps I.Wr1ps I.Wl1sp I.bl1sp I.Wr1sp I.Wl2ps I.bl2ps I.Wr2ps I.Wl2sp I.bl2sp I.Wr2sp I.Wc1 I.bc1 I.Wc2 I.bc2 = classify (n := 200000) (zc pickPP pickSS pickPL pickSL I) I.Wc1 I.bc1 I.Wc2 I.bc2 := by
  funext i
  rw [val_main_v149_apply, val_main_v146_apply, val_main_v148_apply, val_main_v147_apply]
  show FloatOps.addf (F := Ideal) (φ := .f32) _ _ = (∑ j : Fin 128, hiddenAt (n := 200000) (zc pickPP pickSS pickPL pickSL I) I.Wc1 I.bc1 (i 0) j
      * I.Wc2 (ix2 j (i 1))) + I.bc2 (ix1 (i 1))
  refine congrArg₂ (· + ·) (Finset.sum_congr rfl fun k _ => ?_) (congrArg I.bc2 (idx1_ext _ _ ?_))
  · rw [hid_eq I (lidx_main_v146 i k), show ridx_main_v146 i k = ix2 k (i 1) from idx2_ext _ _ rfl rfl]
    rfl
  · exact (Fin.eq_zero (i 1)).symm

/-- The reference's result, stage by stage, is the network over the plain row picks. -/
theorem ref_value (I : Inputs) :
    val_main_v150 (F := Ideal) I.xP I.xS I.idP I.idS I.src I.dst I.lblP I.lblS I.embP I.embS I.Wp I.bp I.Ws I.bs I.Wl1ps I.bl1ps I.Wr1ps I.Wl1sp I.bl1sp I.Wr1sp I.Wl2ps I.bl2ps I.Wr2ps I.Wl2sp I.bl2sp I.Wr2sp I.Wc1 I.bc1 I.Wc2 I.bc2
      = netOut pickPP pickSS pickPL pickSL I := by
  unfold val_main_v150 netOut squeeze
  rw [cls_eq]

end Cert.ReferenceIdeal.RefValue

end
-- ==== Proof.PreRange.lean ====
/-
  The precondition read back. The printed predicate is one conjunction: "every float input is finite" for each of the
  twenty-six float arrays, then, for each of the four index vectors that name table rows, "every entry lies between 0
  and the table's last row" (signed comparisons against scalars spread over the vector, joined position by position,
  then joined over all positions). The claim says the conjunction is the scalar 1. A conjunction of one-bit words is 1
  only when both words are (`IntOp.andi_eq_one`), so the last four conjuncts are each 1; a conjunction over all positions
  that is 1 met a 1 at every position (`Host.reduce_andi_eq_one`; the scalar result has one index, so every position
  reduces into it); and a scalar spread over a vector reads the scalar at every position, by unfolding. The finiteness
  conjuncts are not needed here and are dropped.
-/
import proofs.«401606_j16690242913042_1_alg».proof.Pre_finite_inputs
import proofs.«401606_j16690242913042_1_alg».proof.Proof.Gen.Pre_finite_inputs
import proofs.«401606_j16690242913042_1_alg».proof.Proof.Net
import Idealize.ShloMosaic.Lib.ReduceAll
import Idealize.ShloMosaic.Lib.StableHlo.Predicate
import Idealize.ShloMosaic.Lib.ValueIdx

set_option maxRecDepth 16384

noncomputable section

open Idealize.ShloMosaic Idealize.ShloMosaic.TcCoe Idealize.ShloMosaic.ValueIdx

namespace Cert.PreRange

open Cert.Net

section
open Cert.Pre_finite_inputs

/-- One conjunct read back: a conjunction over all positions of "lo ≤ idx ∧ idx ≤ hi" (both bounds scalars spread
    over the vector) that came out 1 says both comparisons hold at every position. -/
theorem all_between {s : Shape} {axes : List (Fin s.rank)} (idx : IVec s 32) (lo hi : BitVec 32)
    (b : S_.BroadcastsInDim s (![] : Fin 0 → Fin s.rank)) (hr : s.ReducesTo axes S_) (hn : 0 < S_.numel)
    (e : Host.reduce IntOp.andi
          (andi (cmpi .sge idx (broadcastInDim s ![] b (constantI S_ 32 lo)))
                (cmpi .sle idx (broadcastInDim s ![] b (constantI S_ 32 hi))))
          (constantI S_ 1 1#1) hr hn ix0 = 1#1) :
    ∀ i, IntOp.cmpi .sge (idx i) lo = 1#1 ∧ IntOp.cmpi .sle (idx i) hi = 1#1 := fun i =>
  IntOp.andi_eq_one.1 (Host.reduce_andi_eq_one _ _ hr hn ix0 e i (funext fun d => d.elim0))

/-- The four range conjuncts of the printed predicate, at any float instance and any arguments: the predicate's value at
    the scalar's one index is a left-nested conjunction whose last four members are the four range checks. -/
theorem ranges_of_fn {F : FTy → Type} [FloatOps F] {a0 : FVec F S100000x256 .f32} {a1 : FVec F S10000x256 .f32} {a2 : IVec S100000 32} {a3 : IVec S10000 32} {a4 : IVec S500000 32} {a5 : IVec S500000 32} {a6 : IVec S200000 32} {a7 : IVec S200000 32} {a8 : FVec F S100000x128 .f32} {a9 : FVec F S10000x128 .f32} {a10 : FVec F S256x128 .f32} {a11 : FVec F S128 .f32} {a12 : FVec F S256x128 .f32} {a13 : FVec F S128 .f32} {a14 : FVec F S128x128 .f32} {a15 : FVec F S128 .f32} {a16 : FVec F S128x128 .f32} {a17 : FVec F S128x128 .f32} {a18 : FVec F S128 .f32} {a19 : FVec F S128x128 .f32} {a20 : FVec F S128x128 .f32} {a21 : FVec F S128 .f32} {a22 : FVec F S128x128 .f32} {a23 : FVec F S128x128 .f32} {a24 : FVec F S128 .f32} {a25 : FVec F S128x128 .f32} {a26 : FVec F S256x128 .f32} {a27 : FVec F S128 .f32} {a28 : FVec F S128x1 .f32} {a29 : FVec F S1 .f32}
    (h : fn (F := F) a0 a1 a2 a3 a4 a5 a6 a7 a8 a9 a10 a11 a12 a13 a14 a15 a16 a17 a18 a19 a20 a21 a22 a23 a24 a25 a26 a27 a28 a29 = fun _ => 1#1) :
    (∀ i, IntOp.cmpi .sge (a2 i) 0#32 = 1#1 ∧ IntOp.cmpi .sle (a2 i) 99999#32 = 1#1) ∧
    (∀ i, IntOp.cmpi .sge (a3 i) 0#32 = 1#1 ∧ IntOp.cmpi .sle (a3 i) 9999#32 = 1#1) ∧
    (∀ i, IntOp.cmpi .sge (a6 i) 0#32 = 1#1 ∧ IntOp.cmpi .sle (a6 i) 99999#32 = 1#1) ∧
    (∀ i, IntOp.cmpi .sge (a7 i) 0#32 = 1#1 ∧ IntOp.cmpi .sle (a7 i) 9999#32 = 1#1) := by
  have h0 := congrFun h ix0
  -- the value at the one index: ((((finiteness ∧ range₂) ∧ range₃) ∧ range₆) ∧ range₇), by unfolding the chain of parts
  have h1 : IntOp.andi (IntOp.andi (IntOp.andi (IntOp.andi _ _) _) _) _ = 1#1 := h0
  obtain ⟨h1, hd⟩ := IntOp.andi_eq_one.1 h1
  obtain ⟨h1, hc⟩ := IntOp.andi_eq_one.1 h1
  obtain ⟨h1, hb⟩ := IntOp.andi_eq_one.1 h1
  obtain ⟨-, ha⟩ := IntOp.andi_eq_one.1 h1
  exact ⟨all_between _ _ _ _ _ _ ha, all_between _ _ _ _ _ _ hb, all_between _ _ _ _ _ _ hc, all_between _ _ _ _ _ _ hd⟩

end

/-- Under the precondition the four index vectors that name table rows hold row numbers of their tables. -/
theorem ranges (I : Inputs)
    (h : Cert.Pre_finite_inputs.fn (F := Ideal) I.xP I.xS I.idP I.idS I.src I.dst I.lblP I.lblS I.embP I.embS I.Wp I.bp I.Ws I.bs I.Wl1ps I.bl1ps I.Wr1ps I.Wl1sp I.bl1sp I.Wr1sp I.Wl2ps I.bl2ps I.Wr2ps I.Wl2sp I.bl2sp I.Wr2sp I.Wc1 I.bc1 I.Wc2 I.bc2 = fun _ => 1#1) :
    InRange I.idP 99999#32 ∧ InRange I.idS 9999#32 ∧ InRange I.lblP 99999#32 ∧ InRange I.lblS 9999#32 :=
  ranges_of_fn h

end Cert.PreRange

end
-- ==== Proof.Bridge.lean ====
/-
  The two programs compute the network over two families of row picks that agree on index vectors holding row
  numbers of their tables; so under the four range facts the two instances of the network are one function.
-/
import proofs.«401606_j16690242913042_1_alg».proof.Proof.Take
import proofs.«401606_j16690242913042_1_alg».proof.Proof.Net

noncomputable section

namespace Cert.Bridge

open Idealize.ShloMosaic Cert.Net Cert.KernelIdeal.Take

variable (I : Inputs)

theorem xp_eq (hP : InRange I.idP 99999#32) : xp takePP I = xp pickPP I := by
  unfold xp; rw [takePP_eq _ _ hP]

theorem xs_eq (hS : InRange I.idS 9999#32) : xs takeSS I = xs pickSS I := by
  unfold xs; rw [takeSS_eq _ _ hS]

theorem hs_eq (hP : InRange I.idP 99999#32) (hS : InRange I.idS 9999#32) : hs takePP takeSS I = hs pickPP pickSS I := by
  unfold hs; rw [xp_eq I hP, xs_eq I hS]

theorem hp_eq (hP : InRange I.idP 99999#32) (hS : InRange I.idS 9999#32) : hp takePP takeSS I = hp pickPP pickSS I := by
  unfold hp; rw [xp_eq I hP, xs_eq I hS]

theorem os_eq (hP : InRange I.idP 99999#32) (hS : InRange I.idS 9999#32) : os takePP takeSS I = os pickPP pickSS I := by
  unfold os; rw [hp_eq I hP hS, hs_eq I hP hS]

theorem op_eq (hP : InRange I.idP 99999#32) (hS : InRange I.idS 9999#32) : op takePP takeSS I = op pickPP pickSS I := by
  unfold op; rw [hp_eq I hP hS, hs_eq I hP hS]

theorem zc_eq (hP : InRange I.idP 99999#32) (hS : InRange I.idS 9999#32) (hLP : InRange I.lblP 99999#32) (hLS : InRange I.lblS 9999#32) :
    zc takePP takeSS takePL takeSL I = zc pickPP pickSS pickPL pickSL I := by
  unfold zc; rw [op_eq I hP hS, os_eq I hP hS, takePL_eq _ _ hLP, takeSL_eq _ _ hLS]

/-- Index vectors in range: the network over the filling row picks is the network over the plain ones. -/
theorem net_eq (hP : InRange I.idP 99999#32) (hS : InRange I.idS 9999#32) (hLP : InRange I.lblP 99999#32) (hLS : InRange I.lblS 9999#32) :
    netOut takePP takeSS takePL takeSL I = netOut pickPP pickSS pickPL pickSL I := by
  unfold netOut; rw [zc_eq I hP hS hLP hLS]

end Cert.Bridge

end
-- ==== Proof.lean ====
/-
  The certificate of the two-type graph network (two input projections, two mean-aggregation layers in each
  direction, a two-layer classifier on picked rows), the Pallas program against its jnp reference, over the
  extended reals.

  Both programs compute ONE function of the thirty argument arrays, `Cert.Net.netOut`: three dense layers
  (Spec: a matrix product as the sum over the shared axis, a bias row, a rectifier as max with 0) around the sparse
  steps both programs leave to the host (row picks, degree counts, scatter-added means). They differ in one
  place: where the reference picks table rows by plain indexing, the kernel's program uses a row pick that
  fills a row whose index lies outside the table with the not-a-number pattern. The precondition says the four
  index vectors that name table rows hold row numbers of their tables; there the two picks agree (Take), hence
  the two instances of the network (Bridge).

  * the kernel side: each launch's output array is its dense layer of the arrays it finds at entry (Region0 … 6,
    from the per-block payloads PayEmbed, PaySage, PayCls: a layer is row-local, so the layer of a row block is the
    row block of the layer); the host stretches between launches are the sparse steps (Take, Agg); buffers not
    written by a step keep their contents (KPass); folded through the program's fifteen segments, the result
    buffer ends at `netOut` over the filling picks (KFold), and the launch over the generated segments ends
    with the result buffer at the fold's last contents (KRunNamed);
  * the reference side: its generated run ends at its composed term, which stage by stage is `netOut` over the
    plain picks (RefValue);
  * the frames of the two kernel programs are the generated ones; the reference's frame is its generated run
    with the result dropped; nothing was idealized away, so `preserves` is `True`.
-/
import proofs.«401606_j16690242913042_1_alg».proof.Defs
import proofs.«401606_j16690242913042_1_alg».proof.Proof.Gen.Kernel
import proofs.«401606_j16690242913042_1_alg».proof.Proof.Gen.Kernel.Frame
import proofs.«401606_j16690242913042_1_alg».proof.Proof.Gen.KernelIdeal
import proofs.«401606_j16690242913042_1_alg».proof.Proof.Gen.KernelIdeal.Frame
import proofs.«401606_j16690242913042_1_alg».proof.Proof.Gen.ReferenceIdeal
import proofs.«401606_j16690242913042_1_alg».proof.Proof.Gen.ReferenceIdeal.Run
import proofs.«401606_j16690242913042_1_alg».proof.Proof.Gen.ReferenceIdeal.Read
import proofs.«401606_j16690242913042_1_alg».proof.Proof.Gen.Pre_finite_inputs
import proofs.«401606_j16690242913042_1_alg».proof.Proof.KRunNamed
import proofs.«401606_j16690242913042_1_alg».proof.Proof.KFold
import proofs.«401606_j16690242913042_1_alg».proof.Proof.RefValue
import proofs.«401606_j16690242913042_1_alg».proof.Proof.PreRange
import proofs.«401606_j16690242913042_1_alg».proof.Proof.Bridge
import Idealize.ShloMosaic.Adequacy
import Idealize.ShloMosaic.Init

noncomputable section

namespace Cert.Proof

open Idealize.ShloMosaic Idealize.ShloMosaic.TcCoe Idealize.SL.Sem

theorem frame_k [Cert.Kernel.Facts] [Cert.Pre_finite_inputs.Facts] : Cert.frame_Kernel := fun m ρ _ => Cert.Kernel.Gen.frame m ρ

theorem frame_ki [Cert.KernelIdeal.Facts] [Cert.Pre_finite_inputs.Facts] : Cert.frame_KernelIdeal := fun m ρ _ => Cert.KernelIdeal.Gen.frame m ρ

/-- The reference's frame: its run ends, nothing faulting, the arguments as launched (the result's value dropped). -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- From memories agreeing on the arguments both runs end with the result at `netOut` of the arguments: the kernel
    program's over the filling row picks, the reference's over the plain ones, equal under the range facts the
    precondition carries. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.Gen.W15 m ρ c (Proc.devRef .tc Cert.KernelIdeal.main_v79),
    Cert.KernelIdeal.Named.run_named m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v150_eq]
  obtain ⟨e0, e1, e2, e3, e4, e5, e6, e7, e8, e9, e10, e11, e12, e13, e14, e15, e16, e17, e18, e19, e20, e21, e22, e23, e24, e25, e26, e27, e28, e29⟩ := hagree c
  rw [e0, e1, e2, e3, e4, e5, e6, e7, e8, e9, e10, e11, e12, e13, e14, e15, e16, e17, e18, e19, e20, e21, e22, e23, e24, e25, e26, e27, e28, e29]
  have hr := Cert.PreRange.ranges (Cert.KernelIdeal.Fold.inputs m c) (hpre c)
  exact (Cert.ReferenceIdeal.RefValue.ref_value (Cert.KernelIdeal.Fold.inputs m c)).trans
    ((Cert.Bridge.net_eq _ hr.1 hr.2.1 hr.2.2.1 hr.2.2.2).symm.trans (Cert.KernelIdeal.Fold.kernel_value m ρ c).symm)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
